-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x256 : Shape := ⟨3, ![4, 1024, 256]⟩
abbrev S4x1024 : Shape := ⟨2, ![4, 1024]⟩
abbrev S32000x256 : Shape := ⟨2, ![32000, 256]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel
  bcast_S_S32000x256 : S_.BroadcastsInDim S32000x256 (![] : Fin 0 → Fin S32000x256.rank)
  reducesTo_S32000x256_S_d0_1 : S32000x256.ReducesTo [0, 1] S_

variable [Facts]

def fn_part1 {F : FTy → Type} [FloatOps F] (main_v13 : IVec S_ 1) (main_v16 : IVec S32000x256 1) : IVec S_ 1 :=
  let main_c_5 : IVec S_ 1 := constantI S_ 1 1#1
  let main_v17 : IVec S_ 1 := (fun x v => Host.reduce IntOp.andi x v reducesTo_S32000x256_S_d0_1 h_S_) main_v16 main_c_5
  let main_v18 : IVec S_ 1 := andi main_v13 main_v17
  main_v18

def fn {F : FTy → Type} [FloatOps F] (main_arg0 : FVec F S4x1024x256 .f32) (main_arg1 : FVec F S4x1024x256 .f32) (main_arg2 : IVec S4x1024 1) (main_arg3 : FVec F S32000x256 .f32) (main_arg4 : FVec F S32000x256 .f32) : IVec S_ 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  let main_v4 : FVec F S4x1024x256 .f32 := Host.absf main_arg1
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_c_1 : IVec S_ 1 := constantI S_ 1 1#1
  let main_v7 : IVec S_ 1 := (fun x v => Host.reduce IntOp.andi x v reducesTo_S4x1024x256_S_d0_1_2 h_S_) main_v6 main_c_1
  let main_v8 : IVec S_ 1 := andi main_v3 main_v7
  let main_v9 : FVec F S32000x256 .f32 := Host.absf main_arg3
  let main_cst_2 : FVec F S_ .f32 := constant S_ .f32 0x7F800000#32
  let main_v10 : FVec F S32000x256 .f32 := broadcastInDim S32000x256 ![] bcast_S_S32000x256 main_cst_2
  let main_v11 : IVec S32000x256 1 := cmpf .olt main_v9 main_v10
  let main_c_3 : IVec S_ 1 := constantI S_ 1 1#1
  let main_v12 : IVec S_ 1 := (fun x v => Host.reduce IntOp.andi x v reducesTo_S32000x256_S_d0_1 h_S_) main_v11 main_c_3
  let main_v13 : IVec S_ 1 := andi main_v8 main_v12
  let main_v14 : FVec F S32000x256 .f32 := Host.absf main_arg4
  let main_cst_4 : FVec F S_ .f32 := constant S_ .f32 0x7F800000#32
  let main_v15 : FVec F S32000x256 .f32 := broadcastInDim S32000x256 ![] bcast_S_S32000x256 main_cst_4
  let main_v16 : IVec S32000x256 1 := cmpf .olt main_v14 main_v15
  fn_part1 (F := F) main_v13 main_v16
-- ==== Kernel.lean ====
abbrev S4x1024x256 : Shape := ⟨3, ![4, 1024, 256]⟩
abbrev S4x1024 : Shape := ⟨2, ![4, 1024]⟩
abbrev S32000x256 : Shape := ⟨2, ![32000, 256]⟩
abbrev S4096x256 : Shape := ⟨2, ![4096, 256]⟩
abbrev S2048x256 : Shape := ⟨2, ![2048, 256]⟩
abbrev S1280x256 : Shape := ⟨2, ![1280, 256]⟩
abbrev S2048x1 : Shape := ⟨2, ![2048, 1]⟩
abbrev S2048x1280 : Shape := ⟨2, ![2048, 1280]⟩
abbrev S2048 : Shape := ⟨1, ![2048]⟩

abbrev nBuf : Space → Nat
  | .hbm => 11
  | .vmem => 18
  | .smem => 0
  | _ => 0

abbrev bufTy : (tb : Table) → Fin (tcTables nBuf tb) → BufTy
  | .hbm, ⟨0, _⟩ => ⟨S4x1024x256, .f32⟩
  | .hbm, ⟨1, _⟩ => ⟨S4x1024x256, .f32⟩
  | .hbm, ⟨2, _⟩ => ⟨S4x1024, .i1⟩
  | .hbm, ⟨3, _⟩ => ⟨S32000x256, .f32⟩
  | .hbm, ⟨4, _⟩ => ⟨S32000x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4x1024x256, .f32⟩
  | .hbm, ⟨10, _⟩ => ⟨S4x1024x256, .f32⟩
  | .local _ .vmem, ⟨0, _⟩ => ⟨S2048x256, .f32⟩
  | .local _ .vmem, ⟨1, _⟩ => ⟨S2048x256, .f32⟩
  | .local _ .vmem, ⟨2, _⟩ => ⟨S1280x256, .f32⟩
  | .local _ .vmem, ⟨3, _⟩ => ⟨S1280x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x1, .f32⟩
  | .local _ .vmem, ⟨8, _⟩ => ⟨S2048x1, .f32⟩
  | .local _ .vmem, ⟨9, _⟩ => ⟨S2048x256, .f32⟩
  | .local _ .vmem, ⟨10, _⟩ => ⟨S2048x256, .f32⟩
  | .local _ .vmem, ⟨11, _⟩ => ⟨S1280x256, .f32⟩
  | .local _ .vmem, ⟨12, _⟩ => ⟨S1280x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x1, .f32⟩
  | .local _ .vmem, ⟨17, _⟩ => ⟨S2048x1, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v39 : BitVec 1 := Scalar.cmpi .eq arg1 c24_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v39 : BitVec 1 := Scalar.cmpi .eq arg1 c24_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S4x1024x256_S4096x256 : S4x1024x256.ShapeCasts S4096x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1280x256_S1280x256_0_0 : ∀ a, (![0, 0] : Fin 2 → Nat) a + S1280x256.size a ≤ S1280x256.size a
  h_S1280x256 : 0 < S1280x256.numel
  reduces_S2048x1280_S2048 : S2048x1280.Reduces [1] S2048
  shapeCasts_S2048_S2048x1 : S2048.ShapeCasts S2048x1
  broadcasts_S2048x1_S2048x1280 : S2048x1.Broadcasts S2048x1280
  broadcasts_S2048x1_S2048x256 : S2048x1.Broadcasts S2048x256
  shapeCasts_S4096x256_S4x1024x256 : S4096x256.ShapeCasts S4x1024x256
  dot_S2048x256_S1280x256_S2048x1280_1_1_0_0_n_n_wf : DotDims.WF S2048x256 S1280x256 S2048x1280 [1] [1] [0] [0] [] []
  dot_S2048x1280_S1280x256_S2048x256_1_0_0_1_n_n_wf : DotDims.WF S2048x1280 S1280x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S32000x256.size a
  hwx0_1 : ∀ i : grid0.Coords, EltTy.bits .f32 = 32 ∨ (Rect.block (s := S32000x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x256.size a
  hwx0_2 : ∀ i : grid0.Coords, EltTy.bits .f32 = 32 ∨ (Rect.block (s := S4096x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .f32 = 32 ∨ (Rect.block (s := S4096x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x256.size a ≤ S32000x256.size a
  hwx1_1 : ∀ i : grid1.Coords, EltTy.bits .f32 = 32 ∨ (Rect.block (s := S32000x256) S1280x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x256.size a
  hwx1_2 : ∀ i : grid1.Coords, EltTy.bits .f32 = 32 ∨ (Rect.block (s := S4096x256) S2048x256.size (cc1_transform_2 i) (hinb1_2 i)).WholeWords (EltTy.packing .f32)

variable [Facts₀]

def dot_S2048x256_S1280x256_S2048x1280_1_1_0_0_n_n : DotDims S2048x256 S1280x256 S2048x1280 where
  lhsContracting := [1]
  rhsContracting := [1]
  lhsNonContracting := [0]
  rhsNonContracting := [0]
  lhsBatch := []
  rhsBatch := []
  wf := dot_S2048x256_S1280x256_S2048x1280_1_1_0_0_n_n_wf
def dot_S2048x1280_S1280x256_S2048x256_1_0_0_1_n_n : DotDims S2048x1280 S1280x256 S2048x256 where
  lhsContracting := [1]
  rhsContracting := [0]
  lhsNonContracting := [0]
  rhsNonContracting := [1]
  lhsBatch := []
  rhsBatch := []
  wf := dot_S2048x1280_S1280x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1280x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x1024x256 : Shape := ⟨3, ![4, 1024, 256]⟩
abbrev S4x1024 : Shape := ⟨2, ![4, 1024]⟩
abbrev S32000x256 : Shape := ⟨2, ![32000, 256]⟩
abbrev S4x1024x32000 : Shape := ⟨3, ![4, 1024, 32000]⟩
abbrev S_ : Shape := ⟨0, ![]⟩
abbrev S4x1024x1 : Shape := ⟨3, ![4, 1024, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S4x1024x256, .f32⟩
  | .hbm, ⟨2, _⟩ => ⟨S4x1024, .i1⟩
  | .hbm, ⟨3, _⟩ => ⟨S32000x256, .f32⟩
  | .hbm, ⟨4, _⟩ => ⟨S32000x256, .f32⟩
  | .hbm, ⟨5, _⟩ => ⟨S4x1024x32000, .f32⟩
  | .hbm, ⟨6, _⟩ => ⟨S_, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024x1, .f32⟩
  | .hbm, ⟨12, _⟩ => ⟨S4x1024x32000, .f32⟩
  | .hbm, ⟨13, _⟩ => ⟨S4x1024x32000, .f32⟩
  | .hbm, ⟨14, _⟩ => ⟨S4x1024x32000, .f32⟩
  | .hbm, ⟨15, _⟩ => ⟨S_, .f32⟩
  | .hbm, ⟨16, _⟩ => ⟨S4x1024, .f32⟩
  | .hbm, ⟨17, _⟩ => ⟨S4x1024x1, .f32⟩
  | .hbm, ⟨18, _⟩ => ⟨S4x1024x32000, .f32⟩
  | .hbm, ⟨19, _⟩ => ⟨S4x1024x32000, .f32⟩
  | .hbm, ⟨20, _⟩ => ⟨S4x1024x32000, .f32⟩
  | .hbm, ⟨21, _⟩ => ⟨S_, .f32⟩
  | .hbm, ⟨22, _⟩ => ⟨S4x1024, .f32⟩
  | .hbm, ⟨23, _⟩ => ⟨S_, .f32⟩
  | .hbm, ⟨24, _⟩ => ⟨S4x1024, .f32⟩
  | .hbm, ⟨25, _⟩ => ⟨S4x1024, .f32⟩
  | .hbm, ⟨26, _⟩ => ⟨S4x1024x1, .f32⟩
  | .hbm, ⟨27, _⟩ => ⟨S4x1024x32000, .f32⟩
  | .hbm, ⟨28, _⟩ => ⟨S4x1024x32000, .f32⟩
  | .hbm, ⟨29, _⟩ => ⟨S4x1024x32000, .f32⟩
  | .hbm, ⟨30, _⟩ => ⟨S_, .f32⟩
  | .hbm, ⟨31, _⟩ => ⟨S4x1024, .f32⟩
  | .hbm, ⟨32, _⟩ => ⟨S4x1024x1, .f32⟩
  | .hbm, ⟨33, _⟩ => ⟨S4x1024x32000, .f32⟩
  | .hbm, ⟨34, _⟩ => ⟨S4x1024x32000, .f32⟩
  | .hbm, ⟨35, _⟩ => ⟨S4x1024x256, .f32⟩
  | .hbm, ⟨36, _⟩ => ⟨S4x1024x256, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  dot_S4x1024x256_S32000x256_S4x1024x32000_2_1_01_0_n_n_wf : DotDims.WF S4x1024x256 S32000x256 S4x1024x32000 [2] [1] [0, 1] [0] [] []
  dot_S4x1024x32000_S32000x256_S4x1024x256_2_0_01_1_n_n_wf : DotDims.WF S4x1024x32000 S32000x256 S4x1024x256 [2] [0] [0, 1] [1] [] []

variable [Facts₀]

def dot_S4x1024x256_S32000x256_S4x1024x32000_2_1_01_0_n_n : DotDims S4x1024x256 S32000x256 S4x1024x32000 where
  lhsContracting := [2]
  rhsContracting := [1]
  lhsNonContracting := [0, 1]
  rhsNonContracting := [0]
  lhsBatch := []
  rhsBatch := []
  wf := dot_S4x1024x256_S32000x256_S4x1024x32000_2_1_01_0_n_n_wf
def dot_S4x1024x32000_S32000x256_S4x1024x256_2_0_01_1_n_n : DotDims S4x1024x32000 S32000x256 S4x1024x256 where
  lhsContracting := [2]
  rhsContracting := [0]
  lhsNonContracting := [0, 1]
  rhsNonContracting := [1]
  lhsBatch := []
  rhsBatch := []
  wf := dot_S4x1024x32000_S32000x256_S4x1024x256_2_0_01_1_n_n_wf

class Facts : Prop extends Facts₀ where

variable [Facts]
-- ==== Proof.Kernel.Common0.lean ====
/-
  Region 0 (the first pallas_call: the G path) — what its three control cases share.

  The grid is 2 × 25: the outer coordinate picks one of two 2048-row tiles of the 4096 query rows, the inner coordinate
  k walks the 25 tiles of 1280 table rows. The body re-initialises its three scratch buffers (running maximum, running
  denominator, running numerator) where k = 0, updates them at every k, and divides numerator by denominator into the
  output block where k = 24. So a point t of the 50 is in exactly one of three cases: FIRST (t % 25 = 0), MIDDLE, LAST
  (t % 25 = 24); the output window is idle (not stored, not written back) except in the LAST case.
-/
import proofs.«418895_j12197707120761_3_alg».proof.Proof.Gen.Kernel.Launch
import proofs.«418895_j12197707120761_3_alg».proof.Proof.Gen.Kernel.Skeleton
import proofs.«418895_j12197707120761_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the 50 points -/

/-- "k = 0": the condition of the re-initialising branch, as the body computes it from the inner coordinate. -/
abbrev isFirst (i : grid0.Coords) : Prop :=
  (Scalar.cmpi .ne (Scalar.extui (Scalar.cmpi .eq (BitVec.ofNat 32 (i 1).val) 0#32)) 0#32) = 1#1
/-- "k = 24": the condition of the finalising branch. -/
abbrev isLast (i : grid0.Coords) : Prop := k0_cond2 i = 1#1

theorem isFirst_iff : ∀ t : Fin cfg0.N, isFirst (grid0.coords t) ↔ t.val % 25 = 0 :=
  (by decide +kernel : ∀ t : Fin grid0.N, isFirst (grid0.coords t) ↔ t.val % 25 = 0)
theorem isLast_iff : ∀ t : Fin cfg0.N, isLast (grid0.coords t) ↔ t.val % 25 = 24 :=
  (by decide +kernel : ∀ t : Fin grid0.N, isLast (grid0.coords t) ↔ t.val % 25 = 24)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The memrefs the body is called with -/

abbrev mx (t : Fin cfg0.N) : Memref sig .tc .vmem S2048x256 .f32 := win0_0.stage (cfg0.slots t 0)
abbrev hmx (t : Fin cfg0.N) : (mx t).IsWhole := hstage0_0 ((cfg0.slots t 0).cast nbuf0_0)
abbrev mw (t : Fin cfg0.N) : Memref sig .tc .vmem S1280x256 .f32 := win0_1.stage (cfg0.slots t 1)
abbrev hmw (t : Fin cfg0.N) : (mw t).IsWhole := hstage0_1 ((cfg0.slots t 1).cast nbuf0_1)
abbrev mo (t : Fin cfg0.N) : Memref sig .tc .vmem S2048x256 .f32 := win0_2.stage (cfg0.slots t 2)
abbrev hmo (t : Fin cfg0.N) : (mo t).IsWhole := hstage0_2 ((cfg0.slots t 2).cast nbuf0_2)
/-- The three scratch operands: running numerator (2048 × 256), running maximum and running denominator (2048 × 1). -/
abbrev scAcc : Memref sig .tc .vmem S2048x256 .f32 := Memref.whole cc0_scratch0
abbrev scMax : Memref sig .tc .vmem S2048x1 .f32 := Memref.whole cc0_scratch1
abbrev scDen : Memref sig .tc .vmem S2048x1 .f32 := Memref.whole cc0_scratch2
abbrev VAcc : View sig .tc .vmem S2048x256 .f32 := scAcc.view
abbrev VMax : View sig .tc .vmem S2048x1 .f32 := scMax.view
abbrev VDen : View sig .tc .vmem S2048x1 .f32 := scDen.view
abbrev VOut : View sig .tc .vmem S2048x256 .f32 := (Memref.whole cc0_stg2_0 : Memref sig .tc .vmem S2048x256 .f32).view

/-- The core's scoped buffers that region 0 neither stages through nor uses as scratch: the second call's staging
    buffers and scratch, each whole at some contents. They ride through region 0 untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The region's class invariant, opened: the three scratch operands as memrefs owned at some contents, the other
    scoped buffers, the generator register at some state. -/
theorem PhiA_eq (c : Dev nD) :
    (Pipeline.ΦA spec0 c : sProp 𝕄)
      = iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r)) := by
  unfold Pipeline.ΦA others; rw [scopedRest0_eq]; simp only [scAcc, scMax, scDen, owns_whole]; try rfl

/-- The class invariant gives the three scratch buffers at some contents, the other scoped buffers and the register; -/
theorem PhiA_open (c : Dev nD) :
    (Pipeline.ΦA spec0 c : sProp 𝕄)
      ⊢ iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r)) := by
  rw [PhiA_eq]
/-- and is made of them again. -/
theorem PhiA_close (c : Dev nD) :
    iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r))
      ⊢ (Pipeline.ΦA spec0 c : sProp 𝕄) := by
  rw [PhiA_eq]

end Cert.Kernel.R0

end
-- ==== Proof.Kernel.RunMid0.lean ====
/-
  Region 0, the MIDDLE case (0 < k < 24): the body on whole memrefs. It reads the query tile, the table tile and the
  three running quantities, and stores the updated running denominator, numerator and maximum; the output buffer is
  not touched. What each scratch buffer ends with is found by running the body: the lists of stored pieces.
-/
import proofs.«418895_j12197707120761_3_alg».proof.Proof.Kernel.Common0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stored pieces of the three scratch buffers in the middle case, with the proof that the body, started on the
    query tile `x`, the table tile `w`, an untouched output buffer `xo` and the running numerator `a`, maximum `mm`
    and denominator `l`, runs to the end leaving the inputs and the output buffer as they were and each scratch buffer
    with its pieces written. -/
noncomputable def runMid (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : ¬isLast i)
    (x : Vec F S2048x256 .f32) (w : Vec F S1280x256 .f32) (a : Vec F S2048x256 .f32) (mm : Vec F S2048x1 .f32) (l : Vec F S2048x1 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc0__flash_embed_kernel i arg2 harg2 arg3 harg3 arg4 harg4 arg5 harg5 arg6 harg6 arg7 harg7) K } := by
  refine ⟨?_, ?_, ?_, fun xo E K => ?run⟩
  case run =>
    simp only [cc0__flash_embed_kernel_eq_skeleton]; unfold cc0__flash_embed_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.Kernel.R0

end
-- ==== Proof.Kernel.RunFirst0.lean ====
/-
  Region 0, the FIRST case (k = 0): the body re-initialises the three scratch buffers (maximum to the large negative
  constant, denominator and numerator to zero) and then updates them as at every point; the output buffer is not touched.
-/
import proofs.«418895_j12197707120761_3_alg».proof.Proof.Kernel.RunMid0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stored pieces of the three scratch buffers in the first case, with the proof that the body, started on the query
    tile `x`, the table tile `w`, an untouched output buffer `xo` and the scratch buffers at ANY contents, runs to the end
    leaving the inputs and the output buffer as they were and each scratch buffer with its pieces written. -/
noncomputable def runFirst (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : isFirst i) (hc1 : ¬isLast i)
    (x : Vec F S2048x256 .f32) (w : Vec F S1280x256 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc0__flash_embed_kernel i arg2 harg2 arg3 harg3 arg4 harg4 arg5 harg5 arg6 harg6 arg7 harg7) K } := by
  refine ⟨?_, ?_, ?_, fun xo E K => ?run⟩
  case run =>
    simp only [cc0__flash_embed_kernel_eq_skeleton]; unfold cc0__flash_embed_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.Kernel.R0

end
-- ==== Proof.Kernel.RunLast0.lean ====
/-
  Region 0, the LAST case (k = 24): after the update the body divides the running numerator by the running denominator
  and stores the quotient into the output buffer, which the pipeline then writes back.
-/
import proofs.«418895_j12197707120761_3_alg».proof.Proof.Kernel.RunFirst0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stored pieces of the output buffer and of the three scratch buffers in the last case, with the proof that the body,
    started on the query tile `x`, the table tile `w`, the output buffer at ANY contents and the running numerator `a`,
    maximum `mm` and denominator `l`, runs to the end leaving the inputs as they were and the four buffers with their pieces written. -/
noncomputable def runLast (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : isLast i)
    (x : Vec F S2048x256 .f32) (w : Vec F S1280x256 .f32) (a : Vec F S2048x256 .f32) (mm : Vec F S2048x1 .f32) (l : Vec F S2048x1 .f32) :
    Σ' (LO : List (View.Piece (Elt F) S2048x256 .f32)) (LA : List (View.Piece (Elt F) S2048x256 .f32)) (LM : List (View.Piece (Elt F) S2048x1 .f32)), { LD : List (View.Piece (Elt F) S2048x1 .f32) //
      ∀ (E : Set ℕ) (K : PUnit → sProp 𝕄),
        iprop(owns (c : Thread nD τ) arg2 fullShare x ∗ owns (c : Thread nD τ) arg3 fullShare w ∗ (∃ d, owns (c : Thread nD τ) arg4 fullShare d)
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc0__flash_embed_kernel i arg2 harg2 arg3 harg3 arg4 harg4 arg5 harg5 arg6 harg6 arg7 harg7) K } := by
  refine ⟨?_, ?_, ?_, ?_, fun E K => ?run⟩
  case run =>
    simp only [cc0__flash_embed_kernel_eq_skeleton]; unfold cc0__flash_embed_kernel_skel
    simp only [k0_part1_eq_skeleton]
    unfold owns
    iintro ⟨⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.Kernel.R0

end
-- ==== Proof.Kernel.Left0.lean ====
/-
  Region 0: what the three cases leave, the recursion over the 50 points, the invariant and the proof data.

  After the body at a point the three scratch buffers hold the running numerator, maximum and denominator of the query
  tile's rows over the table tiles seen so far; the output buffer holds their quotient after a LAST point. The state
  after point n is defined by recursion on n: a FIRST point restarts from the constants, a MIDDLE or LAST point
  continues from what point n - 1 left.
-/
import proofs.«418895_j12197707120761_3_alg».proof.Proof.Kernel.RunLast0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The stored pieces cover their buffers -/

section Cases

variable (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole)

theorem cover_first_acc (hc0 : isFirst i) (hc1 : ¬isLast i) (x : Vec F S2048x256 .f32) (w : Vec F S1280x256 .f32) (y : S2048x256.Idx) :
    ∃ pc ∈ (runFirst c i arg2 harg2 arg3 harg3 arg4 harg4 arg5 harg5 arg6 harg6 arg7 harg7 hc0 hc1 x w).1, y ∈ pc.1.set :=
  View.cover_of_tiledL (runFirst c i arg2 harg2 arg3 harg3 arg4 harg4 arg5 harg5 arg6 harg6 arg7 harg7 hc0 hc1 x w).1 S2048x256.size (by sl_kernel_rfl) y
theorem cover_first_max (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.1, y ∈ pc.1.set :=
  View.cover_of_tiledL (runFirst c i arg2 harg2 arg3 harg3 arg4 harg4 arg5 harg5 arg6 harg6 arg7 harg7 hc0 hc1 x w).2.1 S2048x1.size (by sl_kernel_rfl) y
theorem cover_first_den (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.2.1, y ∈ pc.1.set :=
  View.cover_of_tiledL (runFirst c i arg2 harg2 arg3 harg3 arg4 harg4 arg5 harg5 arg6 harg6 arg7 harg7 hc0 hc1 x w).2.2.1 S2048x1.size (by sl_kernel_rfl) y

theorem cover_mid_acc (hc0 : ¬isFirst i) (hc1 : ¬isLast i) (x : Vec F S2048x256 .f32) (w : Vec F S1280x256 .f32) (a : Vec F S2048x256 .f32) (mm l : Vec F S2048x1 .f32) (y : S2048x256.Idx) :
    ∃ pc ∈ (runMid c i arg2 harg2 arg3 harg3 arg4 harg4 arg5 harg5 arg6 harg6 arg7 harg7 hc0 hc1 x w a mm l).1, y ∈ pc.1.set :=
  View.cover_of_tiledL (runMid c i arg2 harg2 arg3 harg3 arg4 harg4 arg5 harg5 arg6 harg6 arg7 harg7 hc0 hc1 x w a mm l).1 S2048x256.size (by sl_kernel_rfl) y
theorem cover_mid_max (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.1, y ∈ pc.1.set :=
  View.cover_of_tiledL (runMid c i arg2 harg2 arg3 harg3 arg4 harg4 arg5 harg5 arg6 harg6 arg7 harg7 hc0 hc1 x w a mm l).2.1 S2048x1.size (by sl_kernel_rfl) y
theorem cover_mid_den (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.2.1, y ∈ pc.1.set :=
  View.cover_of_tiledL (runMid c i arg2 harg2 arg3 harg3 arg4 harg4 arg5 harg5 arg6 harg6 arg7 harg7 hc0 hc1 x w a mm l).2.2.1 S2048x1.size (by sl_kernel_rfl) y

theorem cover_last_out (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).1, y ∈ pc.1.set :=
  View.cover_of_tiledL (runLast c i arg2 harg2 arg3 harg3 arg4 harg4 arg5 harg5 arg6 harg6 arg7 harg7 hc0 hc1 x w a mm l).1 S2048x256.size (by sl_kernel_rfl) y
theorem cover_last_acc (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).2.1, y ∈ pc.1.set :=
  View.cover_of_tiledL (runLast c i arg2 harg2 arg3 harg3 arg4 harg4 arg5 harg5 arg6 harg6 arg7 harg7 hc0 hc1 x w a mm l).2.1 S2048x256.size (by sl_kernel_rfl) y
theorem cover_last_max (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.1, y ∈ pc.1.set :=
  View.cover_of_tiledL (runLast c i arg2 harg2 arg3 harg3 arg4 harg4 arg5 harg5 arg6 harg6 arg7 harg7 hc0 hc1 x w a mm l).2.2.1 S2048x1.size (by sl_kernel_rfl) y
theorem cover_last_den (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.2.1, y ∈ pc.1.set :=
  View.cover_of_tiledL (runLast c i arg2 harg2 arg3 harg3 arg4 harg4 arg5 harg5 arg6 harg6 arg7 harg7 hc0 hc1 x w a mm l).2.2.2.1 S2048x1.size (by sl_kernel_rfl) y

/-! ## What each case leaves: the pieces read back -/

/-- The contents of the output buffer, the numerator, the maximum and the denominator after a point. -/
abbrev St (F : FTy → Type) : Type := Vec F S2048x256 .f32 × Vec F S2048x256 .f32 × Vec F S2048x1 .f32 × Vec F S2048x1 .f32

/-- After a FIRST point (the output buffer is not stored: a placeholder nothing consults). -/
def leftFirst (hc0 : isFirst i) (hc1 : ¬isLast i) (x : Vec F S2048x256 .f32) (w : Vec F S1280x256 .f32) : St F :=
  (VOut.read (Elt F) (VOut.junk),
   VAcc.read (Elt F) (VAcc.writes (Elt F) VAcc.junk (runFirst c i arg2 harg2 arg3 harg3 arg4 harg4 arg5 harg5 arg6 harg6 arg7 harg7 hc0 hc1 x w).1),
   VMax.read (Elt F) (VMax.writes (Elt F) VMax.junk (runFirst c i arg2 harg2 arg3 harg3 arg4 harg4 arg5 harg5 arg6 harg6 arg7 harg7 hc0 hc1 x w).2.1),
   VDen.read (Elt F) (VDen.writes (Elt F) VDen.junk (runFirst c i arg2 harg2 arg3 harg3 arg4 harg4 arg5 harg5 arg6 harg6 arg7 harg7 hc0 hc1 x w).2.2.1))
/-- After a MIDDLE point, over what the point before left. -/
def leftMid (hc0 : ¬isFirst i) (hc1 : ¬isLast i) (x : Vec F S2048x256 .f32) (w : Vec F S1280x256 .f32) (p : St F) : St F :=
  (VOut.read (Elt F) (VOut.junk),
   VAcc.read (Elt F) (VAcc.writes (Elt F) VAcc.junk (runMid c i arg2 harg2 arg3 harg3 arg4 harg4 arg5 harg5 arg6 harg6 arg7 harg7 hc0 hc1 x w p.2.1 p.2.2.1 p.2.2.2).1),
   VMax.read (Elt F) (VMax.writes (Elt F) VMax.junk (runMid c i arg2 harg2 arg3 harg3 arg4 harg4 arg5 harg5 arg6 harg6 arg7 harg7 hc0 hc1 x w p.2.1 p.2.2.1 p.2.2.2).2.1),
   VDen.read (Elt F) (VDen.writes (Elt F) VDen.junk (runMid c i arg2 harg2 arg3 harg3 arg4 harg4 arg5 harg5 arg6 harg6 arg7 harg7 hc0 hc1 x w p.2.1 p.2.2.1 p.2.2.2).2.2.1))
/-- After a LAST point, over what the point before left. -/
def leftLast (hc0 : ¬isFirst i) (hc1 : isLast i) (x : Vec F S2048x256 .f32) (w : Vec F S1280x256 .f32) (p : St F) : St F :=
  (VOut.read (Elt F) (VOut.writes (Elt F) VOut.junk (runLast c i arg2 harg2 arg3 harg3 arg4 harg4 arg5 harg5 arg6 harg6 arg7 harg7 hc0 hc1 x w p.2.1 p.2.2.1 p.2.2.2).1),
   VAcc.read (Elt F) (VAcc.writes (Elt F) VAcc.junk (runLast c i arg2 harg2 arg3 harg3 arg4 harg4 arg5 harg5 arg6 harg6 arg7 harg7 hc0 hc1 x w p.2.1 p.2.2.1 p.2.2.2).2.1),
   VMax.read (Elt F) (VMax.writes (Elt F) VMax.junk (runLast c i arg2 harg2 arg3 harg3 arg4 harg4 arg5 harg5 arg6 harg6 arg7 harg7 hc0 hc1 x w p.2.1 p.2.2.1 p.2.2.2).2.2.1),
   VDen.read (Elt F) (VDen.writes (Elt F) VDen.junk (runLast c i arg2 harg2 arg3 harg3 arg4 harg4 arg5 harg5 arg6 harg6 arg7 harg7 hc0 hc1 x w p.2.1 p.2.2.1 p.2.2.2).2.2.2.1))

end Cases

end Cert.Kernel.R0

end
-- ==== Proof.Kernel.State0.lean ====
/-
  Region 0: the state after each of the 50 points, the invariant that carries the scratch buffers between points, the
  proof data of the pipeline and the body obligation — at a PARAMETER `V`, the core's buffer contents when the region
  is entered.
-/
import proofs.«418895_j12197707120761_3_alg».proof.Proof.Kernel.Left0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's buffer holds its block at every point, fetched there or not (the block index moves only with
    the outer coordinate, and the body leaves the block in place). -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The table window's buffer holds its block at every point (it is fetched at every point). -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The state after each point -/

/-- The three cases at point `t`, on the point's memrefs and blocks. -/
def atFirst (c : Dev nD) (t : Fin cfg0.N) (h0 : t.val % 25 = 0) (h1 : ¬t.val % 25 = 24) : St F :=
  leftFirst c (grid0.coords t) (mx t) (hmx t) (mw t) (hmw t) (mo t) (hmo t) scAcc (Memref.isWhole_whole _) scMax (Memref.isWhole_whole _) scDen (Memref.isWhole_whole _)
    ((isFirst_iff t).mpr h0) (fun h => h1 ((isLast_iff t).mp h)) (iblk V c 0 t) (iblk V c 1 t)
def atMid (c : Dev nD) (t : Fin cfg0.N) (h0 : ¬t.val % 25 = 0) (h1 : ¬t.val % 25 = 24) (p : St F) : St F :=
  leftMid c (grid0.coords t) (mx t) (hmx t) (mw t) (hmw t) (mo t) (hmo t) scAcc (Memref.isWhole_whole _) scMax (Memref.isWhole_whole _) scDen (Memref.isWhole_whole _)
    (fun h => h0 ((isFirst_iff t).mp h)) (fun h => h1 ((isLast_iff t).mp h)) (iblk V c 0 t) (iblk V c 1 t) p
def atLast (c : Dev nD) (t : Fin cfg0.N) (h0 : ¬t.val % 25 = 0) (h1 : t.val % 25 = 24) (p : St F) : St F :=
  leftLast c (grid0.coords t) (mx t) (hmx t) (mw t) (hmw t) (mo t) (hmo t) scAcc (Memref.isWhole_whole _) scMax (Memref.isWhole_whole _) scDen (Memref.isWhole_whole _)
    (fun h => h0 ((isFirst_iff t).mp h)) ((isLast_iff t).mpr h1) (iblk V c 0 t) (iblk V c 1 t) p

/-- What the output buffer and the three scratch buffers hold after the body at position `n`: a FIRST point restarts,
    the others continue from position `n - 1`. -/
def stateAt (c : Dev nD) : (n : ℕ) → n < cfg0.N → St F
  | 0, hn => atFirst V c ⟨0, hn⟩ (Nat.zero_mod _) (by show ¬ (0 % 25 = 24); decide)
  | n + 1, hn =>
    if h0 : (n + 1) % 25 = 0 then atFirst V c ⟨n + 1, hn⟩ h0 (by show ¬ ((n + 1) % 25 = 24); omega)
    else if h1 : (n + 1) % 25 = 24 then atLast V c ⟨n + 1, hn⟩ h0 h1 (stateAt c n (Nat.lt_of_succ_lt hn))
    else atMid V c ⟨n + 1, hn⟩ h0 h1 (stateAt c n (Nat.lt_of_succ_lt hn))

theorem stateAt_first (c : Dev nD) (t : Fin cfg0.N) (h0 : t.val % 25 = 0) (h1 : ¬t.val % 25 = 24) :
    stateAt V c t.val t.isLt = atFirst V c t h0 h1 := by
  obtain ⟨n, hn⟩ := t
  cases n with
  | zero => rfl
  | succ n => exact (dif_pos h0).trans rfl
theorem stateAt_mid (c : Dev nD) (t : Fin cfg0.N) (h0 : ¬t.val % 25 = 0) (h1 : ¬t.val % 25 = 24) :
    stateAt V c t.val t.isLt = atMid V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stateAt_last (c : Dev nD) (t : Fin cfg0.N) (h0 : ¬t.val % 25 = 0) (h1 : t.val % 25 = 24) :
    stateAt V c t.val t.isLt = atLast V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point: the class invariant (every scratch buffer at anything). Afterwards: the three scratch
    buffers at what the point before left, the other scoped buffers and the generator register as they come. -/
def PhiS (c : Dev nD) : (n : ℕ) → n ≤ cfg0.N → sProp 𝕄
  | 0, _ => Pipeline.ΦA spec0 c
  | n + 1, hn => iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r)) := rfl
theorem PhiS_pos (c : Dev nD) (n : ℕ) (h : n ≤ cfg0.N) (hz : n ≠ 0) :
    PhiS V c n h = iprop(iprop(owns (c : Thread nD τ) scAcc fullShare (stateAt V c (n - 1) (by omega)).2.1 ∗ owns (c : Thread nD τ) scMax fullShare (stateAt V c (n - 1) (by omega)).2.2.1
      ∗ owns (c : Thread nD τ) scDen fullShare (stateAt V c (n - 1) (by omega)).2.2.2 ∗ others (F := F) c) ∗ (∃ r, prngReg c r)) := by
  cases n with
  | zero => exact absurd rfl hz
  | succ n => rfl

/-! ## The proof data -/

/-- The pipeline's proof data on core `c`: the arrays as the region finds them; after the body at point `t` the two
    input buffers at their blocks and the output buffer at the state's first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (stateAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_out (c : Dev nD) (t : Fin cfg0.N) : (dat V c).after 2 t = (stateAt V c t.val t.isLt).1 := by dsimp only [dat]
theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d

end Region

end Cert.Kernel.R0

end
-- ==== Proof.Kernel.Body0.lean ====
/-
  Region 0: the body obligation at every point. The point's case is read off the closed forms of the two branch
  conditions; in each case that case's whole-body run applies, the invariant hands the body the scratch buffers (at
  anything before the first point, at what the point before left afterwards) and takes them back at this point's state.
-/
import proofs.«418895_j12197707120761_3_alg».proof.Proof.Kernel.State0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_x (c : Dev nD) (t : Fin cfg0.N) :
    (dat V c).leavesExact 0 t = owns (c : Thread nD τ) (mx t) fullShare ((dat V c).after 0 t) := by
  unfold Dat.leavesExact; rw [live_x t]
theorem leaves_w (c : Dev nD) (t : Fin cfg0.N) :
    (dat V c).leavesExact 1 t = owns (c : Thread nD τ) (mw t) fullShare ((dat V c).after 1 t) := by
  unfold Dat.leavesExact; rw [live_w t]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).owesAt () t.succ = (dat V c).owesAt () t.castSucc from rfl]
  rw [show (dat V c).Φ t.succ = PhiS V c (t.val + 1) t.isLt from rfl, PhiS_succ]
  rw [leaves_x, leaves_w, after_x, after_w]
  have hN : t.val < 50 := lt_of_lt_of_eq t.isLt (show cfg0.N = 50 from N_0)
  by_cases h0 : t.val % 25 = 0
  · have h1 : ¬t.val % 25 = 24 := by omega
    rw [Dat.leavesExact_idle (dat V c) 2 t (idle_out t (fun h => h1 ((isLast_iff t).mp h))) (noFlush_out t (fun h => h1 ((isLast_iff t).mp h)))]
    rw [stateAt_first V c t h0 h1]
    unfold atFirst leftFirst; dsimp only
    by_cases hz : t.val = 0
    · rw [Phi_castSucc V c t, PhiS_zero V c _ _ hz]
      iintro ⟨HΦ, Ho, ⟨%d0, H0⟩, ⟨%d1, H1⟩, ⟨%d2, H2⟩⟩
      ihave HP := (PhiA_open (F := F) c) $$ HΦ
      icases HP with ⟨⟨HA, HM, HD, HO⟩, Hg⟩
      iapply ((runFirst c (grid0.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
    · rw [Phi_castSucc V c t, PhiS_pos V c _ _ hz]
      iintro ⟨⟨⟨HA, HM, HD, HO⟩, Hg⟩, Ho, ⟨%d0, H0⟩, ⟨%d1, H1⟩, ⟨%d2, H2⟩⟩
      iapply ((runFirst c (grid0.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexists _; iexact HA
      isplitl [HM]; · iexists _; iexact HM
      isplitl [HD]; · iexists _; iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
  · have hz : t.val ≠ 0 := fun e => h0 (by rw [e])
    by_cases h1 : t.val % 25 = 24
    · rw [show (dat V c).leavesExact 2 t = owns (c : Thread nD τ) (mo t) fullShare ((dat V c).after 2 t) from by
        unfold Dat.leavesExact; rw [live_out t ((isLast_iff t).mpr h1)], after_out]
      rw [stateAt_last V c t h0 h1]
      unfold atLast leftLast; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runLast c (grid0.coords t) _ _ _ _ _ _ _ _ _ _ _ _ (fun h => h0 ((isFirst_iff t).mp h)) ((isLast_iff t).mpr h1) (iblk V c 0 t) (iblk V c 1 t) _ _ _).2.2.2.2 Set.univ _)
      isplitl [H0]; · iexact H0
      isplitl [H1]; · iexact H1
      isplitl [H2]; · iexists _; iexact H2
      isplitl [HA]; · iexact HA
      isplitl [HM]; · iexact HM
      isplitl [HD]; · iexact HD
      iintro ⟨H0, H1, ⟨%eo, H2⟩, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_last_acc c _ _ _ _ _ _ _ _ _ _ _ _ _ _ _ _ _ _ _ _)
          isplitl [HM]
          · unfold owns; iexists _; isplitr
            swap; · iexact HM
            ipureintro; exact View.read_writes_of_cover _ _ _ _ _ (cover_last_max c _ _ _ _ _ _ _ _ _ _ _ _ _ _ _ _ _ _ _ _)
          isplitl [HD]
          · unfold owns; iexists _; isplitr
            swap; · iexact HD
            ipureintro; exact View.read_writes_of_cover _ _ _ _ _ (cover_last_den c _ _ _ _ _ _ _ _ _ _ _ _ _ _ _ _ _ _ _ _)
          iexact HO
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _ _ _ _ _ _ _)
    · rw [Dat.leavesExact_idle (dat V c) 2 t (idle_out t (fun h => h1 ((isLast_iff t).mp h))) (noFlush_out t (fun h => h1 ((isLast_iff t).mp h)))]
      rw [stateAt_mid V c t h0 h1]
      unfold atMid leftMid; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runMid c (grid0.coords t) _ _ _ _ _ _ _ _ _ _ _ _ (fun h => h0 ((isFirst_iff t).mp h)) (fun h => h1 ((isLast_iff t).mp h)) (iblk V c 0 t) (iblk V c 1 t) _ _ _).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_mid_acc c _ _ _ _ _ _ _ _ _ _ _ _ _ _ _ _ _ _ _ _)
          isplitl [HM]
          · unfold owns; iexists _; isplitr
            swap; · iexact HM
            ipureintro; exact View.read_writes_of_cover _ _ _ _ _ (cover_mid_max c _ _ _ _ _ _ _ _ _ _ _ _ _ _ _ _ _ _ _ _)
          isplitl [HD]
          · unfold owns; iexists _; isplitr
            swap; · iexact HD
            ipureintro; exact View.read_writes_of_cover _ _ _ _ _ (cover_mid_den c _ _ _ _ _ _ _ _ _ _ _ _ _ _ _ _ _ _ _ _)
          iexact HO
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch buffers' named contents are forgotten. -/
theorem hout (c : Dev nD) : (dat V c).Φ (Fin.last cfg0.N) ⊢ Pipeline.ΦA spec0 c := by
  have hne : (Fin.last cfg0.N).val ≠ 0 := by rw [Fin.val_last]; have : cfg0.N = 50 := N_0; omega
  rw [show (dat V c).Φ (Fin.last cfg0.N) = PhiS V c (Fin.last cfg0.N).val (Nat.le_of_lt_succ (Fin.last cfg0.N).isLt) from rfl, PhiS_pos V c _ _ hne]
  iintro ⟨⟨HA, HM, HD, HO⟩, Hg⟩
  iapply (PhiA_close (F := F) c)
  isplitl [HA HM HD HO]
  · isplitl [HA]; · iexists _; iexact HA
    isplitl [HM]; · iexists _; iexact HM
    isplitl [HD]; · iexists _; iexact HD
    iexact HO
  iexact Hg

end Region

end Cert.Kernel.R0

end
-- ==== Proof.Kernel.Common1.lean ====
/-
  Region 1 (the second pallas_call: the T path) — what its three control cases share.

  The grid is 2 × 25: the outer coordinate picks one of two 2048-row tiles of the 4096 query rows, the inner coordinate
  k walks the 25 tiles of 1280 table rows. The body re-initialises its three scratch buffers (running maximum, running
  denominator, running numerator) where k = 0, updates them at every k, and divides numerator by denominator into the
  output block where k = 24. So a point t of the 50 is in exactly one of three cases: FIRST (t % 25 = 0), MIDDLE, LAST
  (t % 25 = 24); the output window is idle (not stored, not written back) except in the LAST case.
-/
import proofs.«418895_j12197707120761_3_alg».proof.Proof.Gen.Kernel.Launch
import proofs.«418895_j12197707120761_3_alg».proof.Proof.Gen.Kernel.Skeleton
import proofs.«418895_j12197707120761_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the 50 points -/

/-- "k = 0": the condition of the re-initialising branch, as the body computes it from the inner coordinate. -/
abbrev isFirst (i : grid1.Coords) : Prop :=
  (Scalar.cmpi .ne (Scalar.extui (Scalar.cmpi .eq (BitVec.ofNat 32 (i 1).val) 0#32)) 0#32) = 1#1
/-- "k = 24": the condition of the finalising branch. -/
abbrev isLast (i : grid1.Coords) : Prop := k1_cond2 i = 1#1

theorem isFirst_iff : ∀ t : Fin cfg1.N, isFirst (grid1.coords t) ↔ t.val % 25 = 0 :=
  (by decide +kernel : ∀ t : Fin grid1.N, isFirst (grid1.coords t) ↔ t.val % 25 = 0)
theorem isLast_iff : ∀ t : Fin cfg1.N, isLast (grid1.coords t) ↔ t.val % 25 = 24 :=
  (by decide +kernel : ∀ t : Fin grid1.N, isLast (grid1.coords t) ↔ t.val % 25 = 24)

/-! ## Where the windows are idle -/

theorem live_x : ∀ t : Fin cfg1.N, cfg1.idle 0 (grid1.coords t) = false := by decide +kernel
theorem live_w : ∀ t : Fin cfg1.N, cfg1.idle 1 (grid1.coords t) = false := by decide +kernel
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
theorem live_out : ∀ t : Fin cfg1.N, isLast (grid1.coords t) → cfg1.idle 2 (grid1.coords t) = false := by decide +kernel

/-! ## The memrefs the body is called with -/

abbrev mx (t : Fin cfg1.N) : Memref sig .tc .vmem S2048x256 .f32 := win1_0.stage (cfg1.slots t 0)
abbrev hmx (t : Fin cfg1.N) : (mx t).IsWhole := hstage1_0 ((cfg1.slots t 0).cast nbuf1_0)
abbrev mw (t : Fin cfg1.N) : Memref sig .tc .vmem S1280x256 .f32 := win1_1.stage (cfg1.slots t 1)
abbrev hmw (t : Fin cfg1.N) : (mw t).IsWhole := hstage1_1 ((cfg1.slots t 1).cast nbuf1_1)
abbrev mo (t : Fin cfg1.N) : Memref sig .tc .vmem S2048x256 .f32 := win1_2.stage (cfg1.slots t 2)
abbrev hmo (t : Fin cfg1.N) : (mo t).IsWhole := hstage1_2 ((cfg1.slots t 2).cast nbuf1_2)
/-- The three scratch operands: running numerator (2048 × 256), running maximum and running denominator (2048 × 1). -/
abbrev scAcc : Memref sig .tc .vmem S2048x256 .f32 := Memref.whole cc1_scratch0
abbrev scMax : Memref sig .tc .vmem S2048x1 .f32 := Memref.whole cc1_scratch1
abbrev scDen : Memref sig .tc .vmem S2048x1 .f32 := Memref.whole cc1_scratch2
abbrev VAcc : View sig .tc .vmem S2048x256 .f32 := scAcc.view
abbrev VMax : View sig .tc .vmem S2048x1 .f32 := scMax.view
abbrev VDen : View sig .tc .vmem S2048x1 .f32 := scDen.view
abbrev VOut : View sig .tc .vmem S2048x256 .f32 := (Memref.whole cc1_stg2_0 : Memref sig .tc .vmem S2048x256 .f32).view

/-- The core's scoped buffers that region 1 neither stages through nor uses as scratch: the first call's staging
    buffers and scratch, each whole at some contents. They ride through region 1 untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The region's class invariant gives the three scratch operands as memrefs owned at some contents, the other scoped
    buffers and the generator register (the scoped buffers enumerated with this call's scratch last, reordered here); -/
theorem PhiA_open (c : Dev nD) :
    (Pipeline.ΦA spec1 c : sProp 𝕄)
      ⊢ iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r)) := by
  unfold Pipeline.ΦA others; rw [scopedRest1_eq]; simp only [scAcc, scMax, scDen, owns_whole]
  iintro ⟨⟨O1, O2, O3, O4, O5, O6, O7, O8, O9, HA, HM, HD⟩, Hg⟩
  isplitr [Hg]
  · isplitl [HA]; · iexact HA
    isplitl [HM]; · iexact HM
    isplitl [HD]; · iexact HD
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg
/-- and is made of them again. -/
theorem PhiA_close (c : Dev nD) :
    iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r))
      ⊢ (Pipeline.ΦA spec1 c : sProp 𝕄) := by
  unfold Pipeline.ΦA others; rw [scopedRest1_eq]; simp only [scAcc, scMax, scDen, owns_whole]
  iintro ⟨⟨HA, HM, HD, O1, O2, O3, O4, O5, O6, O7, O8, O9⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [HA]; · iexact HA
    isplitl [HM]; · iexact HM
    iexact HD
  iexact Hg

end Cert.Kernel.R1

end
-- ==== Proof.Kernel.RunMid1.lean ====
/-
  Region 1, the MIDDLE case (0 < k < 24): the body on whole memrefs. It reads the query tile, the table tile and the
  three running quantities, and stores the updated running denominator, numerator and maximum; the output buffer is
  not touched. What each scratch buffer ends with is found by running the body: the lists of stored pieces.
-/
import proofs.«418895_j12197707120761_3_alg».proof.Proof.Kernel.Common1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stored pieces of the three scratch buffers in the middle case, with the proof that the body, started on the
    query tile `x`, the table tile `w`, an untouched output buffer `xo` and the running numerator `a`, maximum `mm`
    and denominator `l`, runs to the end leaving the inputs and the output buffer as they were and each scratch buffer
    with its pieces written. -/
noncomputable def runMid (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : ¬isLast i)
    (x : Vec F S2048x256 .f32) (w : Vec F S1280x256 .f32) (a : Vec F S2048x256 .f32) (mm : Vec F S2048x1 .f32) (l : Vec F S2048x1 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc1__flash_embed_kernel i arg2 harg2 arg3 harg3 arg4 harg4 arg5 harg5 arg6 harg6 arg7 harg7) K } := by
  refine ⟨?_, ?_, ?_, fun xo E K => ?run⟩
  case run =>
    simp only [cc1__flash_embed_kernel_eq_skeleton]; unfold cc1__flash_embed_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.Kernel.R1

end
-- ==== Proof.Kernel.RunFirst1.lean ====
/-
  Region 1, the FIRST case (k = 0): the body re-initialises the three scratch buffers (maximum to the large negative
  constant, denominator and numerator to zero) and then updates them as at every point; the output buffer is not touched.
-/
import proofs.«418895_j12197707120761_3_alg».proof.Proof.Kernel.RunMid1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stored pieces of the three scratch buffers in the first case, with the proof that the body, started on the query
    tile `x`, the table tile `w`, an untouched output buffer `xo` and the scratch buffers at ANY contents, runs to the end
    leaving the inputs and the output buffer as they were and each scratch buffer with its pieces written. -/
noncomputable def runFirst (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : isFirst i) (hc1 : ¬isLast i)
    (x : Vec F S2048x256 .f32) (w : Vec F S1280x256 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc1__flash_embed_kernel i arg2 harg2 arg3 harg3 arg4 harg4 arg5 harg5 arg6 harg6 arg7 harg7) K } := by
  refine ⟨?_, ?_, ?_, fun xo E K => ?run⟩
  case run =>
    simp only [cc1__flash_embed_kernel_eq_skeleton]; unfold cc1__flash_embed_kernel_skel
    simp only [k1_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.Kernel.R1

end
-- ==== Proof.Kernel.RunLast1.lean ====
/-
  Region 1, the LAST case (k = 24): after the update the body divides the running numerator by the running denominator
  and stores the quotient into the output buffer, which the pipeline then writes back.
-/
import proofs.«418895_j12197707120761_3_alg».proof.Proof.Kernel.RunFirst1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stored pieces of the output buffer and of the three scratch buffers in the last case, with the proof that the body,
    started on the query tile `x`, the table tile `w`, the output buffer at ANY contents and the running numerator `a`,
    maximum `mm` and denominator `l`, runs to the end leaving the inputs as they were and the four buffers with their pieces written. -/
noncomputable def runLast (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : isLast i)
    (x : Vec F S2048x256 .f32) (w : Vec F S1280x256 .f32) (a : Vec F S2048x256 .f32) (mm : Vec F S2048x1 .f32) (l : Vec F S2048x1 .f32) :
    Σ' (LO : List (View.Piece (Elt F) S2048x256 .f32)) (LA : List (View.Piece (Elt F) S2048x256 .f32)) (LM : List (View.Piece (Elt F) S2048x1 .f32)), { LD : List (View.Piece (Elt F) S2048x1 .f32) //
      ∀ (E : Set ℕ) (K : PUnit → sProp 𝕄),
        iprop(owns (c : Thread nD τ) arg2 fullShare x ∗ owns (c : Thread nD τ) arg3 fullShare w ∗ (∃ d, owns (c : Thread nD τ) arg4 fullShare d)
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc1__flash_embed_kernel i arg2 harg2 arg3 harg3 arg4 harg4 arg5 harg5 arg6 harg6 arg7 harg7) K } := by
  refine ⟨?_, ?_, ?_, ?_, fun E K => ?run⟩
  case run =>
    simp only [cc1__flash_embed_kernel_eq_skeleton]; unfold cc1__flash_embed_kernel_skel
    simp only [k1_part1_eq_skeleton]
    unfold owns
    iintro ⟨⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.Kernel.R1

end
-- ==== Proof.Kernel.Left1.lean ====
/-
  Region 1: what the three cases leave, the recursion over the 50 points, the invariant and the proof data.

  After the body at a point the three scratch buffers hold the running numerator, maximum and denominator of the query
  tile's rows over the table tiles seen so far; the output buffer holds their quotient after a LAST point. The state
  after point n is defined by recursion on n: a FIRST point restarts from the constants, a MIDDLE or LAST point
  continues from what point n - 1 left.
-/
import proofs.«418895_j12197707120761_3_alg».proof.Proof.Kernel.RunLast1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The stored pieces cover their buffers -/

section Cases

variable (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole)

theorem cover_first_acc (hc0 : isFirst i) (hc1 : ¬isLast i) (x : Vec F S2048x256 .f32) (w : Vec F S1280x256 .f32) (y : S2048x256.Idx) :
    ∃ pc ∈ (runFirst c i arg2 harg2 arg3 harg3 arg4 harg4 arg5 harg5 arg6 harg6 arg7 harg7 hc0 hc1 x w).1, y ∈ pc.1.set :=
  View.cover_of_tiledL (runFirst c i arg2 harg2 arg3 harg3 arg4 harg4 arg5 harg5 arg6 harg6 arg7 harg7 hc0 hc1 x w).1 S2048x256.size (by sl_kernel_rfl) y
theorem cover_first_max (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.1, y ∈ pc.1.set :=
  View.cover_of_tiledL (runFirst c i arg2 harg2 arg3 harg3 arg4 harg4 arg5 harg5 arg6 harg6 arg7 harg7 hc0 hc1 x w).2.1 S2048x1.size (by sl_kernel_rfl) y
theorem cover_first_den (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.2.1, y ∈ pc.1.set :=
  View.cover_of_tiledL (runFirst c i arg2 harg2 arg3 harg3 arg4 harg4 arg5 harg5 arg6 harg6 arg7 harg7 hc0 hc1 x w).2.2.1 S2048x1.size (by sl_kernel_rfl) y

theorem cover_mid_acc (hc0 : ¬isFirst i) (hc1 : ¬isLast i) (x : Vec F S2048x256 .f32) (w : Vec F S1280x256 .f32) (a : Vec F S2048x256 .f32) (mm l : Vec F S2048x1 .f32) (y : S2048x256.Idx) :
    ∃ pc ∈ (runMid c i arg2 harg2 arg3 harg3 arg4 harg4 arg5 harg5 arg6 harg6 arg7 harg7 hc0 hc1 x w a mm l).1, y ∈ pc.1.set :=
  View.cover_of_tiledL (runMid c i arg2 harg2 arg3 harg3 arg4 harg4 arg5 harg5 arg6 harg6 arg7 harg7 hc0 hc1 x w a mm l).1 S2048x256.size (by sl_kernel_rfl) y
theorem cover_mid_max (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.1, y ∈ pc.1.set :=
  View.cover_of_tiledL (runMid c i arg2 harg2 arg3 harg3 arg4 harg4 arg5 harg5 arg6 harg6 arg7 harg7 hc0 hc1 x w a mm l).2.1 S2048x1.size (by sl_kernel_rfl) y
theorem cover_mid_den (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.2.1, y ∈ pc.1.set :=
  View.cover_of_tiledL (runMid c i arg2 harg2 arg3 harg3 arg4 harg4 arg5 harg5 arg6 harg6 arg7 harg7 hc0 hc1 x w a mm l).2.2.1 S2048x1.size (by sl_kernel_rfl) y

theorem cover_last_out (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).1, y ∈ pc.1.set :=
  View.cover_of_tiledL (runLast c i arg2 harg2 arg3 harg3 arg4 harg4 arg5 harg5 arg6 harg6 arg7 harg7 hc0 hc1 x w a mm l).1 S2048x256.size (by sl_kernel_rfl) y
theorem cover_last_acc (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).2.1, y ∈ pc.1.set :=
  View.cover_of_tiledL (runLast c i arg2 harg2 arg3 harg3 arg4 harg4 arg5 harg5 arg6 harg6 arg7 harg7 hc0 hc1 x w a mm l).2.1 S2048x256.size (by sl_kernel_rfl) y
theorem cover_last_max (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.1, y ∈ pc.1.set :=
  View.cover_of_tiledL (runLast c i arg2 harg2 arg3 harg3 arg4 harg4 arg5 harg5 arg6 harg6 arg7 harg7 hc0 hc1 x w a mm l).2.2.1 S2048x1.size (by sl_kernel_rfl) y
theorem cover_last_den (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.2.1, y ∈ pc.1.set :=
  View.cover_of_tiledL (runLast c i arg2 harg2 arg3 harg3 arg4 harg4 arg5 harg5 arg6 harg6 arg7 harg7 hc0 hc1 x w a mm l).2.2.2.1 S2048x1.size (by sl_kernel_rfl) y

/-! ## What each case leaves: the pieces read back -/

/-- The contents of the output buffer, the numerator, the maximum and the denominator after a point. -/
abbrev St (F : FTy → Type) : Type := Vec F S2048x256 .f32 × Vec F S2048x256 .f32 × Vec F S2048x1 .f32 × Vec F S2048x1 .f32

/-- After a FIRST point (the output buffer is not stored: a placeholder nothing consults). -/
def leftFirst (hc0 : isFirst i) (hc1 : ¬isLast i) (x : Vec F S2048x256 .f32) (w : Vec F S1280x256 .f32) : St F :=
  (VOut.read (Elt F) (VOut.junk),
   VAcc.read (Elt F) (VAcc.writes (Elt F) VAcc.junk (runFirst c i arg2 harg2 arg3 harg3 arg4 harg4 arg5 harg5 arg6 harg6 arg7 harg7 hc0 hc1 x w).1),
   VMax.read (Elt F) (VMax.writes (Elt F) VMax.junk (runFirst c i arg2 harg2 arg3 harg3 arg4 harg4 arg5 harg5 arg6 harg6 arg7 harg7 hc0 hc1 x w).2.1),
   VDen.read (Elt F) (VDen.writes (Elt F) VDen.junk (runFirst c i arg2 harg2 arg3 harg3 arg4 harg4 arg5 harg5 arg6 harg6 arg7 harg7 hc0 hc1 x w).2.2.1))
/-- After a MIDDLE point, over what the point before left. -/
def leftMid (hc0 : ¬isFirst i) (hc1 : ¬isLast i) (x : Vec F S2048x256 .f32) (w : Vec F S1280x256 .f32) (p : St F) : St F :=
  (VOut.read (Elt F) (VOut.junk),
   VAcc.read (Elt F) (VAcc.writes (Elt F) VAcc.junk (runMid c i arg2 harg2 arg3 harg3 arg4 harg4 arg5 harg5 arg6 harg6 arg7 harg7 hc0 hc1 x w p.2.1 p.2.2.1 p.2.2.2).1),
   VMax.read (Elt F) (VMax.writes (Elt F) VMax.junk (runMid c i arg2 harg2 arg3 harg3 arg4 harg4 arg5 harg5 arg6 harg6 arg7 harg7 hc0 hc1 x w p.2.1 p.2.2.1 p.2.2.2).2.1),
   VDen.read (Elt F) (VDen.writes (Elt F) VDen.junk (runMid c i arg2 harg2 arg3 harg3 arg4 harg4 arg5 harg5 arg6 harg6 arg7 harg7 hc0 hc1 x w p.2.1 p.2.2.1 p.2.2.2).2.2.1))
/-- After a LAST point, over what the point before left. -/
def leftLast (hc0 : ¬isFirst i) (hc1 : isLast i) (x : Vec F S2048x256 .f32) (w : Vec F S1280x256 .f32) (p : St F) : St F :=
  (VOut.read (Elt F) (VOut.writes (Elt F) VOut.junk (runLast c i arg2 harg2 arg3 harg3 arg4 harg4 arg5 harg5 arg6 harg6 arg7 harg7 hc0 hc1 x w p.2.1 p.2.2.1 p.2.2.2).1),
   VAcc.read (Elt F) (VAcc.writes (Elt F) VAcc.junk (runLast c i arg2 harg2 arg3 harg3 arg4 harg4 arg5 harg5 arg6 harg6 arg7 harg7 hc0 hc1 x w p.2.1 p.2.2.1 p.2.2.2).2.1),
   VMax.read (Elt F) (VMax.writes (Elt F) VMax.junk (runLast c i arg2 harg2 arg3 harg3 arg4 harg4 arg5 harg5 arg6 harg6 arg7 harg7 hc0 hc1 x w p.2.1 p.2.2.1 p.2.2.2).2.2.1),
   VDen.read (Elt F) (VDen.writes (Elt F) VDen.junk (runLast c i arg2 harg2 arg3 harg3 arg4 harg4 arg5 harg5 arg6 harg6 arg7 harg7 hc0 hc1 x w p.2.1 p.2.2.1 p.2.2.2).2.2.2.1))

end Cases

end Cert.Kernel.R1

end
-- ==== Proof.Kernel.State1.lean ====
/-
  Region 1: the state after each of the 50 points, the invariant that carries the scratch buffers between points, the
  proof data of the pipeline and the body obligation — at a PARAMETER `V`, the core's buffer contents when the region
  is entered.
-/
import proofs.«418895_j12197707120761_3_alg».proof.Proof.Kernel.Left1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not (the block index moves only with
    the outer coordinate, and the body leaves the block in place). -/
theorem before_x_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The table window's buffer holds its block at every point (it is fetched at every point). -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The state after each point -/

/-- The three cases at point `t`, on the point's memrefs and blocks. -/
def atFirst (c : Dev nD) (t : Fin cfg1.N) (h0 : t.val % 25 = 0) (h1 : ¬t.val % 25 = 24) : St F :=
  leftFirst c (grid1.coords t) (mx t) (hmx t) (mw t) (hmw t) (mo t) (hmo t) scAcc (Memref.isWhole_whole _) scMax (Memref.isWhole_whole _) scDen (Memref.isWhole_whole _)
    ((isFirst_iff t).mpr h0) (fun h => h1 ((isLast_iff t).mp h)) (iblk V c 0 t) (iblk V c 1 t)
def atMid (c : Dev nD) (t : Fin cfg1.N) (h0 : ¬t.val % 25 = 0) (h1 : ¬t.val % 25 = 24) (p : St F) : St F :=
  leftMid c (grid1.coords t) (mx t) (hmx t) (mw t) (hmw t) (mo t) (hmo t) scAcc (Memref.isWhole_whole _) scMax (Memref.isWhole_whole _) scDen (Memref.isWhole_whole _)
    (fun h => h0 ((isFirst_iff t).mp h)) (fun h => h1 ((isLast_iff t).mp h)) (iblk V c 0 t) (iblk V c 1 t) p
def atLast (c : Dev nD) (t : Fin cfg1.N) (h0 : ¬t.val % 25 = 0) (h1 : t.val % 25 = 24) (p : St F) : St F :=
  leftLast c (grid1.coords t) (mx t) (hmx t) (mw t) (hmw t) (mo t) (hmo t) scAcc (Memref.isWhole_whole _) scMax (Memref.isWhole_whole _) scDen (Memref.isWhole_whole _)
    (fun h => h0 ((isFirst_iff t).mp h)) ((isLast_iff t).mpr h1) (iblk V c 0 t) (iblk V c 1 t) p

/-- What the output buffer and the three scratch buffers hold after the body at position `n`: a FIRST point restarts,
    the others continue from position `n - 1`. -/
def stateAt (c : Dev nD) : (n : ℕ) → n < cfg1.N → St F
  | 0, hn => atFirst V c ⟨0, hn⟩ (Nat.zero_mod _) (by show ¬ (0 % 25 = 24); decide)
  | n + 1, hn =>
    if h0 : (n + 1) % 25 = 0 then atFirst V c ⟨n + 1, hn⟩ h0 (by show ¬ ((n + 1) % 25 = 24); omega)
    else if h1 : (n + 1) % 25 = 24 then atLast V c ⟨n + 1, hn⟩ h0 h1 (stateAt c n (Nat.lt_of_succ_lt hn))
    else atMid V c ⟨n + 1, hn⟩ h0 h1 (stateAt c n (Nat.lt_of_succ_lt hn))

theorem stateAt_first (c : Dev nD) (t : Fin cfg1.N) (h0 : t.val % 25 = 0) (h1 : ¬t.val % 25 = 24) :
    stateAt V c t.val t.isLt = atFirst V c t h0 h1 := by
  obtain ⟨n, hn⟩ := t
  cases n with
  | zero => rfl
  | succ n => exact (dif_pos h0).trans rfl
theorem stateAt_mid (c : Dev nD) (t : Fin cfg1.N) (h0 : ¬t.val % 25 = 0) (h1 : ¬t.val % 25 = 24) :
    stateAt V c t.val t.isLt = atMid V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stateAt_last (c : Dev nD) (t : Fin cfg1.N) (h0 : ¬t.val % 25 = 0) (h1 : t.val % 25 = 24) :
    stateAt V c t.val t.isLt = atLast V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point: the class invariant (every scratch buffer at anything). Afterwards: the three scratch
    buffers at what the point before left, the other scoped buffers and the generator register as they come. -/
def PhiS (c : Dev nD) : (n : ℕ) → n ≤ cfg1.N → sProp 𝕄
  | 0, _ => Pipeline.ΦA spec1 c
  | n + 1, hn => iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r)) := rfl
theorem PhiS_pos (c : Dev nD) (n : ℕ) (h : n ≤ cfg1.N) (hz : n ≠ 0) :
    PhiS V c n h = iprop(iprop(owns (c : Thread nD τ) scAcc fullShare (stateAt V c (n - 1) (by omega)).2.1 ∗ owns (c : Thread nD τ) scMax fullShare (stateAt V c (n - 1) (by omega)).2.2.1
      ∗ owns (c : Thread nD τ) scDen fullShare (stateAt V c (n - 1) (by omega)).2.2.2 ∗ others (F := F) c) ∗ (∃ r, prngReg c r)) := by
  cases n with
  | zero => exact absurd rfl hz
  | succ n => rfl

/-! ## The proof data -/

/-- The pipeline's proof data on core `c`: the arrays as the region finds them; after the body at point `t` the two
    input buffers at their blocks and the output buffer at the state's first component; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (stateAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_out (c : Dev nD) (t : Fin cfg1.N) : (dat V c).after 2 t = (stateAt V c t.val t.isLt).1 := by dsimp only [dat]
theorem before_x (c : Dev nD) (t : Fin cfg1.N) (d) : (dat V c).before 0 t d = iblk V c 0 t :=
  before_x_of V (dat V c) (A_eq V c 0) (after_x V c) t d
theorem before_w (c : Dev nD) (t : Fin cfg1.N) (d) : (dat V c).before 1 t d = iblk V c 1 t :=
  before_w_of V (dat V c) (A_eq V c 1) (after_w V c) t d

end Region

end Cert.Kernel.R1

end
-- ==== Proof.Kernel.Body1.lean ====
/-
  Region 1: the body obligation at every point. The point's case is read off the closed forms of the two branch
  conditions; in each case that case's whole-body run applies, the invariant hands the body the scratch buffers (at
  anything before the first point, at what the point before left afterwards) and takes them back at this point's state.
-/
import proofs.«418895_j12197707120761_3_alg».proof.Proof.Kernel.State1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_x (c : Dev nD) (t : Fin cfg1.N) :
    (dat V c).leavesExact 0 t = owns (c : Thread nD τ) (mx t) fullShare ((dat V c).after 0 t) := by
  unfold Dat.leavesExact; rw [live_x t]
theorem leaves_w (c : Dev nD) (t : Fin cfg1.N) :
    (dat V c).leavesExact 1 t = owns (c : Thread nD τ) (mw t) fullShare ((dat V c).after 1 t) := by
  unfold Dat.leavesExact; rw [live_w t]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w]
  rw [show (dat V c).owesAt () t.succ = (dat V c).owesAt () t.castSucc from rfl]
  rw [show (dat V c).Φ t.succ = PhiS V c (t.val + 1) t.isLt from rfl, PhiS_succ]
  rw [leaves_x, leaves_w, after_x, after_w]
  have hN : t.val < 50 := lt_of_lt_of_eq t.isLt (show cfg1.N = 50 from N_1)
  by_cases h0 : t.val % 25 = 0
  · have h1 : ¬t.val % 25 = 24 := by omega
    rw [Dat.leavesExact_idle (dat V c) 2 t (idle_out t (fun h => h1 ((isLast_iff t).mp h))) (noFlush_out t (fun h => h1 ((isLast_iff t).mp h)))]
    rw [stateAt_first V c t h0 h1]
    unfold atFirst leftFirst; dsimp only
    by_cases hz : t.val = 0
    · rw [Phi_castSucc V c t, PhiS_zero V c _ _ hz]
      iintro ⟨HΦ, Ho, ⟨%d0, H0⟩, ⟨%d1, H1⟩, ⟨%d2, H2⟩⟩
      ihave HP := (PhiA_open (F := F) c) $$ HΦ
      icases HP with ⟨⟨HA, HM, HD, HO⟩, Hg⟩
      iapply ((runFirst c (grid1.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
    · rw [Phi_castSucc V c t, PhiS_pos V c _ _ hz]
      iintro ⟨⟨⟨HA, HM, HD, HO⟩, Hg⟩, Ho, ⟨%d0, H0⟩, ⟨%d1, H1⟩, ⟨%d2, H2⟩⟩
      iapply ((runFirst c (grid1.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexists _; iexact HA
      isplitl [HM]; · iexists _; iexact HM
      isplitl [HD]; · iexists _; iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
  · have hz : t.val ≠ 0 := fun e => h0 (by rw [e])
    by_cases h1 : t.val % 25 = 24
    · rw [show (dat V c).leavesExact 2 t = owns (c : Thread nD τ) (mo t) fullShare ((dat V c).after 2 t) from by
        unfold Dat.leavesExact; rw [live_out t ((isLast_iff t).mpr h1)], after_out]
      rw [stateAt_last V c t h0 h1]
      unfold atLast leftLast; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runLast c (grid1.coords t) _ _ _ _ _ _ _ _ _ _ _ _ (fun h => h0 ((isFirst_iff t).mp h)) ((isLast_iff t).mpr h1) (iblk V c 0 t) (iblk V c 1 t) _ _ _).2.2.2.2 Set.univ _)
      isplitl [H0]; · iexact H0
      isplitl [H1]; · iexact H1
      isplitl [H2]; · iexists _; iexact H2
      isplitl [HA]; · iexact HA
      isplitl [HM]; · iexact HM
      isplitl [HD]; · iexact HD
      iintro ⟨H0, H1, ⟨%eo, H2⟩, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_last_acc c _ _ _ _ _ _ _ _ _ _ _ _ _ _ _ _ _ _ _ _)
          isplitl [HM]
          · unfold owns; iexists _; isplitr
            swap; · iexact HM
            ipureintro; exact View.read_writes_of_cover _ _ _ _ _ (cover_last_max c _ _ _ _ _ _ _ _ _ _ _ _ _ _ _ _ _ _ _ _)
          isplitl [HD]
          · unfold owns; iexists _; isplitr
            swap; · iexact HD
            ipureintro; exact View.read_writes_of_cover _ _ _ _ _ (cover_last_den c _ _ _ _ _ _ _ _ _ _ _ _ _ _ _ _ _ _ _ _)
          iexact HO
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _ _ _ _ _ _ _)
    · rw [Dat.leavesExact_idle (dat V c) 2 t (idle_out t (fun h => h1 ((isLast_iff t).mp h))) (noFlush_out t (fun h => h1 ((isLast_iff t).mp h)))]
      rw [stateAt_mid V c t h0 h1]
      unfold atMid leftMid; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runMid c (grid1.coords t) _ _ _ _ _ _ _ _ _ _ _ _ (fun h => h0 ((isFirst_iff t).mp h)) (fun h => h1 ((isLast_iff t).mp h)) (iblk V c 0 t) (iblk V c 1 t) _ _ _).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_mid_acc c _ _ _ _ _ _ _ _ _ _ _ _ _ _ _ _ _ _ _ _)
          isplitl [HM]
          · unfold owns; iexists _; isplitr
            swap; · iexact HM
            ipureintro; exact View.read_writes_of_cover _ _ _ _ _ (cover_mid_max c _ _ _ _ _ _ _ _ _ _ _ _ _ _ _ _ _ _ _ _)
          isplitl [HD]
          · unfold owns; iexists _; isplitr
            swap; · iexact HD
            ipureintro; exact View.read_writes_of_cover _ _ _ _ _ (cover_mid_den c _ _ _ _ _ _ _ _ _ _ _ _ _ _ _ _ _ _ _ _)
          iexact HO
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch buffers' named contents are forgotten. -/
theorem hout (c : Dev nD) : (dat V c).Φ (Fin.last cfg1.N) ⊢ Pipeline.ΦA spec1 c := by
  have hne : (Fin.last cfg1.N).val ≠ 0 := by rw [Fin.val_last]; have : cfg1.N = 50 := N_1; omega
  rw [show (dat V c).Φ (Fin.last cfg1.N) = PhiS V c (Fin.last cfg1.N).val (Nat.le_of_lt_succ (Fin.last cfg1.N).isLt) from rfl, PhiS_pos V c _ _ hne]
  iintro ⟨⟨HA, HM, HD, HO⟩, Hg⟩
  iapply (PhiA_close (F := F) c)
  isplitl [HA HM HD HO]
  · isplitl [HA]; · iexists _; iexact HA
    isplitl [HM]; · iexists _; iexact HM
    isplitl [HD]; · iexists _; iexact HD
    iexact HO
  iexact Hg

end Region

end Cert.Kernel.R1

end
-- ==== Proof.Kernel.Whole.lean ====
/-
  The whole program: @main is two reshapes, the two pallas_calls one after the other, two reshapes. Its run is the
  composition of four segments over a thread state "every unscoped buffer of the core at named contents, the generator
  register at some state, nothing owed": the contents are a fold from the launch memory — a host stretch applies its
  operations, a region replaces its output array by what its write-backs leave. Every weakly fair execution ends with
  every unscoped buffer at the fold's last value, from which the frame claim and the results' values are read.
-/
import proofs.«418895_j12197707120761_3_alg».proof.Proof.Kernel.Body0
import proofs.«418895_j12197707120761_3_alg».proof.Proof.Kernel.Body1
import proofs.«418895_j12197707120761_3_alg».proof.Proof.Gen.Kernel.Regions
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the two reshapes of the activations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit (it is entered straight from region 0's exit). -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the two reshapes of the results (the end). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered with every unscoped buffer at `W1`, left with them at `W2`. Its
    arrays are split out of the unscoped buffers and put back at what the write-backs leave; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (R0.dat (V1 m ρ) c).Φ 0 from rfl]
    have h := R0.hin (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (R0.dat (V1 m ρ) c).Φ (Fin.last cfg0.N) from rfl]
    have h := R0.hout (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W2`, left with them at `W3`. Its
    arrays are split out of the unscoped buffers and put back at what the write-backs leave; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (R1.dat (V2 m ρ) c).Φ 0 from rfl]
    have h := R1.hin (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (R1.dat (V2 m ρ) c).Φ (Fin.last cfg1.N) from rfl]
    have h := R1.hout (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state every unscoped buffer of every core holds the fold's last value `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## Reading the fold back -/

/-- No host stretch writes an argument and no region may change one (a region reads it through an input window or
    bypasses it): the fold at an argument's buffer walks back to the launch memory. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := (W2_arr m ρ c 1).trans (((R0.dat (V1 m ρ) c).arrAt_in 1 rfl _).trans (R0.A_eq (V1 m ρ) c 1))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 1).trans (((R1.dat (V2 m ρ) c).arrAt_in 1 rfl _).trans (R1.A_eq (V2 m ρ) c 1))
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- What region 0 is entered with: the first activations reshaped to 4096 rows, and the first table. -/
theorem V1_main_v0 (c : Dev nD) :
    V1 m ρ c main_v0 = fun i => shapeCast S4096x256 (m ((c : Thread nD τ).loc main_arg0)) shapeCasts_S4x1024x256_S4096x256 i := by
  show StableHlo.after hostOps0 (W0 m ρ c) (Proc.devRef .tc main_v0) = _
  after_results; rfl
theorem V1_main_arg3 (c : Dev nD) : V1 m ρ c main_arg3 = m ((c : Thread nD τ).loc main_arg3) :=
  StableHlo.after_of_writes_sub hostOps0 _ hostOps0_writes (by decide)
/-- What region 1 is entered with: the second activations reshaped, and the second table. -/
theorem V2_main_v1 (c : Dev nD) :
    V2 m ρ c main_v1 = fun i => shapeCast S4096x256 (m ((c : Thread nD τ).loc main_arg1)) shapeCasts_S4x1024x256_S4096x256 i := by
  refine (W2_of_ne m ρ c main_v1 (by decide)).trans ?_
  show StableHlo.after hostOps0 (W0 m ρ c) (Proc.devRef .tc main_v1) = _
  after_results; rfl
theorem V2_main_arg4 (c : Dev nD) : V2 m ρ c main_arg4 = m ((c : Thread nD τ).loc main_arg4) :=
  (W2_of_ne m ρ c main_arg4 (by decide)).trans (StableHlo.after_of_writes_sub hostOps0 _ hostOps0_writes (by decide))
/-- The two results: each region's output array after its write-backs, reshaped back to [4, 1024, 256]. -/
theorem W4_main_v4 (c : Dev nD) :
    W4 m ρ c (Proc.devRef .tc main_v4) = fun i => shapeCast S4x1024x256 ((R0.dat (V1 m ρ) c).arrAt 2 cfg0.N) shapeCasts_S4096x256_S4x1024x256 i := by
  have e : W3 m ρ c (Proc.devRef .tc main_v2) = (R0.dat (V1 m ρ) c).arrAt 2 cfg0.N :=
    (W3_of_ne m ρ c main_v2 (by decide)).trans (W2_arr m ρ c 2)
  show StableHlo.after hostOps2 (W3 m ρ c) (Proc.devRef .tc main_v4) = _
  after_results; rw [e]; rfl
theorem W4_main_v5 (c : Dev nD) :
    W4 m ρ c (Proc.devRef .tc main_v5) = fun i => shapeCast S4x1024x256 ((R1.dat (V2 m ρ) c).arrAt 2 cfg1.N) shapeCasts_S4096x256_S4x1024x256 i := by
  have e : W3 m ρ c (Proc.devRef .tc main_v3) = (R1.dat (V2 m ρ) c).arrAt 2 cfg1.N := W3_arr m ρ c 2
  show StableHlo.after hostOps2 (W3 m ρ c) (Proc.devRef .tc main_v5) = _
  after_results; rw [e]; rfl

end Cert.Kernel.Whole

end
-- ==== Proof.KernelIdeal.Common0.lean ====
/-
  Region 0 (the first pallas_call: the G path) — what its three control cases share.

  The grid is 2 × 25: the outer coordinate picks one of two 2048-row tiles of the 4096 query rows, the inner coordinate
  k walks the 25 tiles of 1280 table rows. The body re-initialises its three scratch buffers (running maximum, running
  denominator, running numerator) where k = 0, updates them at every k, and divides numerator by denominator into the
  output block where k = 24. So a point t of the 50 is in exactly one of three cases: FIRST (t % 25 = 0), MIDDLE, LAST
  (t % 25 = 24); the output window is idle (not stored, not written back) except in the LAST case.
-/
import proofs.«418895_j12197707120761_3_alg».proof.Proof.Gen.KernelIdeal.Launch
import proofs.«418895_j12197707120761_3_alg».proof.Proof.Gen.KernelIdeal.Skeleton
import proofs.«418895_j12197707120761_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the 50 points -/

/-- "k = 0": the condition of the re-initialising branch, as the body computes it from the inner coordinate. -/
abbrev isFirst (i : grid0.Coords) : Prop :=
  (Scalar.cmpi .ne (Scalar.extui (Scalar.cmpi .eq (BitVec.ofNat 32 (i 1).val) 0#32)) 0#32) = 1#1
/-- "k = 24": the condition of the finalising branch. -/
abbrev isLast (i : grid0.Coords) : Prop := k0_cond2 i = 1#1

theorem isFirst_iff : ∀ t : Fin cfg0.N, isFirst (grid0.coords t) ↔ t.val % 25 = 0 :=
  (by decide +kernel : ∀ t : Fin grid0.N, isFirst (grid0.coords t) ↔ t.val % 25 = 0)
theorem isLast_iff : ∀ t : Fin cfg0.N, isLast (grid0.coords t) ↔ t.val % 25 = 24 :=
  (by decide +kernel : ∀ t : Fin grid0.N, isLast (grid0.coords t) ↔ t.val % 25 = 24)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The memrefs the body is called with -/

abbrev mx (t : Fin cfg0.N) : Memref sig .tc .vmem S2048x256 .f32 := win0_0.stage (cfg0.slots t 0)
abbrev hmx (t : Fin cfg0.N) : (mx t).IsWhole := hstage0_0 ((cfg0.slots t 0).cast nbuf0_0)
abbrev mw (t : Fin cfg0.N) : Memref sig .tc .vmem S1280x256 .f32 := win0_1.stage (cfg0.slots t 1)
abbrev hmw (t : Fin cfg0.N) : (mw t).IsWhole := hstage0_1 ((cfg0.slots t 1).cast nbuf0_1)
abbrev mo (t : Fin cfg0.N) : Memref sig .tc .vmem S2048x256 .f32 := win0_2.stage (cfg0.slots t 2)
abbrev hmo (t : Fin cfg0.N) : (mo t).IsWhole := hstage0_2 ((cfg0.slots t 2).cast nbuf0_2)
/-- The three scratch operands: running numerator (2048 × 256), running maximum and running denominator (2048 × 1). -/
abbrev scAcc : Memref sig .tc .vmem S2048x256 .f32 := Memref.whole cc0_scratch0
abbrev scMax : Memref sig .tc .vmem S2048x1 .f32 := Memref.whole cc0_scratch1
abbrev scDen : Memref sig .tc .vmem S2048x1 .f32 := Memref.whole cc0_scratch2
abbrev VAcc : View sig .tc .vmem S2048x256 .f32 := scAcc.view
abbrev VMax : View sig .tc .vmem S2048x1 .f32 := scMax.view
abbrev VDen : View sig .tc .vmem S2048x1 .f32 := scDen.view
abbrev VOut : View sig .tc .vmem S2048x256 .f32 := (Memref.whole cc0_stg2_0 : Memref sig .tc .vmem S2048x256 .f32).view

/-- The core's scoped buffers that region 0 neither stages through nor uses as scratch: the second call's staging
    buffers and scratch, each whole at some contents. They ride through region 0 untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The region's class invariant, opened: the three scratch operands as memrefs owned at some contents, the other
    scoped buffers, the generator register at some state. -/
theorem PhiA_eq (c : Dev nD) :
    (Pipeline.ΦA spec0 c : sProp 𝕄)
      = iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r)) := by
  unfold Pipeline.ΦA others; rw [scopedRest0_eq]; simp only [scAcc, scMax, scDen, owns_whole]; try rfl

/-- The class invariant gives the three scratch buffers at some contents, the other scoped buffers and the register; -/
theorem PhiA_open (c : Dev nD) :
    (Pipeline.ΦA spec0 c : sProp 𝕄)
      ⊢ iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r)) := by
  rw [PhiA_eq]
/-- and is made of them again. -/
theorem PhiA_close (c : Dev nD) :
    iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r))
      ⊢ (Pipeline.ΦA spec0 c : sProp 𝕄) := by
  rw [PhiA_eq]

end Cert.KernelIdeal.R0

end
-- ==== Proof.KernelIdeal.RunMid0.lean ====
/-
  Region 0, the MIDDLE case (0 < k < 24): the body on whole memrefs. It reads the query tile, the table tile and the
  three running quantities, and stores the updated running denominator, numerator and maximum; the output buffer is
  not touched. What each scratch buffer ends with is found by running the body: the lists of stored pieces.
-/
import proofs.«418895_j12197707120761_3_alg».proof.Proof.KernelIdeal.Common0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stored pieces of the three scratch buffers in the middle case, with the proof that the body, started on the
    query tile `x`, the table tile `w`, an untouched output buffer `xo` and the running numerator `a`, maximum `mm`
    and denominator `l`, runs to the end leaving the inputs and the output buffer as they were and each scratch buffer
    with its pieces written. -/
noncomputable def runMid (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : ¬isLast i)
    (x : Vec F S2048x256 .f32) (w : Vec F S1280x256 .f32) (a : Vec F S2048x256 .f32) (mm : Vec F S2048x1 .f32) (l : Vec F S2048x1 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc0__flash_embed_kernel i arg2 harg2 arg3 harg3 arg4 harg4 arg5 harg5 arg6 harg6 arg7 harg7) K } := by
  refine ⟨?_, ?_, ?_, fun xo E K => ?run⟩
  case run =>
    simp only [cc0__flash_embed_kernel_eq_skeleton]; unfold cc0__flash_embed_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.KernelIdeal.R0

end
-- ==== Proof.KernelIdeal.RunFirst0.lean ====
/-
  Region 0, the FIRST case (k = 0): the body re-initialises the three scratch buffers (maximum to the large negative
  constant, denominator and numerator to zero) and then updates them as at every point; the output buffer is not touched.
-/
import proofs.«418895_j12197707120761_3_alg».proof.Proof.KernelIdeal.RunMid0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stored pieces of the three scratch buffers in the first case, with the proof that the body, started on the query
    tile `x`, the table tile `w`, an untouched output buffer `xo` and the scratch buffers at ANY contents, runs to the end
    leaving the inputs and the output buffer as they were and each scratch buffer with its pieces written. -/
noncomputable def runFirst (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : isFirst i) (hc1 : ¬isLast i)
    (x : Vec F S2048x256 .f32) (w : Vec F S1280x256 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc0__flash_embed_kernel i arg2 harg2 arg3 harg3 arg4 harg4 arg5 harg5 arg6 harg6 arg7 harg7) K } := by
  refine ⟨?_, ?_, ?_, fun xo E K => ?run⟩
  case run =>
    simp only [cc0__flash_embed_kernel_eq_skeleton]; unfold cc0__flash_embed_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.KernelIdeal.R0

end
-- ==== Proof.KernelIdeal.RunLast0.lean ====
/-
  Region 0, the LAST case (k = 24): after the update the body divides the running numerator by the running denominator
  and stores the quotient into the output buffer, which the pipeline then writes back.
-/
import proofs.«418895_j12197707120761_3_alg».proof.Proof.KernelIdeal.RunFirst0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stored pieces of the output buffer and of the three scratch buffers in the last case, with the proof that the body,
    started on the query tile `x`, the table tile `w`, the output buffer at ANY contents and the running numerator `a`,
    maximum `mm` and denominator `l`, runs to the end leaving the inputs as they were and the four buffers with their pieces written. -/
noncomputable def runLast (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : isLast i)
    (x : Vec F S2048x256 .f32) (w : Vec F S1280x256 .f32) (a : Vec F S2048x256 .f32) (mm : Vec F S2048x1 .f32) (l : Vec F S2048x1 .f32) :
    Σ' (LO : List (View.Piece (Elt F) S2048x256 .f32)) (LA : List (View.Piece (Elt F) S2048x256 .f32)) (LM : List (View.Piece (Elt F) S2048x1 .f32)), { LD : List (View.Piece (Elt F) S2048x1 .f32) //
      ∀ (E : Set ℕ) (K : PUnit → sProp 𝕄),
        iprop(owns (c : Thread nD τ) arg2 fullShare x ∗ owns (c : Thread nD τ) arg3 fullShare w ∗ (∃ d, owns (c : Thread nD τ) arg4 fullShare d)
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc0__flash_embed_kernel i arg2 harg2 arg3 harg3 arg4 harg4 arg5 harg5 arg6 harg6 arg7 harg7) K } := by
  refine ⟨?_, ?_, ?_, ?_, fun E K => ?run⟩
  case run =>
    simp only [cc0__flash_embed_kernel_eq_skeleton]; unfold cc0__flash_embed_kernel_skel
    simp only [k0_part1_eq_skeleton]
    unfold owns
    iintro ⟨⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.KernelIdeal.R0

end
-- ==== Proof.KernelIdeal.Left0.lean ====
/-
  Region 0: what the three cases leave, the recursion over the 50 points, the invariant and the proof data.

  After the body at a point the three scratch buffers hold the running numerator, maximum and denominator of the query
  tile's rows over the table tiles seen so far; the output buffer holds their quotient after a LAST point. The state
  after point n is defined by recursion on n: a FIRST point restarts from the constants, a MIDDLE or LAST point
  continues from what point n - 1 left.
-/
import proofs.«418895_j12197707120761_3_alg».proof.Proof.KernelIdeal.RunLast0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The stored pieces cover their buffers -/

section Cases

variable (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole)

theorem cover_first_acc (hc0 : isFirst i) (hc1 : ¬isLast i) (x : Vec F S2048x256 .f32) (w : Vec F S1280x256 .f32) (y : S2048x256.Idx) :
    ∃ pc ∈ (runFirst c i arg2 harg2 arg3 harg3 arg4 harg4 arg5 harg5 arg6 harg6 arg7 harg7 hc0 hc1 x w).1, y ∈ pc.1.set :=
  View.cover_of_tiledL (runFirst c i arg2 harg2 arg3 harg3 arg4 harg4 arg5 harg5 arg6 harg6 arg7 harg7 hc0 hc1 x w).1 S2048x256.size (by sl_kernel_rfl) y
theorem cover_first_max (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.1, y ∈ pc.1.set :=
  View.cover_of_tiledL (runFirst c i arg2 harg2 arg3 harg3 arg4 harg4 arg5 harg5 arg6 harg6 arg7 harg7 hc0 hc1 x w).2.1 S2048x1.size (by sl_kernel_rfl) y
theorem cover_first_den (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.2.1, y ∈ pc.1.set :=
  View.cover_of_tiledL (runFirst c i arg2 harg2 arg3 harg3 arg4 harg4 arg5 harg5 arg6 harg6 arg7 harg7 hc0 hc1 x w).2.2.1 S2048x1.size (by sl_kernel_rfl) y

theorem cover_mid_acc (hc0 : ¬isFirst i) (hc1 : ¬isLast i) (x : Vec F S2048x256 .f32) (w : Vec F S1280x256 .f32) (a : Vec F S2048x256 .f32) (mm l : Vec F S2048x1 .f32) (y : S2048x256.Idx) :
    ∃ pc ∈ (runMid c i arg2 harg2 arg3 harg3 arg4 harg4 arg5 harg5 arg6 harg6 arg7 harg7 hc0 hc1 x w a mm l).1, y ∈ pc.1.set :=
  View.cover_of_tiledL (runMid c i arg2 harg2 arg3 harg3 arg4 harg4 arg5 harg5 arg6 harg6 arg7 harg7 hc0 hc1 x w a mm l).1 S2048x256.size (by sl_kernel_rfl) y
theorem cover_mid_max (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.1, y ∈ pc.1.set :=
  View.cover_of_tiledL (runMid c i arg2 harg2 arg3 harg3 arg4 harg4 arg5 harg5 arg6 harg6 arg7 harg7 hc0 hc1 x w a mm l).2.1 S2048x1.size (by sl_kernel_rfl) y
theorem cover_mid_den (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.2.1, y ∈ pc.1.set :=
  View.cover_of_tiledL (runMid c i arg2 harg2 arg3 harg3 arg4 harg4 arg5 harg5 arg6 harg6 arg7 harg7 hc0 hc1 x w a mm l).2.2.1 S2048x1.size (by sl_kernel_rfl) y

theorem cover_last_out (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).1, y ∈ pc.1.set :=
  View.cover_of_tiledL (runLast c i arg2 harg2 arg3 harg3 arg4 harg4 arg5 harg5 arg6 harg6 arg7 harg7 hc0 hc1 x w a mm l).1 S2048x256.size (by sl_kernel_rfl) y
theorem cover_last_acc (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).2.1, y ∈ pc.1.set :=
  View.cover_of_tiledL (runLast c i arg2 harg2 arg3 harg3 arg4 harg4 arg5 harg5 arg6 harg6 arg7 harg7 hc0 hc1 x w a mm l).2.1 S2048x256.size (by sl_kernel_rfl) y
theorem cover_last_max (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.1, y ∈ pc.1.set :=
  View.cover_of_tiledL (runLast c i arg2 harg2 arg3 harg3 arg4 harg4 arg5 harg5 arg6 harg6 arg7 harg7 hc0 hc1 x w a mm l).2.2.1 S2048x1.size (by sl_kernel_rfl) y
theorem cover_last_den (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.2.1, y ∈ pc.1.set :=
  View.cover_of_tiledL (runLast c i arg2 harg2 arg3 harg3 arg4 harg4 arg5 harg5 arg6 harg6 arg7 harg7 hc0 hc1 x w a mm l).2.2.2.1 S2048x1.size (by sl_kernel_rfl) y

/-! ## What each case leaves: the pieces read back -/

/-- The contents of the output buffer, the numerator, the maximum and the denominator after a point. -/
abbrev St (F : FTy → Type) : Type := Vec F S2048x256 .f32 × Vec F S2048x256 .f32 × Vec F S2048x1 .f32 × Vec F S2048x1 .f32

/-- After a FIRST point (the output buffer is not stored: a placeholder nothing consults). -/
def leftFirst (hc0 : isFirst i) (hc1 : ¬isLast i) (x : Vec F S2048x256 .f32) (w : Vec F S1280x256 .f32) : St F :=
  (VOut.read (Elt F) (VOut.junk),
   VAcc.read (Elt F) (VAcc.writes (Elt F) VAcc.junk (runFirst c i arg2 harg2 arg3 harg3 arg4 harg4 arg5 harg5 arg6 harg6 arg7 harg7 hc0 hc1 x w).1),
   VMax.read (Elt F) (VMax.writes (Elt F) VMax.junk (runFirst c i arg2 harg2 arg3 harg3 arg4 harg4 arg5 harg5 arg6 harg6 arg7 harg7 hc0 hc1 x w).2.1),
   VDen.read (Elt F) (VDen.writes (Elt F) VDen.junk (runFirst c i arg2 harg2 arg3 harg3 arg4 harg4 arg5 harg5 arg6 harg6 arg7 harg7 hc0 hc1 x w).2.2.1))
/-- After a MIDDLE point, over what the point before left. -/
def leftMid (hc0 : ¬isFirst i) (hc1 : ¬isLast i) (x : Vec F S2048x256 .f32) (w : Vec F S1280x256 .f32) (p : St F) : St F :=
  (VOut.read (Elt F) (VOut.junk),
   VAcc.read (Elt F) (VAcc.writes (Elt F) VAcc.junk (runMid c i arg2 harg2 arg3 harg3 arg4 harg4 arg5 harg5 arg6 harg6 arg7 harg7 hc0 hc1 x w p.2.1 p.2.2.1 p.2.2.2).1),
   VMax.read (Elt F) (VMax.writes (Elt F) VMax.junk (runMid c i arg2 harg2 arg3 harg3 arg4 harg4 arg5 harg5 arg6 harg6 arg7 harg7 hc0 hc1 x w p.2.1 p.2.2.1 p.2.2.2).2.1),
   VDen.read (Elt F) (VDen.writes (Elt F) VDen.junk (runMid c i arg2 harg2 arg3 harg3 arg4 harg4 arg5 harg5 arg6 harg6 arg7 harg7 hc0 hc1 x w p.2.1 p.2.2.1 p.2.2.2).2.2.1))
/-- After a LAST point, over what the point before left. -/
def leftLast (hc0 : ¬isFirst i) (hc1 : isLast i) (x : Vec F S2048x256 .f32) (w : Vec F S1280x256 .f32) (p : St F) : St F :=
  (VOut.read (Elt F) (VOut.writes (Elt F) VOut.junk (runLast c i arg2 harg2 arg3 harg3 arg4 harg4 arg5 harg5 arg6 harg6 arg7 harg7 hc0 hc1 x w p.2.1 p.2.2.1 p.2.2.2).1),
   VAcc.read (Elt F) (VAcc.writes (Elt F) VAcc.junk (runLast c i arg2 harg2 arg3 harg3 arg4 harg4 arg5 harg5 arg6 harg6 arg7 harg7 hc0 hc1 x w p.2.1 p.2.2.1 p.2.2.2).2.1),
   VMax.read (Elt F) (VMax.writes (Elt F) VMax.junk (runLast c i arg2 harg2 arg3 harg3 arg4 harg4 arg5 harg5 arg6 harg6 arg7 harg7 hc0 hc1 x w p.2.1 p.2.2.1 p.2.2.2).2.2.1),
   VDen.read (Elt F) (VDen.writes (Elt F) VDen.junk (runLast c i arg2 harg2 arg3 harg3 arg4 harg4 arg5 harg5 arg6 harg6 arg7 harg7 hc0 hc1 x w p.2.1 p.2.2.1 p.2.2.2).2.2.2.1))

end Cases

end Cert.KernelIdeal.R0

end
-- ==== Proof.KernelIdeal.State0.lean ====
/-
  Region 0: the state after each of the 50 points, the invariant that carries the scratch buffers between points, the
  proof data of the pipeline and the body obligation — at a PARAMETER `V`, the core's buffer contents when the region
  is entered.
-/
import proofs.«418895_j12197707120761_3_alg».proof.Proof.KernelIdeal.Left0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's buffer holds its block at every point, fetched there or not (the block index moves only with
    the outer coordinate, and the body leaves the block in place). -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The table window's buffer holds its block at every point (it is fetched at every point). -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The state after each point -/

/-- The three cases at point `t`, on the point's memrefs and blocks. -/
def atFirst (c : Dev nD) (t : Fin cfg0.N) (h0 : t.val % 25 = 0) (h1 : ¬t.val % 25 = 24) : St F :=
  leftFirst c (grid0.coords t) (mx t) (hmx t) (mw t) (hmw t) (mo t) (hmo t) scAcc (Memref.isWhole_whole _) scMax (Memref.isWhole_whole _) scDen (Memref.isWhole_whole _)
    ((isFirst_iff t).mpr h0) (fun h => h1 ((isLast_iff t).mp h)) (iblk V c 0 t) (iblk V c 1 t)
def atMid (c : Dev nD) (t : Fin cfg0.N) (h0 : ¬t.val % 25 = 0) (h1 : ¬t.val % 25 = 24) (p : St F) : St F :=
  leftMid c (grid0.coords t) (mx t) (hmx t) (mw t) (hmw t) (mo t) (hmo t) scAcc (Memref.isWhole_whole _) scMax (Memref.isWhole_whole _) scDen (Memref.isWhole_whole _)
    (fun h => h0 ((isFirst_iff t).mp h)) (fun h => h1 ((isLast_iff t).mp h)) (iblk V c 0 t) (iblk V c 1 t) p
def atLast (c : Dev nD) (t : Fin cfg0.N) (h0 : ¬t.val % 25 = 0) (h1 : t.val % 25 = 24) (p : St F) : St F :=
  leftLast c (grid0.coords t) (mx t) (hmx t) (mw t) (hmw t) (mo t) (hmo t) scAcc (Memref.isWhole_whole _) scMax (Memref.isWhole_whole _) scDen (Memref.isWhole_whole _)
    (fun h => h0 ((isFirst_iff t).mp h)) ((isLast_iff t).mpr h1) (iblk V c 0 t) (iblk V c 1 t) p

/-- What the output buffer and the three scratch buffers hold after the body at position `n`: a FIRST point restarts,
    the others continue from position `n - 1`. -/
def stateAt (c : Dev nD) : (n : ℕ) → n < cfg0.N → St F
  | 0, hn => atFirst V c ⟨0, hn⟩ (Nat.zero_mod _) (by show ¬ (0 % 25 = 24); decide)
  | n + 1, hn =>
    if h0 : (n + 1) % 25 = 0 then atFirst V c ⟨n + 1, hn⟩ h0 (by show ¬ ((n + 1) % 25 = 24); omega)
    else if h1 : (n + 1) % 25 = 24 then atLast V c ⟨n + 1, hn⟩ h0 h1 (stateAt c n (Nat.lt_of_succ_lt hn))
    else atMid V c ⟨n + 1, hn⟩ h0 h1 (stateAt c n (Nat.lt_of_succ_lt hn))

theorem stateAt_first (c : Dev nD) (t : Fin cfg0.N) (h0 : t.val % 25 = 0) (h1 : ¬t.val % 25 = 24) :
    stateAt V c t.val t.isLt = atFirst V c t h0 h1 := by
  obtain ⟨n, hn⟩ := t
  cases n with
  | zero => rfl
  | succ n => exact (dif_pos h0).trans rfl
theorem stateAt_mid (c : Dev nD) (t : Fin cfg0.N) (h0 : ¬t.val % 25 = 0) (h1 : ¬t.val % 25 = 24) :
    stateAt V c t.val t.isLt = atMid V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stateAt_last (c : Dev nD) (t : Fin cfg0.N) (h0 : ¬t.val % 25 = 0) (h1 : t.val % 25 = 24) :
    stateAt V c t.val t.isLt = atLast V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point: the class invariant (every scratch buffer at anything). Afterwards: the three scratch
    buffers at what the point before left, the other scoped buffers and the generator register as they come. -/
def PhiS (c : Dev nD) : (n : ℕ) → n ≤ cfg0.N → sProp 𝕄
  | 0, _ => Pipeline.ΦA spec0 c
  | n + 1, hn => iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r)) := rfl
theorem PhiS_pos (c : Dev nD) (n : ℕ) (h : n ≤ cfg0.N) (hz : n ≠ 0) :
    PhiS V c n h = iprop(iprop(owns (c : Thread nD τ) scAcc fullShare (stateAt V c (n - 1) (by omega)).2.1 ∗ owns (c : Thread nD τ) scMax fullShare (stateAt V c (n - 1) (by omega)).2.2.1
      ∗ owns (c : Thread nD τ) scDen fullShare (stateAt V c (n - 1) (by omega)).2.2.2 ∗ others (F := F) c) ∗ (∃ r, prngReg c r)) := by
  cases n with
  | zero => exact absurd rfl hz
  | succ n => rfl

/-! ## The proof data -/

/-- The pipeline's proof data on core `c`: the arrays as the region finds them; after the body at point `t` the two
    input buffers at their blocks and the output buffer at the state's first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (stateAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_out (c : Dev nD) (t : Fin cfg0.N) : (dat V c).after 2 t = (stateAt V c t.val t.isLt).1 := by dsimp only [dat]
theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d

end Region

end Cert.KernelIdeal.R0

end
-- ==== Proof.KernelIdeal.Body0.lean ====
/-
  Region 0: the body obligation at every point. The point's case is read off the closed forms of the two branch
  conditions; in each case that case's whole-body run applies, the invariant hands the body the scratch buffers (at
  anything before the first point, at what the point before left afterwards) and takes them back at this point's state.
-/
import proofs.«418895_j12197707120761_3_alg».proof.Proof.KernelIdeal.State0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_x (c : Dev nD) (t : Fin cfg0.N) :
    (dat V c).leavesExact 0 t = owns (c : Thread nD τ) (mx t) fullShare ((dat V c).after 0 t) := by
  unfold Dat.leavesExact; rw [live_x t]
theorem leaves_w (c : Dev nD) (t : Fin cfg0.N) :
    (dat V c).leavesExact 1 t = owns (c : Thread nD τ) (mw t) fullShare ((dat V c).after 1 t) := by
  unfold Dat.leavesExact; rw [live_w t]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).owesAt () t.succ = (dat V c).owesAt () t.castSucc from rfl]
  rw [show (dat V c).Φ t.succ = PhiS V c (t.val + 1) t.isLt from rfl, PhiS_succ]
  rw [leaves_x, leaves_w, after_x, after_w]
  have hN : t.val < 50 := lt_of_lt_of_eq t.isLt (show cfg0.N = 50 from N_0)
  by_cases h0 : t.val % 25 = 0
  · have h1 : ¬t.val % 25 = 24 := by omega
    rw [Dat.leavesExact_idle (dat V c) 2 t (idle_out t (fun h => h1 ((isLast_iff t).mp h))) (noFlush_out t (fun h => h1 ((isLast_iff t).mp h)))]
    rw [stateAt_first V c t h0 h1]
    unfold atFirst leftFirst; dsimp only
    by_cases hz : t.val = 0
    · rw [Phi_castSucc V c t, PhiS_zero V c _ _ hz]
      iintro ⟨HΦ, Ho, ⟨%d0, H0⟩, ⟨%d1, H1⟩, ⟨%d2, H2⟩⟩
      ihave HP := (PhiA_open (F := F) c) $$ HΦ
      icases HP with ⟨⟨HA, HM, HD, HO⟩, Hg⟩
      iapply ((runFirst c (grid0.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
    · rw [Phi_castSucc V c t, PhiS_pos V c _ _ hz]
      iintro ⟨⟨⟨HA, HM, HD, HO⟩, Hg⟩, Ho, ⟨%d0, H0⟩, ⟨%d1, H1⟩, ⟨%d2, H2⟩⟩
      iapply ((runFirst c (grid0.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexists _; iexact HA
      isplitl [HM]; · iexists _; iexact HM
      isplitl [HD]; · iexists _; iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
  · have hz : t.val ≠ 0 := fun e => h0 (by rw [e])
    by_cases h1 : t.val % 25 = 24
    · rw [show (dat V c).leavesExact 2 t = owns (c : Thread nD τ) (mo t) fullShare ((dat V c).after 2 t) from by
        unfold Dat.leavesExact; rw [live_out t ((isLast_iff t).mpr h1)], after_out]
      rw [stateAt_last V c t h0 h1]
      unfold atLast leftLast; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runLast c (grid0.coords t) _ _ _ _ _ _ _ _ _ _ _ _ (fun h => h0 ((isFirst_iff t).mp h)) ((isLast_iff t).mpr h1) (iblk V c 0 t) (iblk V c 1 t) _ _ _).2.2.2.2 Set.univ _)
      isplitl [H0]; · iexact H0
      isplitl [H1]; · iexact H1
      isplitl [H2]; · iexists _; iexact H2
      isplitl [HA]; · iexact HA
      isplitl [HM]; · iexact HM
      isplitl [HD]; · iexact HD
      iintro ⟨H0, H1, ⟨%eo, H2⟩, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_last_acc c _ _ _ _ _ _ _ _ _ _ _ _ _ _ _ _ _ _ _ _)
          isplitl [HM]
          · unfold owns; iexists _; isplitr
            swap; · iexact HM
            ipureintro; exact View.read_writes_of_cover _ _ _ _ _ (cover_last_max c _ _ _ _ _ _ _ _ _ _ _ _ _ _ _ _ _ _ _ _)
          isplitl [HD]
          · unfold owns; iexists _; isplitr
            swap; · iexact HD
            ipureintro; exact View.read_writes_of_cover _ _ _ _ _ (cover_last_den c _ _ _ _ _ _ _ _ _ _ _ _ _ _ _ _ _ _ _ _)
          iexact HO
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _ _ _ _ _ _ _)
    · rw [Dat.leavesExact_idle (dat V c) 2 t (idle_out t (fun h => h1 ((isLast_iff t).mp h))) (noFlush_out t (fun h => h1 ((isLast_iff t).mp h)))]
      rw [stateAt_mid V c t h0 h1]
      unfold atMid leftMid; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runMid c (grid0.coords t) _ _ _ _ _ _ _ _ _ _ _ _ (fun h => h0 ((isFirst_iff t).mp h)) (fun h => h1 ((isLast_iff t).mp h)) (iblk V c 0 t) (iblk V c 1 t) _ _ _).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_mid_acc c _ _ _ _ _ _ _ _ _ _ _ _ _ _ _ _ _ _ _ _)
          isplitl [HM]
          · unfold owns; iexists _; isplitr
            swap; · iexact HM
            ipureintro; exact View.read_writes_of_cover _ _ _ _ _ (cover_mid_max c _ _ _ _ _ _ _ _ _ _ _ _ _ _ _ _ _ _ _ _)
          isplitl [HD]
          · unfold owns; iexists _; isplitr
            swap; · iexact HD
            ipureintro; exact View.read_writes_of_cover _ _ _ _ _ (cover_mid_den c _ _ _ _ _ _ _ _ _ _ _ _ _ _ _ _ _ _ _ _)
          iexact HO
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch buffers' named contents are forgotten. -/
theorem hout (c : Dev nD) : (dat V c).Φ (Fin.last cfg0.N) ⊢ Pipeline.ΦA spec0 c := by
  have hne : (Fin.last cfg0.N).val ≠ 0 := by rw [Fin.val_last]; have : cfg0.N = 50 := N_0; omega
  rw [show (dat V c).Φ (Fin.last cfg0.N) = PhiS V c (Fin.last cfg0.N).val (Nat.le_of_lt_succ (Fin.last cfg0.N).isLt) from rfl, PhiS_pos V c _ _ hne]
  iintro ⟨⟨HA, HM, HD, HO⟩, Hg⟩
  iapply (PhiA_close (F := F) c)
  isplitl [HA HM HD HO]
  · isplitl [HA]; · iexists _; iexact HA
    isplitl [HM]; · iexists _; iexact HM
    isplitl [HD]; · iexists _; iexact HD
    iexact HO
  iexact Hg

end Region

end Cert.KernelIdeal.R0

end
-- ==== Proof.KernelIdeal.Common1.lean ====
/-
  Region 1 (the second pallas_call: the T path) — what its three control cases share.

  The grid is 2 × 25: the outer coordinate picks one of two 2048-row tiles of the 4096 query rows, the inner coordinate
  k walks the 25 tiles of 1280 table rows. The body re-initialises its three scratch buffers (running maximum, running
  denominator, running numerator) where k = 0, updates them at every k, and divides numerator by denominator into the
  output block where k = 24. So a point t of the 50 is in exactly one of three cases: FIRST (t % 25 = 0), MIDDLE, LAST
  (t % 25 = 24); the output window is idle (not stored, not written back) except in the LAST case.
-/
import proofs.«418895_j12197707120761_3_alg».proof.Proof.Gen.KernelIdeal.Launch
import proofs.«418895_j12197707120761_3_alg».proof.Proof.Gen.KernelIdeal.Skeleton
import proofs.«418895_j12197707120761_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the 50 points -/

/-- "k = 0": the condition of the re-initialising branch, as the body computes it from the inner coordinate. -/
abbrev isFirst (i : grid1.Coords) : Prop :=
  (Scalar.cmpi .ne (Scalar.extui (Scalar.cmpi .eq (BitVec.ofNat 32 (i 1).val) 0#32)) 0#32) = 1#1
/-- "k = 24": the condition of the finalising branch. -/
abbrev isLast (i : grid1.Coords) : Prop := k1_cond2 i = 1#1

theorem isFirst_iff : ∀ t : Fin cfg1.N, isFirst (grid1.coords t) ↔ t.val % 25 = 0 :=
  (by decide +kernel : ∀ t : Fin grid1.N, isFirst (grid1.coords t) ↔ t.val % 25 = 0)
theorem isLast_iff : ∀ t : Fin cfg1.N, isLast (grid1.coords t) ↔ t.val % 25 = 24 :=
  (by decide +kernel : ∀ t : Fin grid1.N, isLast (grid1.coords t) ↔ t.val % 25 = 24)

/-! ## Where the windows are idle -/

theorem live_x : ∀ t : Fin cfg1.N, cfg1.idle 0 (grid1.coords t) = false := by decide +kernel
theorem live_w : ∀ t : Fin cfg1.N, cfg1.idle 1 (grid1.coords t) = false := by decide +kernel
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
theorem live_out : ∀ t : Fin cfg1.N, isLast (grid1.coords t) → cfg1.idle 2 (grid1.coords t) = false := by decide +kernel

/-! ## The memrefs the body is called with -/

abbrev mx (t : Fin cfg1.N) : Memref sig .tc .vmem S2048x256 .f32 := win1_0.stage (cfg1.slots t 0)
abbrev hmx (t : Fin cfg1.N) : (mx t).IsWhole := hstage1_0 ((cfg1.slots t 0).cast nbuf1_0)
abbrev mw (t : Fin cfg1.N) : Memref sig .tc .vmem S1280x256 .f32 := win1_1.stage (cfg1.slots t 1)
abbrev hmw (t : Fin cfg1.N) : (mw t).IsWhole := hstage1_1 ((cfg1.slots t 1).cast nbuf1_1)
abbrev mo (t : Fin cfg1.N) : Memref sig .tc .vmem S2048x256 .f32 := win1_2.stage (cfg1.slots t 2)
abbrev hmo (t : Fin cfg1.N) : (mo t).IsWhole := hstage1_2 ((cfg1.slots t 2).cast nbuf1_2)
/-- The three scratch operands: running numerator (2048 × 256), running maximum and running denominator (2048 × 1). -/
abbrev scAcc : Memref sig .tc .vmem S2048x256 .f32 := Memref.whole cc1_scratch0
abbrev scMax : Memref sig .tc .vmem S2048x1 .f32 := Memref.whole cc1_scratch1
abbrev scDen : Memref sig .tc .vmem S2048x1 .f32 := Memref.whole cc1_scratch2
abbrev VAcc : View sig .tc .vmem S2048x256 .f32 := scAcc.view
abbrev VMax : View sig .tc .vmem S2048x1 .f32 := scMax.view
abbrev VDen : View sig .tc .vmem S2048x1 .f32 := scDen.view
abbrev VOut : View sig .tc .vmem S2048x256 .f32 := (Memref.whole cc1_stg2_0 : Memref sig .tc .vmem S2048x256 .f32).view

/-- The core's scoped buffers that region 1 neither stages through nor uses as scratch: the first call's staging
    buffers and scratch, each whole at some contents. They ride through region 1 untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The region's class invariant gives the three scratch operands as memrefs owned at some contents, the other scoped
    buffers and the generator register (the scoped buffers enumerated with this call's scratch last, reordered here); -/
theorem PhiA_open (c : Dev nD) :
    (Pipeline.ΦA spec1 c : sProp 𝕄)
      ⊢ iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r)) := by
  unfold Pipeline.ΦA others; rw [scopedRest1_eq]; simp only [scAcc, scMax, scDen, owns_whole]
  iintro ⟨⟨O1, O2, O3, O4, O5, O6, O7, O8, O9, HA, HM, HD⟩, Hg⟩
  isplitr [Hg]
  · isplitl [HA]; · iexact HA
    isplitl [HM]; · iexact HM
    isplitl [HD]; · iexact HD
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg
/-- and is made of them again. -/
theorem PhiA_close (c : Dev nD) :
    iprop(iprop((∃ d, owns (c : Thread nD τ) scAcc fullShare d) ∗ (∃ d, owns (c : Thread nD τ) scMax fullShare d) ∗ (∃ d, owns (c : Thread nD τ) scDen fullShare d) ∗ others (F := F) c) ∗ (∃ r, prngReg c r))
      ⊢ (Pipeline.ΦA spec1 c : sProp 𝕄) := by
  unfold Pipeline.ΦA others; rw [scopedRest1_eq]; simp only [scAcc, scMax, scDen, owns_whole]
  iintro ⟨⟨HA, HM, HD, O1, O2, O3, O4, O5, O6, O7, O8, O9⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [HA]; · iexact HA
    isplitl [HM]; · iexact HM
    iexact HD
  iexact Hg

end Cert.KernelIdeal.R1

end
-- ==== Proof.KernelIdeal.RunMid1.lean ====
/-
  Region 1, the MIDDLE case (0 < k < 24): the body on whole memrefs. It reads the query tile, the table tile and the
  three running quantities, and stores the updated running denominator, numerator and maximum; the output buffer is
  not touched. What each scratch buffer ends with is found by running the body: the lists of stored pieces.
-/
import proofs.«418895_j12197707120761_3_alg».proof.Proof.KernelIdeal.Common1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stored pieces of the three scratch buffers in the middle case, with the proof that the body, started on the
    query tile `x`, the table tile `w`, an untouched output buffer `xo` and the running numerator `a`, maximum `mm`
    and denominator `l`, runs to the end leaving the inputs and the output buffer as they were and each scratch buffer
    with its pieces written. -/
noncomputable def runMid (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : ¬isLast i)
    (x : Vec F S2048x256 .f32) (w : Vec F S1280x256 .f32) (a : Vec F S2048x256 .f32) (mm : Vec F S2048x1 .f32) (l : Vec F S2048x1 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc1__flash_embed_kernel i arg2 harg2 arg3 harg3 arg4 harg4 arg5 harg5 arg6 harg6 arg7 harg7) K } := by
  refine ⟨?_, ?_, ?_, fun xo E K => ?run⟩
  case run =>
    simp only [cc1__flash_embed_kernel_eq_skeleton]; unfold cc1__flash_embed_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.KernelIdeal.R1

end
-- ==== Proof.KernelIdeal.RunFirst1.lean ====
/-
  Region 1, the FIRST case (k = 0): the body re-initialises the three scratch buffers (maximum to the large negative
  constant, denominator and numerator to zero) and then updates them as at every point; the output buffer is not touched.
-/
import proofs.«418895_j12197707120761_3_alg».proof.Proof.KernelIdeal.RunMid1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stored pieces of the three scratch buffers in the first case, with the proof that the body, started on the query
    tile `x`, the table tile `w`, an untouched output buffer `xo` and the scratch buffers at ANY contents, runs to the end
    leaving the inputs and the output buffer as they were and each scratch buffer with its pieces written. -/
noncomputable def runFirst (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : isFirst i) (hc1 : ¬isLast i)
    (x : Vec F S2048x256 .f32) (w : Vec F S1280x256 .f32) :
    Σ' (LA : List (View.Piece (Elt F) S2048x256 .f32)) (LM : List (View.Piece (Elt F) S2048x1 .f32)), { LD : List (View.Piece (Elt F) S2048x1 .f32) //
      ∀ (xo : Vec F S2048x256 .f32) (E : Set ℕ) (K : PUnit → sProp 𝕄),
        iprop(owns (c : Thread nD τ) arg2 fullShare x ∗ owns (c : Thread nD τ) arg3 fullShare w ∗ owns (c : Thread nD τ) arg4 fullShare xo
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x ∗ owns (c : Thread nD τ) arg3 fullShare w ∗ owns (c : Thread nD τ) arg4 fullShare xo
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc1__flash_embed_kernel i arg2 harg2 arg3 harg3 arg4 harg4 arg5 harg5 arg6 harg6 arg7 harg7) K } := by
  refine ⟨?_, ?_, ?_, fun xo E K => ?run⟩
  case run =>
    simp only [cc1__flash_embed_kernel_eq_skeleton]; unfold cc1__flash_embed_kernel_skel
    simp only [k1_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.KernelIdeal.R1

end
-- ==== Proof.KernelIdeal.RunLast1.lean ====
/-
  Region 1, the LAST case (k = 24): after the update the body divides the running numerator by the running denominator
  and stores the quotient into the output buffer, which the pipeline then writes back.
-/
import proofs.«418895_j12197707120761_3_alg».proof.Proof.KernelIdeal.RunFirst1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stored pieces of the output buffer and of the three scratch buffers in the last case, with the proof that the body,
    started on the query tile `x`, the table tile `w`, the output buffer at ANY contents and the running numerator `a`,
    maximum `mm` and denominator `l`, runs to the end leaving the inputs as they were and the four buffers with their pieces written. -/
noncomputable def runLast (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (hc0 : ¬isFirst i) (hc1 : isLast i)
    (x : Vec F S2048x256 .f32) (w : Vec F S1280x256 .f32) (a : Vec F S2048x256 .f32) (mm : Vec F S2048x1 .f32) (l : Vec F S2048x1 .f32) :
    Σ' (LO : List (View.Piece (Elt F) S2048x256 .f32)) (LA : List (View.Piece (Elt F) S2048x256 .f32)) (LM : List (View.Piece (Elt F) S2048x1 .f32)), { LD : List (View.Piece (Elt F) S2048x1 .f32) //
      ∀ (E : Set ℕ) (K : PUnit → sProp 𝕄),
        iprop(owns (c : Thread nD τ) arg2 fullShare x ∗ owns (c : Thread nD τ) arg3 fullShare w ∗ (∃ d, owns (c : Thread nD τ) arg4 fullShare d)
            ∗ owns (c : Thread nD τ) arg5 fullShare a ∗ owns (c : Thread nD τ) arg6 fullShare mm ∗ owns (c : Thread nD τ) arg7 fullShare l
            ∗ (iprop(owns (c : Thread nD τ) arg2 fullShare x ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LD)) -∗ K ⟨⟩))
          ⊢ wp frame (wpE (defs₀ (F := F)) Variants.none c none) E (cc1__flash_embed_kernel i arg2 harg2 arg3 harg3 arg4 harg4 arg5 harg5 arg6 harg6 arg7 harg7) K } := by
  refine ⟨?_, ?_, ?_, ?_, fun E K => ?run⟩
  case run =>
    simp only [cc1__flash_embed_kernel_eq_skeleton]; unfold cc1__flash_embed_kernel_skel
    simp only [k1_part1_eq_skeleton]
    unfold owns
    iintro ⟨⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.KernelIdeal.R1

end
-- ==== Proof.KernelIdeal.Left1.lean ====
/-
  Region 1: what the three cases leave, the recursion over the 50 points, the invariant and the proof data.

  After the body at a point the three scratch buffers hold the running numerator, maximum and denominator of the query
  tile's rows over the table tiles seen so far; the output buffer holds their quotient after a LAST point. The state
  after point n is defined by recursion on n: a FIRST point restarts from the constants, a MIDDLE or LAST point
  continues from what point n - 1 left.
-/
import proofs.«418895_j12197707120761_3_alg».proof.Proof.KernelIdeal.RunLast1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The stored pieces cover their buffers -/

section Cases

variable (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole)

theorem cover_first_acc (hc0 : isFirst i) (hc1 : ¬isLast i) (x : Vec F S2048x256 .f32) (w : Vec F S1280x256 .f32) (y : S2048x256.Idx) :
    ∃ pc ∈ (runFirst c i arg2 harg2 arg3 harg3 arg4 harg4 arg5 harg5 arg6 harg6 arg7 harg7 hc0 hc1 x w).1, y ∈ pc.1.set :=
  View.cover_of_tiledL (runFirst c i arg2 harg2 arg3 harg3 arg4 harg4 arg5 harg5 arg6 harg6 arg7 harg7 hc0 hc1 x w).1 S2048x256.size (by sl_kernel_rfl) y
theorem cover_first_max (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.1, y ∈ pc.1.set :=
  View.cover_of_tiledL (runFirst c i arg2 harg2 arg3 harg3 arg4 harg4 arg5 harg5 arg6 harg6 arg7 harg7 hc0 hc1 x w).2.1 S2048x1.size (by sl_kernel_rfl) y
theorem cover_first_den (hc0 : isFirst i) (hc1 : ¬isLast i) (x : Vec F S2048x256 .f32) (w : Vec F S1280x256 .f32) (y : S2048x1.Idx) :
    ∃ pc ∈ (runFirst c i arg2 harg2 arg3 harg3 arg4 harg4 arg5 harg5 arg6 harg6 arg7 harg7 hc0 hc1 x w).2.2.1, y ∈ pc.1.set :=
  View.cover_of_tiledL (runFirst c i arg2 harg2 arg3 harg3 arg4 harg4 arg5 harg5 arg6 harg6 arg7 harg7 hc0 hc1 x w).2.2.1 S2048x1.size (by sl_kernel_rfl) y

theorem cover_mid_acc (hc0 : ¬isFirst i) (hc1 : ¬isLast i) (x : Vec F S2048x256 .f32) (w : Vec F S1280x256 .f32) (a : Vec F S2048x256 .f32) (mm l : Vec F S2048x1 .f32) (y : S2048x256.Idx) :
    ∃ pc ∈ (runMid c i arg2 harg2 arg3 harg3 arg4 harg4 arg5 harg5 arg6 harg6 arg7 harg7 hc0 hc1 x w a mm l).1, y ∈ pc.1.set :=
  View.cover_of_tiledL (runMid c i arg2 harg2 arg3 harg3 arg4 harg4 arg5 harg5 arg6 harg6 arg7 harg7 hc0 hc1 x w a mm l).1 S2048x256.size (by sl_kernel_rfl) y
theorem cover_mid_max (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.1, y ∈ pc.1.set :=
  View.cover_of_tiledL (runMid c i arg2 harg2 arg3 harg3 arg4 harg4 arg5 harg5 arg6 harg6 arg7 harg7 hc0 hc1 x w a mm l).2.1 S2048x1.size (by sl_kernel_rfl) y
theorem cover_mid_den (hc0 : ¬isFirst i) (hc1 : ¬isLast i) (x : Vec F S2048x256 .f32) (w : Vec F S1280x256 .f32) (a : Vec F S2048x256 .f32) (mm l : Vec F S2048x1 .f32) (y : S2048x1.Idx) :
    ∃ pc ∈ (runMid c i arg2 harg2 arg3 harg3 arg4 harg4 arg5 harg5 arg6 harg6 arg7 harg7 hc0 hc1 x w a mm l).2.2.1, y ∈ pc.1.set :=
  View.cover_of_tiledL (runMid c i arg2 harg2 arg3 harg3 arg4 harg4 arg5 harg5 arg6 harg6 arg7 harg7 hc0 hc1 x w a mm l).2.2.1 S2048x1.size (by sl_kernel_rfl) y

theorem cover_last_out (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).1, y ∈ pc.1.set :=
  View.cover_of_tiledL (runLast c i arg2 harg2 arg3 harg3 arg4 harg4 arg5 harg5 arg6 harg6 arg7 harg7 hc0 hc1 x w a mm l).1 S2048x256.size (by sl_kernel_rfl) y
theorem cover_last_acc (hc0 : ¬isFirst i) (hc1 : isLast i) (x : Vec F S2048x256 .f32) (w : Vec F S1280x256 .f32) (a : Vec F S2048x256 .f32) (mm l : Vec F S2048x1 .f32) (y : S2048x256.Idx) :
    ∃ pc ∈ (runLast c i arg2 harg2 arg3 harg3 arg4 harg4 arg5 harg5 arg6 harg6 arg7 harg7 hc0 hc1 x w a mm l).2.1, y ∈ pc.1.set :=
  View.cover_of_tiledL (runLast c i arg2 harg2 arg3 harg3 arg4 harg4 arg5 harg5 arg6 harg6 arg7 harg7 hc0 hc1 x w a mm l).2.1 S2048x256.size (by sl_kernel_rfl) y
theorem cover_last_max (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.1, y ∈ pc.1.set :=
  View.cover_of_tiledL (runLast c i arg2 harg2 arg3 harg3 arg4 harg4 arg5 harg5 arg6 harg6 arg7 harg7 hc0 hc1 x w a mm l).2.2.1 S2048x1.size (by sl_kernel_rfl) y
theorem cover_last_den (hc0 : ¬isFirst i) (hc1 : isLast i) (x : Vec F S2048x256 .f32) (w : Vec F S1280x256 .f32) (a : Vec F S2048x256 .f32) (mm l : Vec F S2048x1 .f32) (y : S2048x1.Idx) :
    ∃ pc ∈ (runLast c i arg2 harg2 arg3 harg3 arg4 harg4 arg5 harg5 arg6 harg6 arg7 harg7 hc0 hc1 x w a mm l).2.2.2.1, y ∈ pc.1.set :=
  View.cover_of_tiledL (runLast c i arg2 harg2 arg3 harg3 arg4 harg4 arg5 harg5 arg6 harg6 arg7 harg7 hc0 hc1 x w a mm l).2.2.2.1 S2048x1.size (by sl_kernel_rfl) y

/-! ## What each case leaves: the pieces read back -/

/-- The contents of the output buffer, the numerator, the maximum and the denominator after a point. -/
abbrev St (F : FTy → Type) : Type := Vec F S2048x256 .f32 × Vec F S2048x256 .f32 × Vec F S2048x1 .f32 × Vec F S2048x1 .f32

/-- After a FIRST point (the output buffer is not stored: a placeholder nothing consults). -/
def leftFirst (hc0 : isFirst i) (hc1 : ¬isLast i) (x : Vec F S2048x256 .f32) (w : Vec F S1280x256 .f32) : St F :=
  (VOut.read (Elt F) (VOut.junk),
   VAcc.read (Elt F) (VAcc.writes (Elt F) VAcc.junk (runFirst c i arg2 harg2 arg3 harg3 arg4 harg4 arg5 harg5 arg6 harg6 arg7 harg7 hc0 hc1 x w).1),
   VMax.read (Elt F) (VMax.writes (Elt F) VMax.junk (runFirst c i arg2 harg2 arg3 harg3 arg4 harg4 arg5 harg5 arg6 harg6 arg7 harg7 hc0 hc1 x w).2.1),
   VDen.read (Elt F) (VDen.writes (Elt F) VDen.junk (runFirst c i arg2 harg2 arg3 harg3 arg4 harg4 arg5 harg5 arg6 harg6 arg7 harg7 hc0 hc1 x w).2.2.1))
/-- After a MIDDLE point, over what the point before left. -/
def leftMid (hc0 : ¬isFirst i) (hc1 : ¬isLast i) (x : Vec F S2048x256 .f32) (w : Vec F S1280x256 .f32) (p : St F) : St F :=
  (VOut.read (Elt F) (VOut.junk),
   VAcc.read (Elt F) (VAcc.writes (Elt F) VAcc.junk (runMid c i arg2 harg2 arg3 harg3 arg4 harg4 arg5 harg5 arg6 harg6 arg7 harg7 hc0 hc1 x w p.2.1 p.2.2.1 p.2.2.2).1),
   VMax.read (Elt F) (VMax.writes (Elt F) VMax.junk (runMid c i arg2 harg2 arg3 harg3 arg4 harg4 arg5 harg5 arg6 harg6 arg7 harg7 hc0 hc1 x w p.2.1 p.2.2.1 p.2.2.2).2.1),
   VDen.read (Elt F) (VDen.writes (Elt F) VDen.junk (runMid c i arg2 harg2 arg3 harg3 arg4 harg4 arg5 harg5 arg6 harg6 arg7 harg7 hc0 hc1 x w p.2.1 p.2.2.1 p.2.2.2).2.2.1))
/-- After a LAST point, over what the point before left. -/
def leftLast (hc0 : ¬isFirst i) (hc1 : isLast i) (x : Vec F S2048x256 .f32) (w : Vec F S1280x256 .f32) (p : St F) : St F :=
  (VOut.read (Elt F) (VOut.writes (Elt F) VOut.junk (runLast c i arg2 harg2 arg3 harg3 arg4 harg4 arg5 harg5 arg6 harg6 arg7 harg7 hc0 hc1 x w p.2.1 p.2.2.1 p.2.2.2).1),
   VAcc.read (Elt F) (VAcc.writes (Elt F) VAcc.junk (runLast c i arg2 harg2 arg3 harg3 arg4 harg4 arg5 harg5 arg6 harg6 arg7 harg7 hc0 hc1 x w p.2.1 p.2.2.1 p.2.2.2).2.1),
   VMax.read (Elt F) (VMax.writes (Elt F) VMax.junk (runLast c i arg2 harg2 arg3 harg3 arg4 harg4 arg5 harg5 arg6 harg6 arg7 harg7 hc0 hc1 x w p.2.1 p.2.2.1 p.2.2.2).2.2.1),
   VDen.read (Elt F) (VDen.writes (Elt F) VDen.junk (runLast c i arg2 harg2 arg3 harg3 arg4 harg4 arg5 harg5 arg6 harg6 arg7 harg7 hc0 hc1 x w p.2.1 p.2.2.1 p.2.2.2).2.2.2.1))

end Cases

end Cert.KernelIdeal.R1

end
-- ==== Proof.KernelIdeal.State1.lean ====
/-
  Region 1: the state after each of the 50 points, the invariant that carries the scratch buffers between points, the
  proof data of the pipeline and the body obligation — at a PARAMETER `V`, the core's buffer contents when the region
  is entered.
-/
import proofs.«418895_j12197707120761_3_alg».proof.Proof.KernelIdeal.Left1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not (the block index moves only with
    the outer coordinate, and the body leaves the block in place). -/
theorem before_x_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The table window's buffer holds its block at every point (it is fetched at every point). -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The state after each point -/

/-- The three cases at point `t`, on the point's memrefs and blocks. -/
def atFirst (c : Dev nD) (t : Fin cfg1.N) (h0 : t.val % 25 = 0) (h1 : ¬t.val % 25 = 24) : St F :=
  leftFirst c (grid1.coords t) (mx t) (hmx t) (mw t) (hmw t) (mo t) (hmo t) scAcc (Memref.isWhole_whole _) scMax (Memref.isWhole_whole _) scDen (Memref.isWhole_whole _)
    ((isFirst_iff t).mpr h0) (fun h => h1 ((isLast_iff t).mp h)) (iblk V c 0 t) (iblk V c 1 t)
def atMid (c : Dev nD) (t : Fin cfg1.N) (h0 : ¬t.val % 25 = 0) (h1 : ¬t.val % 25 = 24) (p : St F) : St F :=
  leftMid c (grid1.coords t) (mx t) (hmx t) (mw t) (hmw t) (mo t) (hmo t) scAcc (Memref.isWhole_whole _) scMax (Memref.isWhole_whole _) scDen (Memref.isWhole_whole _)
    (fun h => h0 ((isFirst_iff t).mp h)) (fun h => h1 ((isLast_iff t).mp h)) (iblk V c 0 t) (iblk V c 1 t) p
def atLast (c : Dev nD) (t : Fin cfg1.N) (h0 : ¬t.val % 25 = 0) (h1 : t.val % 25 = 24) (p : St F) : St F :=
  leftLast c (grid1.coords t) (mx t) (hmx t) (mw t) (hmw t) (mo t) (hmo t) scAcc (Memref.isWhole_whole _) scMax (Memref.isWhole_whole _) scDen (Memref.isWhole_whole _)
    (fun h => h0 ((isFirst_iff t).mp h)) ((isLast_iff t).mpr h1) (iblk V c 0 t) (iblk V c 1 t) p

/-- What the output buffer and the three scratch buffers hold after the body at position `n`: a FIRST point restarts,
    the others continue from position `n - 1`. -/
def stateAt (c : Dev nD) : (n : ℕ) → n < cfg1.N → St F
  | 0, hn => atFirst V c ⟨0, hn⟩ (Nat.zero_mod _) (by show ¬ (0 % 25 = 24); decide)
  | n + 1, hn =>
    if h0 : (n + 1) % 25 = 0 then atFirst V c ⟨n + 1, hn⟩ h0 (by show ¬ ((n + 1) % 25 = 24); omega)
    else if h1 : (n + 1) % 25 = 24 then atLast V c ⟨n + 1, hn⟩ h0 h1 (stateAt c n (Nat.lt_of_succ_lt hn))
    else atMid V c ⟨n + 1, hn⟩ h0 h1 (stateAt c n (Nat.lt_of_succ_lt hn))

theorem stateAt_first (c : Dev nD) (t : Fin cfg1.N) (h0 : t.val % 25 = 0) (h1 : ¬t.val % 25 = 24) :
    stateAt V c t.val t.isLt = atFirst V c t h0 h1 := by
  obtain ⟨n, hn⟩ := t
  cases n with
  | zero => rfl
  | succ n => exact (dif_pos h0).trans rfl
theorem stateAt_mid (c : Dev nD) (t : Fin cfg1.N) (h0 : ¬t.val % 25 = 0) (h1 : ¬t.val % 25 = 24) :
    stateAt V c t.val t.isLt = atMid V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stateAt_last (c : Dev nD) (t : Fin cfg1.N) (h0 : ¬t.val % 25 = 0) (h1 : t.val % 25 = 24) :
    stateAt V c t.val t.isLt = atLast V c t h0 h1 (stateAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point: the class invariant (every scratch buffer at anything). Afterwards: the three scratch
    buffers at what the point before left, the other scoped buffers and the generator register as they come. -/
def PhiS (c : Dev nD) : (n : ℕ) → n ≤ cfg1.N → sProp 𝕄
  | 0, _ => Pipeline.ΦA spec1 c
  | n + 1, hn => iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scAcc fullShare (stateAt V c n hn).2.1 ∗ owns (c : Thread nD τ) scMax fullShare (stateAt V c n hn).2.2.1
      ∗ owns (c : Thread nD τ) scDen fullShare (stateAt V c n hn).2.2.2 ∗ others (F := F) c) ∗ (∃ r, prngReg c r)) := rfl
theorem PhiS_pos (c : Dev nD) (n : ℕ) (h : n ≤ cfg1.N) (hz : n ≠ 0) :
    PhiS V c n h = iprop(iprop(owns (c : Thread nD τ) scAcc fullShare (stateAt V c (n - 1) (by omega)).2.1 ∗ owns (c : Thread nD τ) scMax fullShare (stateAt V c (n - 1) (by omega)).2.2.1
      ∗ owns (c : Thread nD τ) scDen fullShare (stateAt V c (n - 1) (by omega)).2.2.2 ∗ others (F := F) c) ∗ (∃ r, prngReg c r)) := by
  cases n with
  | zero => exact absurd rfl hz
  | succ n => rfl

/-! ## The proof data -/

/-- The pipeline's proof data on core `c`: the arrays as the region finds them; after the body at point `t` the two
    input buffers at their blocks and the output buffer at the state's first component; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (stateAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_out (c : Dev nD) (t : Fin cfg1.N) : (dat V c).after 2 t = (stateAt V c t.val t.isLt).1 := by dsimp only [dat]
theorem before_x (c : Dev nD) (t : Fin cfg1.N) (d) : (dat V c).before 0 t d = iblk V c 0 t :=
  before_x_of V (dat V c) (A_eq V c 0) (after_x V c) t d
theorem before_w (c : Dev nD) (t : Fin cfg1.N) (d) : (dat V c).before 1 t d = iblk V c 1 t :=
  before_w_of V (dat V c) (A_eq V c 1) (after_w V c) t d

end Region

end Cert.KernelIdeal.R1

end
-- ==== Proof.KernelIdeal.Body1.lean ====
/-
  Region 1: the body obligation at every point. The point's case is read off the closed forms of the two branch
  conditions; in each case that case's whole-body run applies, the invariant hands the body the scratch buffers (at
  anything before the first point, at what the point before left afterwards) and takes them back at this point's state.
-/
import proofs.«418895_j12197707120761_3_alg».proof.Proof.KernelIdeal.State1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_x (c : Dev nD) (t : Fin cfg1.N) :
    (dat V c).leavesExact 0 t = owns (c : Thread nD τ) (mx t) fullShare ((dat V c).after 0 t) := by
  unfold Dat.leavesExact; rw [live_x t]
theorem leaves_w (c : Dev nD) (t : Fin cfg1.N) :
    (dat V c).leavesExact 1 t = owns (c : Thread nD τ) (mw t) fullShare ((dat V c).after 1 t) := by
  unfold Dat.leavesExact; rw [live_w t]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w]
  rw [show (dat V c).owesAt () t.succ = (dat V c).owesAt () t.castSucc from rfl]
  rw [show (dat V c).Φ t.succ = PhiS V c (t.val + 1) t.isLt from rfl, PhiS_succ]
  rw [leaves_x, leaves_w, after_x, after_w]
  have hN : t.val < 50 := lt_of_lt_of_eq t.isLt (show cfg1.N = 50 from N_1)
  by_cases h0 : t.val % 25 = 0
  · have h1 : ¬t.val % 25 = 24 := by omega
    rw [Dat.leavesExact_idle (dat V c) 2 t (idle_out t (fun h => h1 ((isLast_iff t).mp h))) (noFlush_out t (fun h => h1 ((isLast_iff t).mp h)))]
    rw [stateAt_first V c t h0 h1]
    unfold atFirst leftFirst; dsimp only
    by_cases hz : t.val = 0
    · rw [Phi_castSucc V c t, PhiS_zero V c _ _ hz]
      iintro ⟨HΦ, Ho, ⟨%d0, H0⟩, ⟨%d1, H1⟩, ⟨%d2, H2⟩⟩
      ihave HP := (PhiA_open (F := F) c) $$ HΦ
      icases HP with ⟨⟨HA, HM, HD, HO⟩, Hg⟩
      iapply ((runFirst c (grid1.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
    · rw [Phi_castSucc V c t, PhiS_pos V c _ _ hz]
      iintro ⟨⟨⟨HA, HM, HD, HO⟩, Hg⟩, Ho, ⟨%d0, H0⟩, ⟨%d1, H1⟩, ⟨%d2, H2⟩⟩
      iapply ((runFirst c (grid1.coords t) _ _ _ _ _ _ _ _ _ _ _ _ ((isFirst_iff t).mpr h0) (fun h => h1 ((isLast_iff t).mp h)) (iblk V c 0 t) (iblk V c 1 t)).2.2.2 _ Set.univ _)
      isplitl [H0]; · iexact H0
      isplitl [H1]; · iexact H1
      isplitl [H2]; · iexact H2
      isplitl [HA]; · iexists _; iexact HA
      isplitl [HM]; · iexists _; iexact HM
      isplitl [HD]; · iexists _; iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_first_acc c _ _ _ _ _ _ _ _ _ _ _ _ _ _ _ _ _)
          isplitl [HM]
          · unfold owns; iexists _; isplitr
            swap; · iexact HM
            ipureintro; exact View.read_writes_of_cover _ _ _ _ _ (cover_first_max c _ _ _ _ _ _ _ _ _ _ _ _ _ _ _ _ _)
          isplitl [HD]
          · unfold owns; iexists _; isplitr
            swap; · iexact HD
            ipureintro; exact View.read_writes_of_cover _ _ _ _ _ (cover_first_den c _ _ _ _ _ _ _ _ _ _ _ _ _ _ _ _ _)
          iexact HO
        iexact Hg
      isplitl [Ho]; · iexact Ho
      isplitl [H0]; · iexact H0
      isplitl [H1]; · iexact H1
      iexists _; iexact H2
  · have hz : t.val ≠ 0 := fun e => h0 (by rw [e])
    by_cases h1 : t.val % 25 = 24
    · rw [show (dat V c).leavesExact 2 t = owns (c : Thread nD τ) (mo t) fullShare ((dat V c).after 2 t) from by
        unfold Dat.leavesExact; rw [live_out t ((isLast_iff t).mpr h1)], after_out]
      rw [stateAt_last V c t h0 h1]
      unfold atLast leftLast; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runLast c (grid1.coords t) _ _ _ _ _ _ _ _ _ _ _ _ (fun h => h0 ((isFirst_iff t).mp h)) ((isLast_iff t).mpr h1) (iblk V c 0 t) (iblk V c 1 t) _ _ _).2.2.2.2 Set.univ _)
      isplitl [H0]; · iexact H0
      isplitl [H1]; · iexact H1
      isplitl [H2]; · iexists _; iexact H2
      isplitl [HA]; · iexact HA
      isplitl [HM]; · iexact HM
      isplitl [HD]; · iexact HD
      iintro ⟨H0, H1, ⟨%eo, H2⟩, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_last_acc c _ _ _ _ _ _ _ _ _ _ _ _ _ _ _ _ _ _ _ _)
          isplitl [HM]
          · unfold owns; iexists _; isplitr
            swap; · iexact HM
            ipureintro; exact View.read_writes_of_cover _ _ _ _ _ (cover_last_max c _ _ _ _ _ _ _ _ _ _ _ _ _ _ _ _ _ _ _ _)
          isplitl [HD]
          · unfold owns; iexists _; isplitr
            swap; · iexact HD
            ipureintro; exact View.read_writes_of_cover _ _ _ _ _ (cover_last_den c _ _ _ _ _ _ _ _ _ _ _ _ _ _ _ _ _ _ _ _)
          iexact HO
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _ _ _ _ _ _ _)
    · rw [Dat.leavesExact_idle (dat V c) 2 t (idle_out t (fun h => h1 ((isLast_iff t).mp h))) (noFlush_out t (fun h => h1 ((isLast_iff t).mp h)))]
      rw [stateAt_mid V c t h0 h1]
      unfold atMid leftMid; dsimp only
      rw [Phi_castSucc V c t, PhiS_pos V c _ _ hz]
      iintro ⟨⟨⟨HA, HM, HD, HO⟩, Hg⟩, Ho, ⟨%d0, H0⟩, ⟨%d1, H1⟩, ⟨%d2, H2⟩⟩
      iapply ((runMid c (grid1.coords t) _ _ _ _ _ _ _ _ _ _ _ _ (fun h => h0 ((isFirst_iff t).mp h)) (fun h => h1 ((isLast_iff t).mp h)) (iblk V c 0 t) (iblk V c 1 t) _ _ _).2.2.2 _ Set.univ _)
      isplitl [H0]; · iexact H0
      isplitl [H1]; · iexact H1
      isplitl [H2]; · iexact H2
      isplitl [HA]; · iexact HA
      isplitl [HM]; · iexact HM
      isplitl [HD]; · iexact HD
      iintro ⟨H0, H1, H2, ⟨%ea, HA⟩, ⟨%em, HM⟩, ⟨%ed, HD⟩⟩
      isplitl [HA HM HD HO Hg]
      · isplitr [Hg]
        · isplitl [HA]
          · unfold owns; iexists _; isplitr
            swap; · iexact HA
            ipureintro; exact View.read_writes_of_cover _ _ _ _ _ (cover_mid_acc c _ _ _ _ _ _ _ _ _ _ _ _ _ _ _ _ _ _ _ _)
          isplitl [HM]
          · unfold owns; iexists _; isplitr
            swap; · iexact HM
            ipureintro; exact View.read_writes_of_cover _ _ _ _ _ (cover_mid_max c _ _ _ _ _ _ _ _ _ _ _ _ _ _ _ _ _ _ _ _)
          isplitl [HD]
          · unfold owns; iexists _; isplitr
            swap; · iexact HD
            ipureintro; exact View.read_writes_of_cover _ _ _ _ _ (cover_mid_den c _ _ _ _ _ _ _ _ _ _ _ _ _ _ _ _ _ _ _ _)
          iexact HO
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch buffers' named contents are forgotten. -/
theorem hout (c : Dev nD) : (dat V c).Φ (Fin.last cfg1.N) ⊢ Pipeline.ΦA spec1 c := by
  have hne : (Fin.last cfg1.N).val ≠ 0 := by rw [Fin.val_last]; have : cfg1.N = 50 := N_1; omega
  rw [show (dat V c).Φ (Fin.last cfg1.N) = PhiS V c (Fin.last cfg1.N).val (Nat.le_of_lt_succ (Fin.last cfg1.N).isLt) from rfl, PhiS_pos V c _ _ hne]
  iintro ⟨⟨HA, HM, HD, HO⟩, Hg⟩
  iapply (PhiA_close (F := F) c)
  isplitl [HA HM HD HO]
  · isplitl [HA]; · iexists _; iexact HA
    isplitl [HM]; · iexists _; iexact HM
    isplitl [HD]; · iexists _; iexact HD
    iexact HO
  iexact Hg

end Region

end Cert.KernelIdeal.R1

end
-- ==== Proof.KernelIdeal.Whole.lean ====
/-
  The whole program: @main is two reshapes, the two pallas_calls one after the other, two reshapes. Its run is the
  composition of four segments over a thread state "every unscoped buffer of the core at named contents, the generator
  register at some state, nothing owed": the contents are a fold from the launch memory — a host stretch applies its
  operations, a region replaces its output array by what its write-backs leave. Every weakly fair execution ends with
  every unscoped buffer at the fold's last value, from which the frame claim and the results' values are read.
-/
import proofs.«418895_j12197707120761_3_alg».proof.Proof.KernelIdeal.Body0
import proofs.«418895_j12197707120761_3_alg».proof.Proof.KernelIdeal.Body1
import proofs.«418895_j12197707120761_3_alg».proof.Proof.Gen.KernelIdeal.Regions
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the two reshapes of the activations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit (it is entered straight from region 0's exit). -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the two reshapes of the results (the end). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered with every unscoped buffer at `W1`, left with them at `W2`. Its
    arrays are split out of the unscoped buffers and put back at what the write-backs leave; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (R0.dat (V1 m ρ) c).Φ 0 from rfl]
    have h := R0.hin (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (R0.dat (V1 m ρ) c).Φ (Fin.last cfg0.N) from rfl]
    have h := R0.hout (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W2`, left with them at `W3`. Its
    arrays are split out of the unscoped buffers and put back at what the write-backs leave; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (R1.dat (V2 m ρ) c).Φ 0 from rfl]
    have h := R1.hin (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (R1.dat (V2 m ρ) c).Φ (Fin.last cfg1.N) from rfl]
    have h := R1.hout (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state every unscoped buffer of every core holds the fold's last value `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## Reading the fold back -/

/-- No host stretch writes an argument and no region may change one (a region reads it through an input window or
    bypasses it): the fold at an argument's buffer walks back to the launch memory. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := (W2_arr m ρ c 1).trans (((R0.dat (V1 m ρ) c).arrAt_in 1 rfl _).trans (R0.A_eq (V1 m ρ) c 1))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 1).trans (((R1.dat (V2 m ρ) c).arrAt_in 1 rfl _).trans (R1.A_eq (V2 m ρ) c 1))
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- What region 0 is entered with: the first activations reshaped to 4096 rows, and the first table. -/
theorem V1_main_v0 (c : Dev nD) :
    V1 m ρ c main_v0 = fun i => shapeCast S4096x256 (m ((c : Thread nD τ).loc main_arg0)) shapeCasts_S4x1024x256_S4096x256 i := by
  show StableHlo.after hostOps0 (W0 m ρ c) (Proc.devRef .tc main_v0) = _
  after_results; rfl
theorem V1_main_arg3 (c : Dev nD) : V1 m ρ c main_arg3 = m ((c : Thread nD τ).loc main_arg3) :=
  StableHlo.after_of_writes_sub hostOps0 _ hostOps0_writes (by decide)
/-- What region 1 is entered with: the second activations reshaped, and the second table. -/
theorem V2_main_v1 (c : Dev nD) :
    V2 m ρ c main_v1 = fun i => shapeCast S4096x256 (m ((c : Thread nD τ).loc main_arg1)) shapeCasts_S4x1024x256_S4096x256 i := by
  refine (W2_of_ne m ρ c main_v1 (by decide)).trans ?_
  show StableHlo.after hostOps0 (W0 m ρ c) (Proc.devRef .tc main_v1) = _
  after_results; rfl
theorem V2_main_arg4 (c : Dev nD) : V2 m ρ c main_arg4 = m ((c : Thread nD τ).loc main_arg4) :=
  (W2_of_ne m ρ c main_arg4 (by decide)).trans (StableHlo.after_of_writes_sub hostOps0 _ hostOps0_writes (by decide))
/-- The two results: each region's output array after its write-backs, reshaped back to [4, 1024, 256]. -/
theorem W4_main_v4 (c : Dev nD) :
    W4 m ρ c (Proc.devRef .tc main_v4) = fun i => shapeCast S4x1024x256 ((R0.dat (V1 m ρ) c).arrAt 2 cfg0.N) shapeCasts_S4096x256_S4x1024x256 i := by
  have e : W3 m ρ c (Proc.devRef .tc main_v2) = (R0.dat (V1 m ρ) c).arrAt 2 cfg0.N :=
    (W3_of_ne m ρ c main_v2 (by decide)).trans (W2_arr m ρ c 2)
  show StableHlo.after hostOps2 (W3 m ρ c) (Proc.devRef .tc main_v4) = _
  after_results; rw [e]; rfl
theorem W4_main_v5 (c : Dev nD) :
    W4 m ρ c (Proc.devRef .tc main_v5) = fun i => shapeCast S4x1024x256 ((R1.dat (V2 m ρ) c).arrAt 2 cfg1.N) shapeCasts_S4096x256_S4x1024x256 i := by
  have e : W3 m ρ c (Proc.devRef .tc main_v3) = (R1.dat (V2 m ρ) c).arrAt 2 cfg1.N := W3_arr m ρ c 2
  show StableHlo.after hostOps2 (W3 m ρ c) (Proc.devRef .tc main_v5) = _
  after_results; rw [e]; rfl

end Cert.KernelIdeal.Whole

end
-- ==== Proof.Spec.lean ====
/-
  The specification, and the mathematics that joins the two programs. No program is imported here.

  Both programs compute, for every query row x (256 numbers) and every output column d,

      out(x, d) = ( Σ_v e^{s_v} · W[v, d] ) / ( Σ_v e^{s_v} ),      s_v = Σ_d' x[d'] · W[v, d'],   v < 32000:

  the softmax over the 32000 table rows of the scores s, contracted with the table itself. The reference shifts the
  scores by their maximum before exponentiating; the kernel walks the table in 25 tiles of 1280 rows, keeping a
  running shift, a running denominator and a running numerator, and rescales the last two whenever the shift moves.
  Over the reals neither shift changes the quotient (`attnRow_shift`), and the tiled recurrence telescopes to the
  whole sums at its last shift (`den_eq`, `num_eq`), whatever the sequence of shifts is.
-/
import Idealize.ShloMosaic.PureOps.Ideal
import Idealize.ShloMosaic.Lib.ValueIdx

noncomputable section

open scoped BigOperators

namespace Cert.Spec

open Idealize.ShloMosaic Idealize.ShloMosaic.ValueIdx

/-! ## The softmax-weighted average -/

/-- `(Σ_v e^{s v} · u v) / (Σ_v e^{s v})`. -/
def attnRow {n : ℕ} (s u : Fin n → ℝ) : ℝ := (∑ v, Real.exp (s v) * u v) / (∑ v, Real.exp (s v))

/-- A common shift of the scores cancels between numerator and denominator. -/
theorem attnRow_shift {n : ℕ} (s u : Fin n → ℝ) (c : ℝ) :
    (∑ v, Real.exp (s v - c) * u v) / (∑ v, Real.exp (s v - c)) = attnRow s u := by
  unfold attnRow
  -- e^{s v - c} = e^{-c} · e^{s v}; the factor e^{-c} leaves both sums and cancels, being nonzero
  have h : ∀ v, Real.exp (s v - c) = Real.exp (-c) * Real.exp (s v) := by
    intro v
    rw [← Real.exp_add]
    congr 1
    ring
  simp only [h, mul_assoc, ← Finset.mul_sum]
  exact mul_div_mul_left _ _ (Real.exp_pos _).ne'

/-- The reference's form: normalise each shifted exponential by the sum, then contract. -/
theorem softmax_dot {n : ℕ} (s u : Fin n → ℝ) (c : ℝ) :
    ∑ v, Real.exp (s v - c) / (∑ v', Real.exp (s v' - c)) * u v = attnRow s u := by
  -- Σ_v (a_v / L) · u_v = (Σ_v a_v · u_v) / L
  rw [← attnRow_shift s u c, Finset.sum_div]
  refine Finset.sum_congr rfl fun v _ => ?_
  ring

/-! ## The tiled recurrence -/

section Online

variable {T : ℕ} (s u : ℕ → Fin T → ℝ) (μ : ℕ → ℝ)

/-- The running denominator after tile `k`, with `μ k` the shift in force after tile `k`. -/
def den : ℕ → ℝ
  | 0 => ∑ j, Real.exp (s 0 j - μ 0)
  | k + 1 => Real.exp (μ k - μ (k + 1)) * den k + ∑ j, Real.exp (s (k + 1) j - μ (k + 1))

/-- The running numerator after tile `k`. -/
def num : ℕ → ℝ
  | 0 => ∑ j, Real.exp (s 0 j - μ 0) * u 0 j
  | k + 1 => Real.exp (μ k - μ (k + 1)) * num k + ∑ j, Real.exp (s (k + 1) j - μ (k + 1)) * u (k + 1) j

theorem den_eq (k : ℕ) : den s μ k = ∑ k' ∈ Finset.range (k + 1), ∑ j, Real.exp (s k' j - μ k) := by
  induction k with
  | zero => simp [den]
  | succ k ih =>
    -- rescaling by e^{μ k - μ (k+1)} moves every earlier term from the shift μ k to the shift μ (k+1)
    rw [den, ih, Finset.sum_range_succ _ (k + 1), Finset.mul_sum]
    congr 1
    refine Finset.sum_congr rfl fun k' _ => ?_
    rw [Finset.mul_sum]
    refine Finset.sum_congr rfl fun j _ => ?_
    rw [← Real.exp_add]
    congr 1
    ring

theorem num_eq (k : ℕ) : num s u μ k = ∑ k' ∈ Finset.range (k + 1), ∑ j, Real.exp (s k' j - μ k) * u k' j := by
  induction k with
  | zero => simp [num]
  | succ k ih =>
    rw [num, ih, Finset.sum_range_succ _ (k + 1), Finset.mul_sum]
    congr 1
    refine Finset.sum_congr rfl fun k' _ => ?_
    rw [Finset.mul_sum]
    refine Finset.sum_congr rfl fun j _ => ?_
    rw [← mul_assoc, ← Real.exp_add]
    congr 2
    ring

/-- A sum over `N + 1` tiles of width `T` is the sum over the `(N + 1) · T` rows: row `k · T + j` is entry `j` of
    tile `k`. -/
theorem sum_tiles {N : ℕ} (g : Fin ((N + 1) * T) → ℝ) (f : ℕ → Fin T → ℝ)
    (hf : ∀ (k : ℕ) (j : Fin T) (h : k * T + j.val < (N + 1) * T), k ≤ N → f k j = g ⟨k * T + j.val, h⟩) :
    ∑ k ∈ Finset.range (N + 1), ∑ j, f k j = ∑ v, g v := by
  rw [← finProdFinEquiv.sum_comp g, Fintype.sum_prod_type,
    ← Fin.sum_univ_eq_sum_range (fun k => ∑ j, f k j) (N + 1)]
  refine Finset.sum_congr rfl fun i _ => Finset.sum_congr rfl fun j _ => ?_
  have hlt : i.val * T + j.val < (N + 1) * T := by
    calc i.val * T + j.val < i.val * T + T := Nat.add_lt_add_left j.isLt _
      _ = (i.val + 1) * T := by ring
      _ ≤ (N + 1) * T := Nat.mul_le_mul_right _ i.isLt
  rw [hf i.val j hlt (Nat.lt_succ_iff.mp i.isLt)]
  congr 1
  apply Fin.ext
  simp only [finProdFinEquiv_apply_val]
  ring

/-- The recurrence over `N + 1` tiles of width `T` that together are the `n = (N + 1) · T` table rows ends at the
    softmax-weighted average over all rows. -/
theorem online_attn {N n : ℕ} (hn : n = (N + 1) * T) (S U : Fin n → ℝ)
    (hs : ∀ (k : ℕ) (j : Fin T) (h : k * T + j.val < n), k ≤ N → s k j = S ⟨k * T + j.val, h⟩)
    (hu : ∀ (k : ℕ) (j : Fin T) (h : k * T + j.val < n), k ≤ N → u k j = U ⟨k * T + j.val, h⟩) :
    num s u μ N / den s μ N = attnRow S U := by
  subst hn
  -- both recurrences are whole sums at the last shift μ N; written over the rows, that shift cancels
  rw [num_eq, den_eq,
    sum_tiles (fun v => Real.exp (S v - μ N) * U v) (fun k j => Real.exp (s k j - μ N) * u k j)
      (fun k j h hk => by simp only [hs k j h hk, hu k j h hk]),
    sum_tiles (fun v => Real.exp (S v - μ N)) (fun k j => Real.exp (s k j - μ N))
      (fun k j h hk => by simp only [hs k j h hk])]
  exact attnRow_shift S U (μ N)

end Online

/-! ## The claimed result, on the extended reals -/

/-- Row `(b, q)` of the activations against the table: the score of table row `v`. -/
def score (X : (⟨3, ![4, 1024, 256]⟩ : Shape).Idx → EReal) (W : (⟨2, ![32000, 256]⟩ : Shape).Idx → EReal)
    (b : Fin 4) (q : Fin 1024) (v : Fin 32000) : ℝ :=
  ∑ d : Fin 256, (X (ix3 b q d)).toReal * (W (ix2 v d)).toReal

/-- What both programs leave in a result array, from the activations `X` and the table `W` (finite entries read as
    reals): the softmax-weighted average of the table's column `d` under row `(b, q)`'s scores. -/
def G (X : (⟨3, ![4, 1024, 256]⟩ : Shape).Idx → EReal) (W : (⟨2, ![32000, 256]⟩ : Shape).Idx → EReal) :
    (⟨3, ![4, 1024, 256]⟩ : Shape).Idx → EReal := fun i =>
  ((attnRow (score X W (i 0) (i 1)) (fun v => (W (ix2 v (i 2))).toReal) : ℝ) : EReal)

/-- Every entry a real number. -/
def Finite {S : Shape} (x : S.Idx → EReal) : Prop := ∀ i, x i ≠ ⊤ ∧ x i ≠ ⊥

theorem Finite.coe_toReal {S : Shape} {x : S.Idx → EReal} (h : Finite x) (i : S.Idx) : ((x i).toReal : EReal) = x i :=
  EReal.coe_toReal (h i).1 (h i).2

end Cert.Spec

end
-- ==== Proof.KernelIdeal.Blocks0.lean ====
/-
  Region 0 on the extended reals, first half: where the blocks sit. The query window's block at point t is rows
  [2048·(t / 25), 2048·(t / 25) + 2048) of the 4096 × 256 activations; the table window's block is rows
  [1280·(t % 25), 1280·(t % 25) + 1280) of the table; the output window's block sits where the query block does and is
  written back at the points t % 25 = 24, and those two blocks cover the result array.
-/
import proofs.«418895_j12197707120761_3_alg».proof.Proof.KernelIdeal.State0
import proofs.«418895_j12197707120761_3_alg».proof.Proof.Spec
import Idealize.ShloMosaic.Lib.Pipeline.Value

set_option maxRecDepth 16384

noncomputable section

namespace Cert.KernelIdeal.R0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The activations (reshaped to 4096 rows) and the table as the region finds them. -/
abbrev xarr (c : Dev nD) : Vec Ideal S4096x256 .f32 := V c main_v0
abbrev warr (c : Dev nD) : Vec Ideal S32000x256 .f32 := V c main_arg3
/-- The query tile and the table tile at point `t`. -/
abbrev xblk (c : Dev nD) (t : Fin cfg0.N) : Vec Ideal S2048x256 .f32 := iblk V c 0 t
abbrev wblk (c : Dev nD) (t : Fin cfg0.N) : Vec Ideal S1280x256 .f32 := iblk V c 1 t

/-- The printed index maps over the 50 points: query and output blocks follow t / 25, the table block t % 25. -/
theorem idx_facts : ∀ t : Fin cfg0.N, win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0 :=
  (by decide +kernel : ∀ t : Fin grid0.N, _)

theorem lt50 (t : Fin cfg0.N) : t.val < 50 := lt_of_lt_of_eq t.isLt (show cfg0.N = 50 from N_0)

/-- Row `r` of point `t`'s query tile, as a row of the activations. -/
def rowOf (t : Fin cfg0.N) (r : Fin 2048) : Fin 4096 := ⟨(t.val / 25) * 2048 + r.val, by have := lt50 t; have := r.isLt; omega⟩
/-- Row `j` of point `t`'s table tile, as a row of the table. -/
def tabOf (t : Fin cfg0.N) (j : Fin 1280) : Fin 32000 := ⟨(t.val % 25) * 1280 + j.val, by have := j.isLt; omega⟩

theorem xblk_apply (c : Dev nD) (t : Fin cfg0.N) (r : Fin 2048) (d : Fin 256) :
    xblk V c t (ix2 r d) = xarr V c (ix2 (rowOf t r) d) := by
  show V c main_v0 (((cfg0.win 0).blk t).view.emb (ix2 r d)) = V c main_v0 (ix2 (rowOf t r) d)
  refine congrArg _ ?_
  obtain ⟨e0, e1, -⟩ := idx_facts t
  funext a; apply Fin.ext
  match a with
  | ⟨0, _⟩ => show win0_0.index t (0 : Fin 2) * 2048 + 1 * r.val = (t.val / 25) * 2048 + r.val; omega
  | ⟨1, _⟩ => show win0_0.index t (1 : Fin 2) * 256 + 1 * d.val = d.val; omega

theorem wblk_apply (c : Dev nD) (t : Fin cfg0.N) (j : Fin 1280) (d : Fin 256) :
    wblk V c t (ix2 j d) = warr V c (ix2 (tabOf t j) d) := by
  show V c main_arg3 (((cfg0.win 1).blk t).view.emb (ix2 j d)) = V c main_arg3 (ix2 (tabOf t j) d)
  refine congrArg _ ?_
  obtain ⟨-, -, e2, e3, -⟩ := idx_facts t
  funext a; apply Fin.ext
  match a with
  | ⟨0, _⟩ => show win0_1.index t (0 : Fin 2) * 1280 + 1 * j.val = (t.val % 25) * 1280 + j.val; omega
  | ⟨1, _⟩ => show win0_1.index t (1 : Fin 2) * 256 + 1 * d.val = d.val; omega

/-- The output window's block at point `t`, read off a 4096 × 256 array `G`. -/
theorem oblk_apply (G : Vec Ideal S4096x256 .f32) (t : Fin cfg0.N) (r : Fin 2048) (d : Fin 256) :
    ((cfg0.win 2).blk t).view.read (Elt Ideal) G (ix2 r d) = G (ix2 (rowOf t r) d) := by
  show G (((cfg0.win 2).blk t).view.emb (ix2 r d)) = G (ix2 (rowOf t r) d)
  refine congrArg _ ?_
  obtain ⟨-, -, -, -, e4, e5⟩ := idx_facts t
  funext a; apply Fin.ext
  match a with
  | ⟨0, _⟩ => show win0_2.index t (0 : Fin 2) * 2048 + 1 * r.val = (t.val / 25) * 2048 + r.val; omega
  | ⟨1, _⟩ => show win0_2.index t (1 : Fin 2) * 256 + 1 * d.val = d.val; omega

/-- An index of the result array is in point `t`'s output block iff each coordinate is in the block's range. -/
theorem mem_oblk (t : Fin cfg0.N) (i : S4096x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v2).slice (win0_2.rect t)).set ↔ _
  rw [View.set_slice_whole, Rect.mem_set_unit]
  exact Iff.rfl

/-- The two written-back blocks cover the result array: row R is in the block of the point 25·(R / 2048) + 24. -/
theorem covered (i : S4096x256.Idx) :
    ∃ t : Fin cfg0.N, (cfg0.win 2).flush t = true ∧ i ∈ ((cfg0.win 2).blk t).view.set := by
  have hi0 : (i 0).val < 4096 := idx2_lt0 i
  have hi1 : (i 1).val < 256 := idx2_lt1 i
  have hN : cfg0.N = 50 := N_0
  let t : Fin cfg0.N := ⟨25 * ((i 0).val / 2048) + 24, by omega⟩
  have htv : t.val = 25 * ((i 0).val / 2048) + 24 := rfl
  refine ⟨t, (flush0_2 t).mpr (by omega), ?_⟩
  rw [mem_oblk]
  obtain ⟨-, -, -, -, e4, e5⟩ := idx_facts t
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

end Cert.KernelIdeal.R0

end
-- ==== Proof.KernelIdeal.Pieces0.lean ====
/-
  Region 0: what each control case leaves in each buffer, as a value. The stored pieces found by running the body are
  read back: every store of the body writes a whole buffer, so the last store into a buffer is what the buffer holds,
  and a load reads either what the point before left or what an earlier store of the same point wrote.
-/
import proofs.«418895_j12197707120761_3_alg».proof.Proof.KernelIdeal.Left0
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every load and store of the body are zero: each goes through its whole buffer. -/
theorem hz : (![0, 0] : Fin 2 → Nat) = fun _ => 0 := funext fun a => by fin_cases a <;> rfl

section Cases

variable (c : Dev nD) (i : grid0.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole)

/-! ## The FIRST case -/

theorem leftFirst_acc (hc0 : isFirst i) (hc1 : ¬isLast i) (x : Vec F S2048x256 .f32) (w : Vec F S1280x256 .f32) :
    (leftFirst c i arg2 harg2 arg3 harg3 arg4 harg4 arg5 harg5 arg6 harg6 arg7 harg7 hc0 hc1 x w).2.1 = k0_pay1 (k0_pay13 x w (k0_pay4 (F := F)) (k0_pay4 (F := F)) (k0_pay6 (F := F))) := by
  unfold leftFirst; dsimp only
  rw [View.read_writes_eq_canon _ _ _ (cover_first_acc c i arg2 harg2 arg3 harg3 arg4 harg4 arg5 harg5 arg6 harg6 arg7 harg7 hc0 hc1 x w)]
  unfold runFirst; dsimp only
  sl_unfold_words
  rw [View.canon_cons_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftFirst_max (hc0 : isFirst i) (hc1 : ¬isLast i) (x : Vec F S2048x256 .f32) (w : Vec F S1280x256 .f32) :
    (leftFirst c i arg2 harg2 arg3 harg3 arg4 harg4 arg5 harg5 arg6 harg6 arg7 harg7 hc0 hc1 x w).2.2.1 = k0_pay2 (k0_pay9 x w (k0_pay4 (F := F))) := by
  unfold leftFirst; dsimp only
  rw [View.read_writes_eq_canon _ _ _ (cover_first_max c i arg2 harg2 arg3 harg3 arg4 harg4 arg5 harg5 arg6 harg6 arg7 harg7 hc0 hc1 x w)]
  unfold runFirst; dsimp only
  sl_unfold_words
  rw [View.canon_cons_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftFirst_den (hc0 : isFirst i) (hc1 : ¬isLast i) (x : Vec F S2048x256 .f32) (w : Vec F S1280x256 .f32) :
    (leftFirst c i arg2 harg2 arg3 harg3 arg4 harg4 arg5 harg5 arg6 harg6 arg7 harg7 hc0 hc1 x w).2.2.2 = k0_pay12 x w (k0_pay4 (F := F)) (k0_pay4 (F := F)) (k0_pay5 (F := F)) := by
  unfold leftFirst; dsimp only
  rw [View.read_writes_eq_canon _ _ _ (cover_first_den c i arg2 harg2 arg3 harg3 arg4 harg4 arg5 harg5 arg6 harg6 arg7 harg7 hc0 hc1 x w)]
  unfold runFirst; dsimp only
  sl_unfold_words
  rw [View.canon_cons_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

/-! ## The MIDDLE case -/

theorem leftMid_acc (hc0 : ¬isFirst i) (hc1 : ¬isLast i) (x : Vec F S2048x256 .f32) (w : Vec F S1280x256 .f32) (p : St F) :
    (leftMid c i arg2 harg2 arg3 harg3 arg4 harg4 arg5 harg5 arg6 harg6 arg7 harg7 hc0 hc1 x w p).2.1 = k0_pay1 (k0_pay13 x w p.2.2.1 p.2.2.1 p.2.1) := by
  unfold leftMid; dsimp only
  rw [View.read_writes_eq_canon _ _ _ (cover_mid_acc c i arg2 harg2 arg3 harg3 arg4 harg4 arg5 harg5 arg6 harg6 arg7 harg7 hc0 hc1 x w _ _ _)]
  unfold runMid; dsimp only
  sl_unfold_words
  rw [View.canon_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz]

theorem leftMid_max (hc0 : ¬isFirst i) (hc1 : ¬isLast i) (x : Vec F S2048x256 .f32) (w : Vec F S1280x256 .f32) (p : St F) :
    (leftMid c i arg2 harg2 arg3 harg3 arg4 harg4 arg5 harg5 arg6 harg6 arg7 harg7 hc0 hc1 x w p).2.2.1 = k0_pay2 (k0_pay9 x w p.2.2.1) := by
  unfold leftMid; dsimp only
  rw [View.read_writes_eq_canon _ _ _ (cover_mid_max c i arg2 harg2 arg3 harg3 arg4 harg4 arg5 harg5 arg6 harg6 arg7 harg7 hc0 hc1 x w _ _ _)]
  unfold runMid; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz]

theorem leftMid_den (hc0 : ¬isFirst i) (hc1 : ¬isLast i) (x : Vec F S2048x256 .f32) (w : Vec F S1280x256 .f32) (p : St F) :
    (leftMid c i arg2 harg2 arg3 harg3 arg4 harg4 arg5 harg5 arg6 harg6 arg7 harg7 hc0 hc1 x w p).2.2.2 = k0_pay12 x w p.2.2.1 p.2.2.1 p.2.2.2 := by
  unfold leftMid; dsimp only
  rw [View.read_writes_eq_canon _ _ _ (cover_mid_den c i arg2 harg2 arg3 harg3 arg4 harg4 arg5 harg5 arg6 harg6 arg7 harg7 hc0 hc1 x w _ _ _)]
  unfold runMid; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz]

/-! ## The LAST case -/

theorem leftLast_acc (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).2.1 = k0_pay1 (k0_pay13 x w p.2.2.1 p.2.2.1 p.2.1) := by
  unfold leftLast; dsimp only
  rw [View.read_writes_eq_canon _ _ _ (cover_last_acc c i arg2 harg2 arg3 harg3 arg4 harg4 arg5 harg5 arg6 harg6 arg7 harg7 hc0 hc1 x w _ _ _)]
  unfold runLast; dsimp only
  sl_unfold_words
  rw [View.canon_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftLast_max (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).2.2.1 = k0_pay2 (k0_pay9 x w p.2.2.1) := by
  unfold leftLast; dsimp only
  rw [View.read_writes_eq_canon _ _ _ (cover_last_max c i arg2 harg2 arg3 harg3 arg4 harg4 arg5 harg5 arg6 harg6 arg7 harg7 hc0 hc1 x w _ _ _)]
  unfold runLast; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftLast_den (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).2.2.2 = k0_pay12 x w p.2.2.1 p.2.2.1 p.2.2.2 := by
  unfold leftLast; dsimp only
  rw [View.read_writes_eq_canon _ _ _ (cover_last_den c i arg2 harg2 arg3 harg3 arg4 harg4 arg5 harg5 arg6 harg6 arg7 harg7 hc0 hc1 x w _ _ _)]
  unfold runLast; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftLast_out (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).1 = k0_pay3 (k0_pay1 (k0_pay13 x w p.2.2.1 p.2.2.1 p.2.1)) (k0_pay12 x w p.2.2.1 p.2.2.1 p.2.2.2) := by
  unfold leftLast; dsimp only
  rw [View.read_writes_eq_canon _ _ _ (cover_last_out c i arg2 harg2 arg3 harg3 arg4 harg4 arg5 harg5 arg6 harg6 arg7 harg7 hc0 hc1 x w _ _ _)]
  unfold runLast; dsimp only
  sl_unfold_words
  rw [View.canon_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

end Cases

end Cert.KernelIdeal.R0

end
-- ==== Proof.KernelIdeal.Step.lean ====
import proofs.«418895_j12197707120761_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Mathlib.Data.Finset.Fold
import Mathlib.Data.EReal.Operations

/-!
# One step of the online softmax-weighted sum, read element by element

One grid point of the kernel handles a tile of 1280 table rows `w` for 2048 query rows `x`. From the
running maximum `m`, the running denominator `l` and the running numerator `a` it computes

* the scores `s r j = ∑ d, x r d * w j d`,
* the new maximum `m' r = max (m r) (max_j s r j)`,
* the rescaling factor `exp (m r - m' r)` and the weights `p r j = exp (s r j - m' r)`,
* the new denominator `exp (m r - m' r) * l r + ∑ j, p r j`,
* the new numerator `exp (m r - m' r) * a r d + ∑ j, p r j * w j d`,

and at the last tile the quotient `a r d / l r`. This file names these vector functions (for every
float instance) and reads each of them at an index over the extended reals, when the data are finite.
-/

noncomputable section

namespace Cert.KernelIdeal.Step

open Cert.KernelIdeal Cert.KernelIdeal.Gen Idealize.ShloMosaic Idealize.ShloMosaic.ValueIdx

/-! ## The step's functions, for every float instance -/

section Generic
variable {F : FTy → Type} [FloatOps F]

/-- The new running maximum. -/
def maxNew (x : Vec F S2048x256 .f32) (w : Vec F S1280x256 .f32) (m : Vec F S2048x1 .f32) : Vec F S2048x1 .f32 :=
  k0_pay2 (k0_pay9 x w m)

/-- The new running denominator. -/
def denNew (x : Vec F S2048x256 .f32) (w : Vec F S1280x256 .f32) (m l : Vec F S2048x1 .f32) : Vec F S2048x1 .f32 :=
  k0_pay12 x w m m l

/-- The new running numerator. -/
def accNew (x : Vec F S2048x256 .f32) (w : Vec F S1280x256 .f32) (m : Vec F S2048x1 .f32) (a : Vec F S2048x256 .f32) :
    Vec F S2048x256 .f32 :=
  k0_pay1 (k0_pay13 x w m m a)

/-- The quotient of numerator and denominator, written at the last tile. -/
def quot (a : Vec F S2048x256 .f32) (l : Vec F S2048x1 .f32) : Vec F S2048x256 .f32 := k0_pay3 a l

/-- The initial running maximum: a large negative finite number in every row. -/
def max0 : Vec F S2048x1 .f32 := k0_pay4

/-- The initial running denominator: zero. -/
def den0 : Vec F S2048x1 .f32 := k0_pay5

/-- The initial running numerator: zero. -/
def acc0 : Vec F S2048x256 .f32 := k0_pay6

end Generic

/-! ## Extended reals: finite sums and maxima of finite numbers are finite -/

section EReal

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum of a real number with the running maximum, started at `-∞`, of finitely many real numbers is a
    real number. -/
theorem max_fold_real {ι : Type} (s : Finset ι) (f : ι → EReal) (g : ι → ℝ) (hf : ∀ i, f i = (g i : EReal)) (a : ℝ) :
    ∃ c : ℝ, max (a : EReal) (s.fold max ⊥ f) = (c : EReal) := by
  have hbot : max (a : EReal) (s.fold max ⊥ f) ≠ ⊥ :=
    ne_bot_of_le_ne_bot (EReal.coe_ne_bot a) (le_max_left _ _)
  have htop : max (a : EReal) (s.fold max ⊥ f) ≠ ⊤ :=
    (max_lt (EReal.coe_lt_top a) ((Finset.fold_max_lt _).mpr ⟨bot_lt_top, fun i _ => by rw [hf i]; exact EReal.coe_lt_top _⟩)).ne
  exact ⟨_, (EReal.coe_toReal htop hbot).symm⟩

end EReal

/-! ## Layout operations on a column `[a, 1]` -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions of a `[2048, 1280]` vector, read at a row -/

section Reductions

/-- The lane sum at row `r` is the sum over the 1280 columns. -/
theorem rowsum_apply (src : FVec Ideal S2048x1280 .f32) (h : S2048x1280.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ j : Fin 1280, src (ix2 r j) := by
  refine (Ideal.multiReduction_add_single src 0x00000000#32 h hφ hacc (ix1 r)).trans ?_
  refine Finset.sum_congr rfl fun j _ => congrArg src ?_
  funext a
  match a with
  | ⟨0, _⟩ => rfl
  | ⟨1, _⟩ => rfl

/-- The lane maximum at row `r` is the running maximum over the 1280 columns, started at `-∞`. -/
theorem rowmax_apply (src : FVec Ideal S2048x1280 .f32) (h : S2048x1280.Reduces [1] S2048) (hφ : FKind.Formats .f32)
    (hacc : (0xFF800000#32 : BitVec 32) = 0xFF800000#32) (r : Fin 2048) :
    multiReduction (F := Ideal) .maximumf [1] S2048 src 0xFF800000#32 h hφ hacc (ix1 r)
      = (Finset.univ : Finset (Fin 1280)).fold max (⊥ : EReal) (fun j => src (ix2 r j)) := by
  refine (Ideal.multiReduction_maximumf_single src 0xFF800000#32 h hφ hacc (ix1 r)).trans ?_
  have hb : (FloatOps.ofBits (F := Ideal) .f32 0xFF800000#32 : EReal) = ⊥ := by
    show Ideal.ofBits .f32 0xFF800000#32 = ⊥
    simp [Ideal.ofBits, Ideal.ieee]
  rw [hb]
  refine congrArg (fun f => Finset.fold max (⊥ : EReal) f (Finset.univ : Finset (Fin 1280))) ?_
  funext j
  refine congrArg src ?_
  funext a
  match a with
  | ⟨0, _⟩ => rfl
  | ⟨1, _⟩ => rfl

end Reductions

/-! ## The two matrix products, read at an index

The first product contracts the second axis of both operands (`x · wᵀ`), the second the second axis of
the left operand with the first of the right (`p · w`). For each, the operand indices at an output index and a
contraction position are read axis by axis; the contraction shape has one axis, so its sum is a sum over that
axis's coordinates. -/

section Products

theorem lhs_scores_0 (i : S2048x1280.Idx) (q : dot_S2048x256_S1280x256_S2048x1280_1_1_0_0_n_n.contr.Idx) :
    (dot_S2048x256_S1280x256_S2048x1280_1_1_0_0_n_n.lhsIdx i q 0).val = (i 0).val := by
  unfold DotDims.lhsIdx
  rw [dif_neg (show ¬(0 : Fin S2048x256.rank) ∈ dot_S2048x256_S1280x256_S2048x1280_1_1_0_0_n_n.lhsBatch by decide), dif_pos (show (0 : Fin S2048x256.rank) ∈ dot_S2048x256_S1280x256_S2048x1280_1_1_0_0_n_n.lhsNonContracting by decide)]
  rfl
theorem lhs_scores_1 (i : S2048x1280.Idx) (q : dot_S2048x256_S1280x256_S2048x1280_1_1_0_0_n_n.contr.Idx) :
    (dot_S2048x256_S1280x256_S2048x1280_1_1_0_0_n_n.lhsIdx i q 1).val = (q ⟨0, by decide⟩).val :=
  dot_S2048x256_S1280x256_S2048x1280_1_1_0_0_n_n.lhsIdx_val_of_single rfl i q
theorem rhs_scores_0 (i : S2048x1280.Idx) (q : dot_S2048x256_S1280x256_S2048x1280_1_1_0_0_n_n.contr.Idx) :
    (dot_S2048x256_S1280x256_S2048x1280_1_1_0_0_n_n.rhsIdx i q 0).val = (i 1).val := by
  unfold DotDims.rhsIdx
  rw [dif_neg (show ¬(0 : Fin S1280x256.rank) ∈ dot_S2048x256_S1280x256_S2048x1280_1_1_0_0_n_n.rhsBatch by decide), dif_pos (show (0 : Fin S1280x256.rank) ∈ dot_S2048x256_S1280x256_S2048x1280_1_1_0_0_n_n.rhsNonContracting by decide)]
  rfl
theorem rhs_scores_1 (i : S2048x1280.Idx) (q : dot_S2048x256_S1280x256_S2048x1280_1_1_0_0_n_n.contr.Idx) :
    (dot_S2048x256_S1280x256_S2048x1280_1_1_0_0_n_n.rhsIdx i q 1).val = (q ⟨0, by decide⟩).val :=
  dot_S2048x256_S1280x256_S2048x1280_1_1_0_0_n_n.rhsIdx_val_of_single rfl i q

/-- The first product into a zero accumulator, at `(r, j)`: the sum over the 256 shared coordinates. -/
theorem scores_apply (l : FVec Ideal S2048x256 .bf16) (t : FVec Ideal S1280x256 .bf16) (r : Fin 2048) (j : Fin 1280) :
    matmul dot_S2048x256_S1280x256_S2048x1280_1_1_0_0_n_n none l t (constant (F := Ideal) S2048x1280 .f32 0x00000000#32) (ix2 r j)
      = ∑ d : Fin 256, l (ix2 r d) * t (ix2 j d) := by
  simp only [matmul]
  rw [Ideal.matmul_constant_zero_apply, ← Equiv.sum_comp (contrEquiv1 dot_S2048x256_S1280x256_S2048x1280_1_1_0_0_n_n 256 rfl rfl).symm]
  refine Finset.sum_congr rfl fun k _ => ?_
  have hk := contrEquiv1_symm_val dot_S2048x256_S1280x256_S2048x1280_1_1_0_0_n_n 256 rfl rfl k
  have el : dot_S2048x256_S1280x256_S2048x1280_1_1_0_0_n_n.lhsIdx (ix2 r j) ((contrEquiv1 dot_S2048x256_S1280x256_S2048x1280_1_1_0_0_n_n 256 rfl rfl).symm k) = ix2 r k := funext fun a => Fin.ext (by
    match a with
    | ⟨0, _⟩ => exact lhs_scores_0 _ _
    | ⟨1, _⟩ => exact (lhs_scores_1 _ _).trans hk)
  have er : dot_S2048x256_S1280x256_S2048x1280_1_1_0_0_n_n.rhsIdx (ix2 r j) ((contrEquiv1 dot_S2048x256_S1280x256_S2048x1280_1_1_0_0_n_n 256 rfl rfl).symm k) = ix2 j k := funext fun a => Fin.ext (by
    match a with
    | ⟨0, _⟩ => exact rhs_scores_0 _ _
    | ⟨1, _⟩ => exact (rhs_scores_1 _ _).trans hk)
  rw [el, er]

theorem lhs_mix_0 (i : S2048x256.Idx) (q : dot_S2048x1280_S1280x256_S2048x256_1_0_0_1_n_n.contr.Idx) :
    (dot_S2048x1280_S1280x256_S2048x256_1_0_0_1_n_n.lhsIdx i q 0).val = (i 0).val := by
  unfold DotDims.lhsIdx
  rw [dif_neg (show ¬(0 : Fin S2048x1280.rank) ∈ dot_S2048x1280_S1280x256_S2048x256_1_0_0_1_n_n.lhsBatch by decide), dif_pos (show (0 : Fin S2048x1280.rank) ∈ dot_S2048x1280_S1280x256_S2048x256_1_0_0_1_n_n.lhsNonContracting by decide)]
  rfl
theorem lhs_mix_1 (i : S2048x256.Idx) (q : dot_S2048x1280_S1280x256_S2048x256_1_0_0_1_n_n.contr.Idx) :
    (dot_S2048x1280_S1280x256_S2048x256_1_0_0_1_n_n.lhsIdx i q 1).val = (q ⟨0, by decide⟩).val :=
  dot_S2048x1280_S1280x256_S2048x256_1_0_0_1_n_n.lhsIdx_val_of_single rfl i q
theorem rhs_mix_0 (i : S2048x256.Idx) (q : dot_S2048x1280_S1280x256_S2048x256_1_0_0_1_n_n.contr.Idx) :
    (dot_S2048x1280_S1280x256_S2048x256_1_0_0_1_n_n.rhsIdx i q 0).val = (q ⟨0, by decide⟩).val :=
  dot_S2048x1280_S1280x256_S2048x256_1_0_0_1_n_n.rhsIdx_val_of_single rfl i q
theorem rhs_mix_1 (i : S2048x256.Idx) (q : dot_S2048x1280_S1280x256_S2048x256_1_0_0_1_n_n.contr.Idx) :
    (dot_S2048x1280_S1280x256_S2048x256_1_0_0_1_n_n.rhsIdx i q 1).val = (i 1).val := by
  unfold DotDims.rhsIdx
  rw [dif_neg (show ¬(1 : Fin S1280x256.rank) ∈ dot_S2048x1280_S1280x256_S2048x256_1_0_0_1_n_n.rhsBatch by decide), dif_pos (show (1 : Fin S1280x256.rank) ∈ dot_S2048x1280_S1280x256_S2048x256_1_0_0_1_n_n.rhsNonContracting by decide)]
  rfl

/-- The second product into a zero accumulator, at `(r, d)`: the sum over the 1280 table rows of the tile. -/
theorem mix_apply (l : FVec Ideal S2048x1280 .bf16) (t : FVec Ideal S1280x256 .bf16) (r : Fin 2048) (d : Fin 256) :
    matmul dot_S2048x1280_S1280x256_S2048x256_1_0_0_1_n_n none l t (constant (F := Ideal) S2048x256 .f32 0x00000000#32) (ix2 r d)
      = ∑ j : Fin 1280, l (ix2 r j) * t (ix2 j d) := by
  simp only [matmul]
  rw [Ideal.matmul_constant_zero_apply, ← Equiv.sum_comp (contrEquiv1 dot_S2048x1280_S1280x256_S2048x256_1_0_0_1_n_n 1280 rfl rfl).symm]
  refine Finset.sum_congr rfl fun k _ => ?_
  have hk := contrEquiv1_symm_val dot_S2048x1280_S1280x256_S2048x256_1_0_0_1_n_n 1280 rfl rfl k
  have el : dot_S2048x1280_S1280x256_S2048x256_1_0_0_1_n_n.lhsIdx (ix2 r d) ((contrEquiv1 dot_S2048x1280_S1280x256_S2048x256_1_0_0_1_n_n 1280 rfl rfl).symm k) = ix2 r k := funext fun a => Fin.ext (by
    match a with
    | ⟨0, _⟩ => exact lhs_mix_0 _ _
    | ⟨1, _⟩ => exact (lhs_mix_1 _ _).trans hk)
  have er : dot_S2048x1280_S1280x256_S2048x256_1_0_0_1_n_n.rhsIdx (ix2 r d) ((contrEquiv1 dot_S2048x1280_S1280x256_S2048x256_1_0_0_1_n_n 1280 rfl rfl).symm k) = ix2 k d := funext fun a => Fin.ext (by
    match a with
    | ⟨0, _⟩ => exact (rhs_mix_0 _ _).trans hk
    | ⟨1, _⟩ => exact rhs_mix_1 _ _)
  rw [el, er]

end Products

/-! ## The step's pieces read at an index, for arbitrary extended-real data -/

section Pieces

/-- Raising at an index raises the element. -/
theorem exp_apply {s : Shape} {φ : FTy} (v : FVec Ideal s φ) (i : s.Idx) : exp v i = Ideal.exp (v i) := rfl

/-- The scores at `(r, j)`. -/
theorem pay8_apply (x : Vec Ideal S2048x256 .f32) (w : Vec Ideal S1280x256 .f32) (r : Fin 2048) (j : Fin 1280) :
    k0_pay8 (F := Ideal) x w (ix2 r j) = ∑ d : Fin 256, x (ix2 r d) * w (ix2 j d) := by
  unfold k0_pay8 k0_pay7
  dsimp only
  rw [shapeCast_self]
  exact scores_apply _ _ r j

/-- The new maximum in row `r`. -/
theorem pay9_apply (x : Vec Ideal S2048x256 .f32) (w : Vec Ideal S1280x256 .f32) (m : Vec Ideal S2048x1 .f32) (r : Fin 2048) :
    k0_pay9 (F := Ideal) x w m (ix2 r (0 : Fin 1))
      = max (m (ix2 r (0 : Fin 1))) ((Finset.univ : Finset (Fin 1280)).fold max (⊥ : EReal) (fun j => k0_pay8 (F := Ideal) x w (ix2 r j))) := by
  unfold k0_pay9
  dsimp only
  rw [maximumf_apply, shapeCast_a_a1_apply]
  exact congrArg (max _) (rowmax_apply _ _ _ _ r)

/-- The rescaling factor in row `r`. -/
theorem pay10_apply (x : Vec Ideal S2048x256 .f32) (w : Vec Ideal S1280x256 .f32) (m m₂ : Vec Ideal S2048x1 .f32) (r : Fin 2048) :
    k0_pay10 (F := Ideal) x w m m₂ (ix2 r (0 : Fin 1))
      = Ideal.exp (m₂ (ix2 r (0 : Fin 1)) - k0_pay9 (F := Ideal) x w m (ix2 r (0 : Fin 1))) := by
  unfold k0_pay10
  rw [exp_apply, subf_apply]

/-- The weights at `(r, j)`. -/
theorem pay11_apply (x : Vec Ideal S2048x256 .f32) (w : Vec Ideal S1280x256 .f32) (m : Vec Ideal S2048x1 .f32) (r : Fin 2048)
    (j : Fin 1280) :
    k0_pay11 (F := Ideal) x w m (ix2 r j)
      = Ideal.exp (k0_pay8 (F := Ideal) x w (ix2 r j) - k0_pay9 (F := Ideal) x w m (ix2 r (0 : Fin 1))) := by
  unfold k0_pay11
  rw [exp_apply, subf_apply, broadcastTo_a1_ab_apply]

/-- The new denominator in row `r`. -/
theorem pay12_apply (x : Vec Ideal S2048x256 .f32) (w : Vec Ideal S1280x256 .f32) (m m₂ l : Vec Ideal S2048x1 .f32) (r : Fin 2048) :
    k0_pay12 (F := Ideal) x w m m₂ l (ix2 r (0 : Fin 1))
      = k0_pay10 (F := Ideal) x w m m₂ (ix2 r (0 : Fin 1)) * l (ix2 r (0 : Fin 1))
        + ∑ j : Fin 1280, k0_pay11 (F := Ideal) x w m (ix2 r j) := by
  unfold k0_pay12
  dsimp only
  rw [shapeCast_self, addf_apply, mulf_apply, shapeCast_a_a1_apply]
  exact congrArg (_ + ·) (rowsum_apply _ _ _ _ r)

/-- The new numerator at `(r, d)`. -/
theorem pay13_apply (x : Vec Ideal S2048x256 .f32) (w : Vec Ideal S1280x256 .f32) (m m₂ : Vec Ideal S2048x1 .f32)
    (a : Vec Ideal S2048x256 .f32) (r : Fin 2048) (d : Fin 256) :
    k0_pay13 (F := Ideal) x w m m₂ a (ix2 r d)
      = k0_pay10 (F := Ideal) x w m m₂ (ix2 r (0 : Fin 1)) * a (ix2 r d)
        + ∑ j : Fin 1280, k0_pay11 (F := Ideal) x w m (ix2 r j) * w (ix2 j d) := by
  unfold k0_pay13 k0_pay7
  dsimp only
  rw [addf_apply, mulf_apply, broadcastTo_a1_ab_apply, mix_apply]
  rfl

end Pieces

/-! ## The step at finite data

The query tile, the table tile and the running state are finite: every entry is (the image of) a real number.
Then every quantity of the step is finite, and reads as the real formula. -/

section Finite

/-- The step's functions `maxNew` and `accNew` end in a shape cast to the same shape, which is the identity. -/
theorem maxNew_eq {F : FTy → Type} [FloatOps F] (x : Vec F S2048x256 .f32) (w : Vec F S1280x256 .f32) (m : Vec F S2048x1 .f32) :
    maxNew x w m = k0_pay9 x w m :=
  shapeCast_self (k0_pay9 x w m) shapeCasts_S2048x1_S2048x1

theorem accNew_eq {F : FTy → Type} [FloatOps F] (x : Vec F S2048x256 .f32) (w : Vec F S1280x256 .f32) (m : Vec F S2048x1 .f32)
    (a : Vec F S2048x256 .f32) : accNew x w m a = k0_pay13 x w m m a :=
  shapeCast_self (k0_pay13 x w m m a) shapeCasts_S2048x256_S2048x256

/-- A score of finite data is the real inner product. -/
theorem pay8_real (x : Vec Ideal S2048x256 .f32) (w : Vec Ideal S1280x256 .f32)
    (xr : Fin 2048 → Fin 256 → ℝ) (wr : Fin 1280 → Fin 256 → ℝ)
    (hx : ∀ r d, x (ix2 r d) = ((xr r d : ℝ) : EReal)) (hw : ∀ j d, w (ix2 j d) = ((wr j d : ℝ) : EReal))
    (r : Fin 2048) (j : Fin 1280) :
    k0_pay8 (F := Ideal) x w (ix2 r j) = ((∑ d : Fin 256, xr r d * wr j d : ℝ) : EReal) := by
  rw [pay8_apply, coe_sum]
  refine Finset.sum_congr rfl fun d _ => ?_
  rw [hx, hw, EReal.coe_mul]

/-- The new maximum of finite data is finite. -/
theorem maxNew_real (x : Vec Ideal S2048x256 .f32) (w : Vec Ideal S1280x256 .f32) (m : Vec Ideal S2048x1 .f32)
    (xr : Fin 2048 → Fin 256 → ℝ) (wr : Fin 1280 → Fin 256 → ℝ) (mr : Fin 2048 → ℝ)
    (hx : ∀ r d, x (ix2 r d) = ((xr r d : ℝ) : EReal)) (hw : ∀ j d, w (ix2 j d) = ((wr j d : ℝ) : EReal))
    (hm : ∀ r, m (ix2 r (0 : Fin 1)) = ((mr r : ℝ) : EReal)) :
    ∃ m' : Fin 2048 → ℝ, ∀ r, maxNew (F := Ideal) x w m (ix2 r (0 : Fin 1)) = ((m' r : ℝ) : EReal) := by
  have h : ∀ r : Fin 2048, ∃ c : ℝ, maxNew (F := Ideal) x w m (ix2 r (0 : Fin 1)) = (c : EReal) := fun r => by
    rw [maxNew_eq, pay9_apply, hm r]
    exact max_fold_real _ _ (fun j => ∑ d : Fin 256, xr r d * wr j d) (fun j => pay8_real x w xr wr hx hw r j) (mr r)
  exact ⟨fun r => (h r).choose, fun r => (h r).choose_spec⟩

/-- The rescaling factor of finite data, given the new maximum. -/
theorem pay10_real (x : Vec Ideal S2048x256 .f32) (w : Vec Ideal S1280x256 .f32) (m : Vec Ideal S2048x1 .f32)
    (mr : Fin 2048 → ℝ) (hm : ∀ r, m (ix2 r (0 : Fin 1)) = ((mr r : ℝ) : EReal))
    (m' : Fin 2048 → ℝ) (hm' : ∀ r, maxNew (F := Ideal) x w m (ix2 r (0 : Fin 1)) = ((m' r : ℝ) : EReal)) (r : Fin 2048) :
    k0_pay10 (F := Ideal) x w m m (ix2 r (0 : Fin 1)) = ((Real.exp (mr r - m' r) : ℝ) : EReal) := by
  rw [pay10_apply, hm r, ← maxNew_eq, hm' r, ← EReal.coe_sub, Ideal.exp_coe]

/-- A weight of finite data, given the new maximum. -/
theorem pay11_real (x : Vec Ideal S2048x256 .f32) (w : Vec Ideal S1280x256 .f32) (m : Vec Ideal S2048x1 .f32)
    (xr : Fin 2048 → Fin 256 → ℝ) (wr : Fin 1280 → Fin 256 → ℝ)
    (hx : ∀ r d, x (ix2 r d) = ((xr r d : ℝ) : EReal)) (hw : ∀ j d, w (ix2 j d) = ((wr j d : ℝ) : EReal))
    (m' : Fin 2048 → ℝ) (hm' : ∀ r, maxNew (F := Ideal) x w m (ix2 r (0 : Fin 1)) = ((m' r : ℝ) : EReal))
    (r : Fin 2048) (j : Fin 1280) :
    k0_pay11 (F := Ideal) x w m (ix2 r j) = ((Real.exp ((∑ d : Fin 256, xr r d * wr j d) - m' r) : ℝ) : EReal) := by
  rw [pay11_apply, pay8_real x w xr wr hx hw, ← maxNew_eq, hm' r, ← EReal.coe_sub, Ideal.exp_coe]

/-- The new denominator of finite data. -/
theorem denNew_apply (x : Vec Ideal S2048x256 .f32) (w : Vec Ideal S1280x256 .f32) (m l : Vec Ideal S2048x1 .f32)
    (xr : Fin 2048 → Fin 256 → ℝ) (wr : Fin 1280 → Fin 256 → ℝ) (mr lr : Fin 2048 → ℝ)
    (hx : ∀ r d, x (ix2 r d) = ((xr r d : ℝ) : EReal)) (hw : ∀ j d, w (ix2 j d) = ((wr j d : ℝ) : EReal))
    (hm : ∀ r, m (ix2 r (0 : Fin 1)) = ((mr r : ℝ) : EReal)) (hl : ∀ r, l (ix2 r (0 : Fin 1)) = ((lr r : ℝ) : EReal))
    (m' : Fin 2048 → ℝ) (hm' : ∀ r, maxNew (F := Ideal) x w m (ix2 r (0 : Fin 1)) = ((m' r : ℝ) : EReal)) (r : Fin 2048) :
    denNew (F := Ideal) x w m l (ix2 r (0 : Fin 1))
      = ((Real.exp (mr r - m' r) * lr r + ∑ j : Fin 1280, Real.exp ((∑ d : Fin 256, xr r d * wr j d) - m' r) : ℝ) : EReal) := by
  show k0_pay12 (F := Ideal) x w m m l (ix2 r (0 : Fin 1)) = _
  rw [pay12_apply, pay10_real x w m mr hm m' hm' r, hl r, EReal.coe_add, EReal.coe_mul, coe_sum]
  congr 1
  exact Finset.sum_congr rfl fun j _ => pay11_real x w m xr wr hx hw m' hm' r j

/-- The new numerator of finite data. -/
theorem accNew_apply (x : Vec Ideal S2048x256 .f32) (w : Vec Ideal S1280x256 .f32) (m : Vec Ideal S2048x1 .f32)
    (a : Vec Ideal S2048x256 .f32)
    (xr : Fin 2048 → Fin 256 → ℝ) (wr : Fin 1280 → Fin 256 → ℝ) (mr : Fin 2048 → ℝ) (ar : Fin 2048 → Fin 256 → ℝ)
    (hx : ∀ r d, x (ix2 r d) = ((xr r d : ℝ) : EReal)) (hw : ∀ j d, w (ix2 j d) = ((wr j d : ℝ) : EReal))
    (hm : ∀ r, m (ix2 r (0 : Fin 1)) = ((mr r : ℝ) : EReal)) (ha : ∀ r d, a (ix2 r d) = ((ar r d : ℝ) : EReal))
    (m' : Fin 2048 → ℝ) (hm' : ∀ r, maxNew (F := Ideal) x w m (ix2 r (0 : Fin 1)) = ((m' r : ℝ) : EReal))
    (r : Fin 2048) (d : Fin 256) :
    accNew (F := Ideal) x w m a (ix2 r d)
      = ((Real.exp (mr r - m' r) * ar r d
          + ∑ j : Fin 1280, Real.exp ((∑ d' : Fin 256, xr r d' * wr j d') - m' r) * wr j d : ℝ) : EReal) := by
  rw [accNew_eq, pay13_apply, pay10_real x w m mr hm m' hm' r, ha r d, EReal.coe_add, EReal.coe_mul, coe_sum]
  congr 1
  refine Finset.sum_congr rfl fun j _ => ?_
  rw [pay11_real x w m xr wr hx hw m' hm' r j, hw j d, EReal.coe_mul]

/-- The quotient of finite data with a nonzero denominator. -/
theorem quot_apply (a : Vec Ideal S2048x256 .f32) (l : Vec Ideal S2048x1 .f32)
    (ar : Fin 2048 → Fin 256 → ℝ) (lr : Fin 2048 → ℝ)
    (ha : ∀ r d, a (ix2 r d) = ((ar r d : ℝ) : EReal)) (hl : ∀ r, l (ix2 r (0 : Fin 1)) = ((lr r : ℝ) : EReal))
    (r : Fin 2048) (d : Fin 256) (hne : lr r ≠ 0) :
    quot (F := Ideal) a l (ix2 r d) = ((ar r d / lr r : ℝ) : EReal) := by
  show k0_pay3 (F := Ideal) a l (ix2 r d) = _
  unfold k0_pay3
  rw [divf_apply, broadcastTo_a1_ab_apply, ha r d, hl r, Ideal.div_coe hne, ← EReal.coe_mul, mul_one_div]

/-- The initial maximum is one finite number in every row. -/
theorem max0_real : ∃ N : ℝ, ∀ r : Fin 2048, max0 (F := Ideal) (ix2 r (0 : Fin 1)) = (N : EReal) := by
  have hN : ∃ N : ℝ, Ideal.ofBits .f32 0xFF333332#32 = (N : EReal) := by
    show ∃ N : ℝ, Ideal.ieee 8 23 (0xFF333332#32 : BitVec 32) = (N : EReal)
    unfold Ideal.ieee
    dsimp only
    rw [if_neg (by decide), if_neg (by decide)]
    exact ⟨_, rfl⟩
  obtain ⟨N, hN⟩ := hN
  refine ⟨N, fun r => ?_⟩
  show k0_pay4 (F := Ideal) (ix2 r (0 : Fin 1)) = _
  unfold k0_pay4
  rw [shapeCast_self, broadcast_apply]
  exact hN

/-- The initial denominator is zero. -/
theorem den0_apply (r : Fin 2048) : den0 (F := Ideal) (ix2 r (0 : Fin 1)) = ((0 : ℝ) : EReal) := by
  show k0_pay5 (F := Ideal) (ix2 r (0 : Fin 1)) = _
  unfold k0_pay5
  rw [shapeCast_self, broadcast_apply]
  show Ideal.ofBits .f32 0x00000000#32 = _
  rw [Ideal.ofBits_zero_f32, EReal.coe_zero]

/-- The initial numerator is zero. -/
theorem acc0_apply (r : Fin 2048) (d : Fin 256) : acc0 (F := Ideal) (ix2 r d) = ((0 : ℝ) : EReal) := by
  show k0_pay6 (F := Ideal) (ix2 r d) = _
  unfold k0_pay6
  rw [shapeCast_self, broadcast_apply]
  show Ideal.ofBits .f32 0x00000000#32 = _
  rw [Ideal.ofBits_zero_f32, EReal.coe_zero]

end Finite

end Cert.KernelIdeal.Step

end
-- ==== Proof.KernelIdeal.Final0.lean ====
/-
  Region 0 on the extended reals, second half: the value of the result array.

  Fix one of the two query tiles (mi = 0, 1). After tile k of the table the three scratch buffers hold, for every row r of
  the query tile: a REAL running shift μ_r(k); the denominator  Σ_{k' ≤ k} Σ_j e^{s_r(k', j) − μ_r(k)}  and, per column d,
  the numerator  Σ_{k' ≤ k} Σ_j e^{s_r(k', j) − μ_r(k)} · W[k'·1280 + j, d],  where s_r(k', j) is the score of row r against
  table row k'·1280 + j — as the tiled recurrence of the specification, whose shift sequence is read off the maximum
  buffer itself. By induction on k: tile 0 restarts from the constants (a finite maximum, zero sums), tile k + 1 rescales
  by e^{μ(k) − μ(k+1)} and adds its own sums. After tile 24 the quotient is the softmax-weighted average over all 32000
  rows, whatever the shifts were; it is written back, and the two written-back blocks cover the result.
-/
import proofs.«418895_j12197707120761_3_alg».proof.Proof.KernelIdeal.Blocks0
import proofs.«418895_j12197707120761_3_alg».proof.Proof.KernelIdeal.Pieces0
import proofs.«418895_j12197707120761_3_alg».proof.Proof.KernelIdeal.Step

set_option maxRecDepth 16384

noncomputable section

open scoped BigOperators

namespace Cert.KernelIdeal.R0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's stored values are the step functions -/

theorem acc_is (x : Vec Ideal S2048x256 .f32) (w : Vec Ideal S1280x256 .f32) (mm : Vec Ideal S2048x1 .f32) (a : Vec Ideal S2048x256 .f32) :
    k0_pay1 (k0_pay13 x w mm mm a) = Step.accNew x w mm a := rfl
theorem max_is (x : Vec Ideal S2048x256 .f32) (w : Vec Ideal S1280x256 .f32) (mm : Vec Ideal S2048x1 .f32) :
    k0_pay2 (k0_pay9 x w mm) = Step.maxNew x w mm := rfl
theorem den_is (x : Vec Ideal S2048x256 .f32) (w : Vec Ideal S1280x256 .f32) (mm l : Vec Ideal S2048x1 .f32) :
    k0_pay12 x w mm mm l = Step.denNew x w mm l := rfl
theorem out_is (a : Vec Ideal S2048x256 .f32) (l : Vec Ideal S2048x1 .f32) : k0_pay3 a l = Step.quot a l := rfl
theorem max0_is : (k0_pay4 (F := Ideal) : Vec Ideal S2048x1 .f32) = Step.max0 (F := Ideal) := rfl
theorem den0_is : (k0_pay5 (F := Ideal) : Vec Ideal S2048x1 .f32) = Step.den0 (F := Ideal) := rfl
theorem acc0_is : (k0_pay6 (F := Ideal) : Vec Ideal S2048x256 .f32) = Step.acc0 (F := Ideal) := rfl

/-! ## The state after a point, component by component -/

section Components
variable (c : Dev nD)

theorem first_acc (t : Fin cfg0.N) (h0 : t.val % 25 = 0) (h1 : ¬t.val % 25 = 24) :
    (stateAt V c t.val t.isLt).2.1 = Step.accNew (xblk V c t) (wblk V c t) Step.max0 Step.acc0 := by
  rw [stateAt_first V c t h0 h1]; unfold atFirst
  exact (leftFirst_acc c _ _ _ _ _ _ _ _ _ _ _ _ _ _ _ _ _).trans (by rw [max0_is, acc0_is]; exact acc_is _ _ _ _)
theorem first_max (t : Fin cfg0.N) (h0 : t.val % 25 = 0) (h1 : ¬t.val % 25 = 24) :
    (stateAt V c t.val t.isLt).2.2.1 = Step.maxNew (xblk V c t) (wblk V c t) Step.max0 := by
  rw [stateAt_first V c t h0 h1]; unfold atFirst
  exact (leftFirst_max c _ _ _ _ _ _ _ _ _ _ _ _ _ _ _ _ _).trans (by rw [max0_is]; exact max_is _ _ _)
theorem first_den (t : Fin cfg0.N) (h0 : t.val % 25 = 0) (h1 : ¬t.val % 25 = 24) :
    (stateAt V c t.val t.isLt).2.2.2 = Step.denNew (xblk V c t) (wblk V c t) Step.max0 Step.den0 := by
  rw [stateAt_first V c t h0 h1]; unfold atFirst
  exact (leftFirst_den c _ _ _ _ _ _ _ _ _ _ _ _ _ _ _ _ _).trans (by rw [max0_is, den0_is]; exact den_is _ _ _ _)

/-- What the point before left. -/
abbrev prev (t : Fin cfg0.N) : St Ideal := stateAt V c (t.val - 1) (Nat.lt_of_le_of_lt (Nat.sub_le _ _) t.isLt)

theorem next_acc (t : Fin cfg0.N) (h0 : ¬t.val % 25 = 0) :
    (stateAt V c t.val t.isLt).2.1 = Step.accNew (xblk V c t) (wblk V c t) (prev V c t).2.2.1 (prev V c t).2.1 := by
  by_cases h1 : t.val % 25 = 24
  · rw [stateAt_last V c t h0 h1]; unfold atLast
    exact (leftLast_acc c _ _ _ _ _ _ _ _ _ _ _ _ _ _ _ _ _ _).trans (acc_is _ _ _ _)
  · rw [stateAt_mid V c t h0 h1]; unfold atMid
    exact (leftMid_acc c _ _ _ _ _ _ _ _ _ _ _ _ _ _ _ _ _ _).trans (acc_is _ _ _ _)
theorem next_max (t : Fin cfg0.N) (h0 : ¬t.val % 25 = 0) :
    (stateAt V c t.val t.isLt).2.2.1 = Step.maxNew (xblk V c t) (wblk V c t) (prev V c t).2.2.1 := by
  by_cases h1 : t.val % 25 = 24
  · rw [stateAt_last V c t h0 h1]; unfold atLast
    exact (leftLast_max c _ _ _ _ _ _ _ _ _ _ _ _ _ _ _ _ _ _).trans (max_is _ _ _)
  · rw [stateAt_mid V c t h0 h1]; unfold atMid
    exact (leftMid_max c _ _ _ _ _ _ _ _ _ _ _ _ _ _ _ _ _ _).trans (max_is _ _ _)
theorem next_den (t : Fin cfg0.N) (h0 : ¬t.val % 25 = 0) :
    (stateAt V c t.val t.isLt).2.2.2 = Step.denNew (xblk V c t) (wblk V c t) (prev V c t).2.2.1 (prev V c t).2.2.2 := by
  by_cases h1 : t.val % 25 = 24
  · rw [stateAt_last V c t h0 h1]; unfold atLast
    exact (leftLast_den c _ _ _ _ _ _ _ _ _ _ _ _ _ _ _ _ _ _).trans (den_is _ _ _ _)
  · rw [stateAt_mid V c t h0 h1]; unfold atMid
    exact (leftMid_den c _ _ _ _ _ _ _ _ _ _ _ _ _ _ _ _ _ _).trans (den_is _ _ _ _)
/-- After a LAST point the output buffer holds the quotient of the numerator and denominator the point leaves. -/
theorem last_out (t : Fin cfg0.N) (h0 : ¬t.val % 25 = 0) (h1 : t.val % 25 = 24) :
    (stateAt V c t.val t.isLt).1 = Step.quot (stateAt V c t.val t.isLt).2.1 (stateAt V c t.val t.isLt).2.2.2 := by
  rw [next_acc V c t h0, next_den V c t h0]
  rw [stateAt_last V c t h0 h1]; unfold atLast
  exact (leftLast_out c _ _ _ _ _ _ _ _ _ _ _ _ _ _ _ _ _ _).trans ((out_is _ _).trans (by rw [acc_is, den_is]))

end Components

/-! ## The real data -/

section Reals
variable (c : Dev nD)

def xr (R : Fin 4096) (d : Fin 256) : ℝ := (xarr V c (ix2 R d)).toReal
def wr (v : Fin 32000) (d : Fin 256) : ℝ := (warr V c (ix2 v d)).toReal
/-- The score of activation row `R` against row `j` of table tile `k`. -/
def sc (R : Fin 4096) (k : ℕ) (j : Fin 1280) : ℝ :=
  if h : k * 1280 + j.val < 32000 then ∑ d : Fin 256, xr V c R d * wr V c ⟨k * 1280 + j.val, h⟩ d else 0
/-- Column `d` of row `j` of table tile `k`. -/
def uc (d : Fin 256) (k : ℕ) (j : Fin 1280) : ℝ :=
  if h : k * 1280 + j.val < 32000 then wr V c ⟨k * 1280 + j.val, h⟩ d else 0
/-- The shift in force after tile `k` of query tile `mi`, row `r`: the maximum buffer's entry, as a real. -/
def shift (mi : ℕ) (r : Fin 2048) (k : ℕ) : ℝ :=
  if h : mi * 25 + k < cfg0.N then ((stateAt V c (mi * 25 + k) h).2.2.1 (ix2 r (0 : Fin 1))).toReal else 0

theorem sc_eq (R : Fin 4096) (t : Fin cfg0.N) (j : Fin 1280) :
    sc V c R (t.val % 25) j = ∑ d : Fin 256, xr V c R d * wr V c (tabOf t j) d := by
  unfold sc; rw [dif_pos (show t.val % 25 * 1280 + j.val < 32000 from (tabOf t j).isLt)]; rfl
theorem uc_eq (d : Fin 256) (t : Fin cfg0.N) (j : Fin 1280) : uc V c d (t.val % 25) j = wr V c (tabOf t j) d := by
  unfold uc; rw [dif_pos (show t.val % 25 * 1280 + j.val < 32000 from (tabOf t j).isLt)]; rfl

variable (hx : Cert.Spec.Finite (xarr V c)) (hw : Cert.Spec.Finite (warr V c))
include hx in
theorem xblk_real (t : Fin cfg0.N) (r : Fin 2048) (d : Fin 256) :
    xblk V c t (ix2 r d) = ((xr V c (rowOf t r) d : ℝ) : EReal) := by
  rw [xblk_apply]; exact (hx.coe_toReal _).symm
include hw in
theorem wblk_real (t : Fin cfg0.N) (j : Fin 1280) (d : Fin 256) :
    wblk V c t (ix2 j d) = ((wr V c (tabOf t j) d : ℝ) : EReal) := by
  rw [wblk_apply]; exact (hw.coe_toReal _).symm

/-- The denominator of the recurrence is positive. -/
theorem den_pos (s : ℕ → Fin 1280 → ℝ) (μ : ℕ → ℝ) (k : ℕ) : 0 < Cert.Spec.den s μ k := by
  rw [Cert.Spec.den_eq]
  refine Finset.sum_pos (fun k' _ => Finset.sum_pos (fun j _ => Real.exp_pos _) ⟨⟨0, by decide⟩, Finset.mem_univ _⟩) ⟨0, by simp⟩

/-! ## The invariant over the tiles of one query tile -/

/-- Point `mi·25 + k`. -/
theorem lt0 : (0 : ℕ) < 25 := by decide
theorem lt24 : (24 : ℕ) < 25 := by decide

abbrev pt (mi k : ℕ) (hmi : mi < 2) (hk : k < 25) : Fin cfg0.N := ⟨mi * 25 + k, by have : cfg0.N = 50 := N_0; omega⟩

theorem pt_mod (mi k : ℕ) (hmi : mi < 2) (hk : k < 25) : (pt mi k hmi hk).val % 25 = k := by show (mi * 25 + k) % 25 = k; omega
theorem pt_row (mi k : ℕ) (hmi : mi < 2) (hk : k < 25) (r : Fin 2048) : rowOf (pt mi k hmi hk) r = rowOf (pt mi 0 hmi lt0) r := by
  apply Fin.ext; show (mi * 25 + k) / 25 * 2048 + r.val = (mi * 25 + 0) / 25 * 2048 + r.val; omega

/-- After tile `k` of query tile `mi`: the maximum is the real shift, the denominator and numerator are the
    specification's recurrence at that shift sequence. -/
def Inv (mi : ℕ) (hmi : mi < 2) (k : ℕ) (hk : k < 25) : Prop :=
  ∀ r : Fin 2048,
    (stateAt V c (pt mi k hmi hk).val (pt mi k hmi hk).isLt).2.2.1 (ix2 r (0 : Fin 1)) = ((shift V c mi r k : ℝ) : EReal)
    ∧ (stateAt V c (pt mi k hmi hk).val (pt mi k hmi hk).isLt).2.2.2 (ix2 r (0 : Fin 1))
        = ((Cert.Spec.den (sc V c (rowOf (pt mi 0 hmi lt0) r)) (shift V c mi r) k : ℝ) : EReal)
    ∧ ∀ d : Fin 256, (stateAt V c (pt mi k hmi hk).val (pt mi k hmi hk).isLt).2.1 (ix2 r d)
        = ((Cert.Spec.num (sc V c (rowOf (pt mi 0 hmi lt0) r)) (uc V c d) (shift V c mi r) k : ℝ) : EReal)

theorem shift_of (mi k : ℕ) (hmi : mi < 2) (hk : k < 25) (r : Fin 2048) (v : ℝ)
    (h : (stateAt V c (pt mi k hmi hk).val (pt mi k hmi hk).isLt).2.2.1 (ix2 r (0 : Fin 1)) = ((v : ℝ) : EReal)) :
    shift V c mi r k = v := by
  unfold shift; rw [dif_pos (pt mi k hmi hk).isLt]
  show ((stateAt V c (pt mi k hmi hk).val (pt mi k hmi hk).isLt).2.2.1 (ix2 r (0 : Fin 1))).toReal = v
  rw [h]; exact EReal.toReal_coe v

include hx hw in
theorem inv_zero (mi : ℕ) (hmi : mi < 2) : Inv V c mi hmi 0 lt0 := by
  intro r
  have h0 : (pt mi 0 hmi lt0).val % 25 = 0 := pt_mod mi 0 hmi lt0
  have h1 : ¬(pt mi 0 hmi lt0).val % 25 = 24 := by rw [h0]; decide
  obtain ⟨N, hN⟩ := Step.max0_real
  obtain ⟨m', hm'⟩ := Step.maxNew_real (xblk V c (pt mi 0 hmi lt0)) (wblk V c (pt mi 0 hmi lt0)) Step.max0
    (fun r d => xr V c (rowOf (pt mi 0 hmi lt0) r) d) (fun j d => wr V c (tabOf (pt mi 0 hmi lt0) j) d) (fun _ => N)
    (xblk_real V c hx _) (wblk_real V c hw _) hN
  have hmax : ∀ r, (stateAt V c (pt mi 0 hmi lt0).val (pt mi 0 hmi lt0).isLt).2.2.1 (ix2 r (0 : Fin 1)) = ((m' r : ℝ) : EReal) := by
    intro r; rw [first_max V c _ h0 h1]; exact hm' r
  have hs : shift V c mi r 0 = m' r := shift_of V c mi 0 hmi lt0 r _ (hmax r)
  refine ⟨by rw [hs]; exact hmax r, ?_, fun d => ?_⟩
  · rw [first_den V c _ h0 h1,
      Step.denNew_apply _ _ _ _ (fun r d => xr V c (rowOf (pt mi 0 hmi lt0) r) d) (fun j d => wr V c (tabOf (pt mi 0 hmi lt0) j) d) (fun _ => N) (fun _ => 0)
        (xblk_real V c hx _) (wblk_real V c hw _) hN Step.den0_apply m' hm' r]
    refine congrArg _ ?_
    show _ = ∑ j, Real.exp (sc V c _ 0 j - shift V c mi r 0)
    rw [mul_zero, zero_add, hs]
    refine Finset.sum_congr rfl fun j _ => ?_
    have := sc_eq V c (rowOf (pt mi 0 hmi lt0) r) (pt mi 0 hmi lt0) j
    rw [h0] at this; rw [this]
  · rw [first_acc V c _ h0 h1,
      Step.accNew_apply _ _ _ _ (fun r d => xr V c (rowOf (pt mi 0 hmi lt0) r) d) (fun j d => wr V c (tabOf (pt mi 0 hmi lt0) j) d) (fun _ => N) (fun _ _ => 0)
        (xblk_real V c hx _) (wblk_real V c hw _) hN Step.acc0_apply m' hm' r d]
    refine congrArg _ ?_
    show _ = ∑ j, Real.exp (sc V c _ 0 j - shift V c mi r 0) * uc V c d 0 j
    rw [mul_zero, zero_add, hs]
    refine Finset.sum_congr rfl fun j _ => ?_
    have e1 := sc_eq V c (rowOf (pt mi 0 hmi lt0) r) (pt mi 0 hmi lt0) j
    have e2 := uc_eq V c d (pt mi 0 hmi lt0) j
    rw [h0] at e1 e2; rw [e1, e2]

include hx hw in
theorem inv_succ (mi : ℕ) (hmi : mi < 2) (k : ℕ) (hk : k + 1 < 25) (ih : Inv V c mi hmi k (by omega)) : Inv V c mi hmi (k + 1) hk := by
  intro r
  have hmod : (pt mi (k + 1) hmi hk).val % 25 = k + 1 := pt_mod mi (k + 1) hmi hk
  have h0 : ¬(pt mi (k + 1) hmi hk).val % 25 = 0 := by rw [hmod]; omega
  -- the point before is tile k
  have hprev : prev V c (pt mi (k + 1) hmi hk) = stateAt V c (pt mi k hmi (by omega)).val (pt mi k hmi (by omega)).isLt := rfl
  have hrow : ∀ r, rowOf (pt mi (k + 1) hmi hk) r = rowOf (pt mi 0 hmi lt0) r := pt_row mi (k + 1) hmi hk
  have hxr : ∀ r d, xblk V c (pt mi (k + 1) hmi hk) (ix2 r d) = ((xr V c (rowOf (pt mi 0 hmi lt0) r) d : ℝ) : EReal) := by
    intro r d; rw [xblk_real V c hx, hrow]
  obtain ⟨m', hm'⟩ := Step.maxNew_real (xblk V c (pt mi (k + 1) hmi hk)) (wblk V c (pt mi (k + 1) hmi hk)) (prev V c (pt mi (k + 1) hmi hk)).2.2.1
    (fun r d => xr V c (rowOf (pt mi 0 hmi lt0) r) d) (fun j d => wr V c (tabOf (pt mi (k + 1) hmi hk) j) d) (fun r => shift V c mi r k)
    hxr (wblk_real V c hw _) (fun r => by rw [hprev]; exact (ih r).1)
  have hmax : ∀ r, (stateAt V c (pt mi (k + 1) hmi hk).val (pt mi (k + 1) hmi hk).isLt).2.2.1 (ix2 r (0 : Fin 1)) = ((m' r : ℝ) : EReal) := by
    intro r; rw [next_max V c _ h0]; exact hm' r
  have hs : shift V c mi r (k + 1) = m' r := shift_of V c mi (k + 1) hmi hk r _ (hmax r)
  refine ⟨by rw [hs]; exact hmax r, ?_, fun d => ?_⟩
  · rw [next_den V c _ h0,
      Step.denNew_apply _ _ _ _ (fun r d => xr V c (rowOf (pt mi 0 hmi lt0) r) d) (fun j d => wr V c (tabOf (pt mi (k + 1) hmi hk) j) d) (fun r => shift V c mi r k)
        (fun r => Cert.Spec.den (sc V c (rowOf (pt mi 0 hmi lt0) r)) (shift V c mi r) k)
        hxr (wblk_real V c hw _) (fun r => by rw [hprev]; exact (ih r).1) (fun r => by rw [hprev]; exact (ih r).2.1) m' hm' r]
    refine congrArg _ ?_
    show _ = Real.exp (shift V c mi r k - shift V c mi r (k + 1)) * Cert.Spec.den _ _ k + ∑ j, Real.exp (sc V c _ (k + 1) j - shift V c mi r (k + 1))
    rw [hs]
    refine congrArg _ (Finset.sum_congr rfl fun j _ => ?_)
    have := sc_eq V c (rowOf (pt mi 0 hmi lt0) r) (pt mi (k + 1) hmi hk) j
    rw [hmod] at this; rw [this]
  · rw [next_acc V c _ h0,
      Step.accNew_apply _ _ _ _ (fun r d => xr V c (rowOf (pt mi 0 hmi lt0) r) d) (fun j d => wr V c (tabOf (pt mi (k + 1) hmi hk) j) d) (fun r => shift V c mi r k)
        (fun r d => Cert.Spec.num (sc V c (rowOf (pt mi 0 hmi lt0) r)) (uc V c d) (shift V c mi r) k)
        hxr (wblk_real V c hw _) (fun r => by rw [hprev]; exact (ih r).1) (fun r d => by rw [hprev]; exact (ih r).2.2 d) m' hm' r d]
    refine congrArg _ ?_
    show _ = Real.exp (shift V c mi r k - shift V c mi r (k + 1)) * Cert.Spec.num _ _ _ k + ∑ j, Real.exp (sc V c _ (k + 1) j - shift V c mi r (k + 1)) * uc V c d (k + 1) j
    rw [hs]
    refine congrArg _ (Finset.sum_congr rfl fun j _ => ?_)
    have e1 := sc_eq V c (rowOf (pt mi 0 hmi lt0) r) (pt mi (k + 1) hmi hk) j
    have e2 := uc_eq V c d (pt mi (k + 1) hmi hk) j
    rw [hmod] at e1 e2; rw [e1, e2]

include hx hw in
theorem inv (mi : ℕ) (hmi : mi < 2) : ∀ (k : ℕ) (hk : k < 25), Inv V c mi hmi k hk := by
  intro k
  induction k with
  | zero => intro _; exact inv_zero V c hx hw mi hmi
  | succ k ih => intro hk; exact inv_succ V c hx hw mi hmi k hk (ih (by omega))

/-! ## The result -/

/-- What region 0 leaves in its result array: per activation row the softmax-weighted average of the table's columns. -/
def out2 : Vec Ideal S4096x256 .f32 := fun i =>
  ((Cert.Spec.attnRow (fun v : Fin 32000 => ∑ d : Fin 256, xr V c (i 0) d * wr V c v d) (fun v => wr V c v (i 1)) : ℝ) : EReal)

include hx hw in
/-- What a LAST point writes back is its block of `out2`. -/
theorem flushed_eq (t : Fin cfg0.N) (hf : (cfg0.win 2).flush t = true) :
    (dat V c).flushed 2 t = ((cfg0.win 2).blk t).view.read (Elt Ideal) (out2 V c) := by
  have h24 : t.val % 25 = 24 := (flush0_2 t).mp hf
  have ht50 := lt50 t
  obtain ⟨mi, hmi, rfl⟩ : ∃ (mi : ℕ) (hmi : mi < 2), t = pt mi 24 hmi lt24 :=
    ⟨t.val / 25, by omega, Fin.ext (by show t.val = t.val / 25 * 25 + 24; omega)⟩
  have h1 : (pt mi 24 hmi lt24).val % 25 = 24 := pt_mod mi 24 hmi lt24
  have h0 : ¬(pt mi 24 hmi lt24).val % 25 = 0 := by rw [h1]; decide
  show (cfg0.win 2).cut (grid0.coords (pt mi 24 hmi lt24)) ((dat V c).after 2 (pt mi 24 hmi lt24)) = _
  rw [after_out]
  funext j
  obtain ⟨r, d, rfl⟩ : ∃ (r : Fin 2048) (d : Fin 256), j = ix2 r d := ⟨j 0, j 1, eq_ix2 j⟩
  rw [oblk_apply]
  show (stateAt V c (pt mi 24 hmi lt24).val (pt mi 24 hmi lt24).isLt).1 (ix2 r d) = out2 V c (ix2 (rowOf (pt mi 24 hmi lt24) r) d)
  rw [last_out V c _ h0 h1]
  rw [Step.quot_apply _ _ (fun r d => Cert.Spec.num (sc V c (rowOf (pt mi 0 hmi lt0) r)) (uc V c d) (shift V c mi r) 24)
      (fun r => Cert.Spec.den (sc V c (rowOf (pt mi 0 hmi lt0) r)) (shift V c mi r) 24)
      (fun r d => (inv V c hx hw mi hmi 24 lt24 r).2.2 d)
      (fun r => (inv V c hx hw mi hmi 24 lt24 r).2.1)
      r d (ne_of_gt (den_pos _ _ _))]
  rw [pt_row mi 24 hmi lt24 r]
  unfold out2
  refine congrArg _ ?_
  exact Cert.Spec.online_attn (T := 1280) (N := 24) (n := 32000) _ _ _ (by norm_num) _ _
    (fun k j h _ => by unfold sc; rw [dif_pos h]) (fun k j h _ => by unfold uc; rw [dif_pos h])

include hx hw in
/-- THE RESULT ARRAY after region 0. -/
theorem final : (dat V c).arrAt 2 cfg0.N = out2 V c :=
  (dat V c).arrAt_eq_of_cover 2 (out2 V c) (fun t hf => flushed_eq V c hx hw t hf) covered

end Reals

end Cert.KernelIdeal.R0

end
-- ==== Proof.KernelIdeal.Blocks1.lean ====
/-
  Region 1 on the extended reals, first half: where the blocks sit. The query window's block at point t is rows
  [2048·(t / 25), 2048·(t / 25) + 2048) of the 4096 × 256 activations; the table window's block is rows
  [1280·(t % 25), 1280·(t % 25) + 1280) of the table; the output window's block sits where the query block does and is
  written back at the points t % 25 = 24, and those two blocks cover the result array.
-/
import proofs.«418895_j12197707120761_3_alg».proof.Proof.KernelIdeal.State1
import proofs.«418895_j12197707120761_3_alg».proof.Proof.Spec
import Idealize.ShloMosaic.Lib.Pipeline.Value

set_option maxRecDepth 16384

noncomputable section

namespace Cert.KernelIdeal.R1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The activations (reshaped to 4096 rows) and the table as the region finds them. -/
abbrev xarr (c : Dev nD) : Vec Ideal S4096x256 .f32 := V c main_v1
abbrev warr (c : Dev nD) : Vec Ideal S32000x256 .f32 := V c main_arg4
/-- The query tile and the table tile at point `t`. -/
abbrev xblk (c : Dev nD) (t : Fin cfg1.N) : Vec Ideal S2048x256 .f32 := iblk V c 0 t
abbrev wblk (c : Dev nD) (t : Fin cfg1.N) : Vec Ideal S1280x256 .f32 := iblk V c 1 t

/-- The printed index maps over the 50 points: query and output blocks follow t / 25, the table block t % 25. -/
theorem idx_facts : ∀ t : Fin cfg1.N, win1_0.index t (0 : Fin 2) = t.val / 25 ∧ win1_0.index t (1 : Fin 2) = 0
    ∧ win1_1.index t (0 : Fin 2) = t.val % 25 ∧ win1_1.index t (1 : Fin 2) = 0
    ∧ win1_2.index t (0 : Fin 2) = t.val / 25 ∧ win1_2.index t (1 : Fin 2) = 0 :=
  (by decide +kernel : ∀ t : Fin grid1.N, _)

theorem lt50 (t : Fin cfg1.N) : t.val < 50 := lt_of_lt_of_eq t.isLt (show cfg1.N = 50 from N_1)

/-- Row `r` of point `t`'s query tile, as a row of the activations. -/
def rowOf (t : Fin cfg1.N) (r : Fin 2048) : Fin 4096 := ⟨(t.val / 25) * 2048 + r.val, by have := lt50 t; have := r.isLt; omega⟩
/-- Row `j` of point `t`'s table tile, as a row of the table. -/
def tabOf (t : Fin cfg1.N) (j : Fin 1280) : Fin 32000 := ⟨(t.val % 25) * 1280 + j.val, by have := j.isLt; omega⟩

theorem xblk_apply (c : Dev nD) (t : Fin cfg1.N) (r : Fin 2048) (d : Fin 256) :
    xblk V c t (ix2 r d) = xarr V c (ix2 (rowOf t r) d) := by
  show V c main_v1 (((cfg1.win 0).blk t).view.emb (ix2 r d)) = V c main_v1 (ix2 (rowOf t r) d)
  refine congrArg _ ?_
  obtain ⟨e0, e1, -⟩ := idx_facts t
  funext a; apply Fin.ext
  match a with
  | ⟨0, _⟩ => show win1_0.index t (0 : Fin 2) * 2048 + 1 * r.val = (t.val / 25) * 2048 + r.val; omega
  | ⟨1, _⟩ => show win1_0.index t (1 : Fin 2) * 256 + 1 * d.val = d.val; omega

theorem wblk_apply (c : Dev nD) (t : Fin cfg1.N) (j : Fin 1280) (d : Fin 256) :
    wblk V c t (ix2 j d) = warr V c (ix2 (tabOf t j) d) := by
  show V c main_arg4 (((cfg1.win 1).blk t).view.emb (ix2 j d)) = V c main_arg4 (ix2 (tabOf t j) d)
  refine congrArg _ ?_
  obtain ⟨-, -, e2, e3, -⟩ := idx_facts t
  funext a; apply Fin.ext
  match a with
  | ⟨0, _⟩ => show win1_1.index t (0 : Fin 2) * 1280 + 1 * j.val = (t.val % 25) * 1280 + j.val; omega
  | ⟨1, _⟩ => show win1_1.index t (1 : Fin 2) * 256 + 1 * d.val = d.val; omega

/-- The output window's block at point `t`, read off a 4096 × 256 array `G`. -/
theorem oblk_apply (G : Vec Ideal S4096x256 .f32) (t : Fin cfg1.N) (r : Fin 2048) (d : Fin 256) :
    ((cfg1.win 2).blk t).view.read (Elt Ideal) G (ix2 r d) = G (ix2 (rowOf t r) d) := by
  show G (((cfg1.win 2).blk t).view.emb (ix2 r d)) = G (ix2 (rowOf t r) d)
  refine congrArg _ ?_
  obtain ⟨-, -, -, -, e4, e5⟩ := idx_facts t
  funext a; apply Fin.ext
  match a with
  | ⟨0, _⟩ => show win1_2.index t (0 : Fin 2) * 2048 + 1 * r.val = (t.val / 25) * 2048 + r.val; omega
  | ⟨1, _⟩ => show win1_2.index t (1 : Fin 2) * 256 + 1 * d.val = d.val; omega

/-- An index of the result array is in point `t`'s output block iff each coordinate is in the block's range. -/
theorem mem_oblk (t : Fin cfg1.N) (i : S4096x256.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_v3).slice (win1_2.rect t)).set ↔ _
  rw [View.set_slice_whole, Rect.mem_set_unit]
  exact Iff.rfl

/-- The two written-back blocks cover the result array: row R is in the block of the point 25·(R / 2048) + 24. -/
theorem covered (i : S4096x256.Idx) :
    ∃ t : Fin cfg1.N, (cfg1.win 2).flush t = true ∧ i ∈ ((cfg1.win 2).blk t).view.set := by
  have hi0 : (i 0).val < 4096 := idx2_lt0 i
  have hi1 : (i 1).val < 256 := idx2_lt1 i
  have hN : cfg1.N = 50 := N_1
  let t : Fin cfg1.N := ⟨25 * ((i 0).val / 2048) + 24, by omega⟩
  have htv : t.val = 25 * ((i 0).val / 2048) + 24 := rfl
  refine ⟨t, (flush1_2 t).mpr (by omega), ?_⟩
  rw [mem_oblk]
  obtain ⟨-, -, -, -, e4, e5⟩ := idx_facts t
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 256 ≤ (i 1).val ∧ (i 1).val < win1_2.index t (1 : Fin 2) * 256 + 256; omega

end Cert.KernelIdeal.R1

end
-- ==== Proof.KernelIdeal.Pieces1.lean ====
/-
  Region 1: what each control case leaves in each buffer, as a value. The stored pieces found by running the body are
  read back: every store of the body writes a whole buffer, so the last store into a buffer is what the buffer holds,
  and a load reads either what the point before left or what an earlier store of the same point wrote.
-/
import proofs.«418895_j12197707120761_3_alg».proof.Proof.KernelIdeal.Left1
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every load and store of the body are zero: each goes through its whole buffer. -/
theorem hz : (![0, 0] : Fin 2 → Nat) = fun _ => 0 := funext fun a => by fin_cases a <;> rfl

section Cases

variable (c : Dev nD) (i : grid1.Coords) (arg2 : Memref sig .tc .vmem S2048x256 .f32) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole)

/-! ## The FIRST case -/

theorem leftFirst_acc (hc0 : isFirst i) (hc1 : ¬isLast i) (x : Vec F S2048x256 .f32) (w : Vec F S1280x256 .f32) :
    (leftFirst c i arg2 harg2 arg3 harg3 arg4 harg4 arg5 harg5 arg6 harg6 arg7 harg7 hc0 hc1 x w).2.1 = k1_pay1 (k1_pay13 x w (k1_pay4 (F := F)) (k1_pay4 (F := F)) (k1_pay6 (F := F))) := by
  unfold leftFirst; dsimp only
  rw [View.read_writes_eq_canon _ _ _ (cover_first_acc c i arg2 harg2 arg3 harg3 arg4 harg4 arg5 harg5 arg6 harg6 arg7 harg7 hc0 hc1 x w)]
  unfold runFirst; dsimp only
  sl_unfold_words
  rw [View.canon_cons_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftFirst_max (hc0 : isFirst i) (hc1 : ¬isLast i) (x : Vec F S2048x256 .f32) (w : Vec F S1280x256 .f32) :
    (leftFirst c i arg2 harg2 arg3 harg3 arg4 harg4 arg5 harg5 arg6 harg6 arg7 harg7 hc0 hc1 x w).2.2.1 = k1_pay2 (k1_pay9 x w (k1_pay4 (F := F))) := by
  unfold leftFirst; dsimp only
  rw [View.read_writes_eq_canon _ _ _ (cover_first_max c i arg2 harg2 arg3 harg3 arg4 harg4 arg5 harg5 arg6 harg6 arg7 harg7 hc0 hc1 x w)]
  unfold runFirst; dsimp only
  sl_unfold_words
  rw [View.canon_cons_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftFirst_den (hc0 : isFirst i) (hc1 : ¬isLast i) (x : Vec F S2048x256 .f32) (w : Vec F S1280x256 .f32) :
    (leftFirst c i arg2 harg2 arg3 harg3 arg4 harg4 arg5 harg5 arg6 harg6 arg7 harg7 hc0 hc1 x w).2.2.2 = k1_pay12 x w (k1_pay4 (F := F)) (k1_pay4 (F := F)) (k1_pay5 (F := F)) := by
  unfold leftFirst; dsimp only
  rw [View.read_writes_eq_canon _ _ _ (cover_first_den c i arg2 harg2 arg3 harg3 arg4 harg4 arg5 harg5 arg6 harg6 arg7 harg7 hc0 hc1 x w)]
  unfold runFirst; dsimp only
  sl_unfold_words
  rw [View.canon_cons_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

/-! ## The MIDDLE case -/

theorem leftMid_acc (hc0 : ¬isFirst i) (hc1 : ¬isLast i) (x : Vec F S2048x256 .f32) (w : Vec F S1280x256 .f32) (p : St F) :
    (leftMid c i arg2 harg2 arg3 harg3 arg4 harg4 arg5 harg5 arg6 harg6 arg7 harg7 hc0 hc1 x w p).2.1 = k1_pay1 (k1_pay13 x w p.2.2.1 p.2.2.1 p.2.1) := by
  unfold leftMid; dsimp only
  rw [View.read_writes_eq_canon _ _ _ (cover_mid_acc c i arg2 harg2 arg3 harg3 arg4 harg4 arg5 harg5 arg6 harg6 arg7 harg7 hc0 hc1 x w _ _ _)]
  unfold runMid; dsimp only
  sl_unfold_words
  rw [View.canon_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz]

theorem leftMid_max (hc0 : ¬isFirst i) (hc1 : ¬isLast i) (x : Vec F S2048x256 .f32) (w : Vec F S1280x256 .f32) (p : St F) :
    (leftMid c i arg2 harg2 arg3 harg3 arg4 harg4 arg5 harg5 arg6 harg6 arg7 harg7 hc0 hc1 x w p).2.2.1 = k1_pay2 (k1_pay9 x w p.2.2.1) := by
  unfold leftMid; dsimp only
  rw [View.read_writes_eq_canon _ _ _ (cover_mid_max c i arg2 harg2 arg3 harg3 arg4 harg4 arg5 harg5 arg6 harg6 arg7 harg7 hc0 hc1 x w _ _ _)]
  unfold runMid; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz]

theorem leftMid_den (hc0 : ¬isFirst i) (hc1 : ¬isLast i) (x : Vec F S2048x256 .f32) (w : Vec F S1280x256 .f32) (p : St F) :
    (leftMid c i arg2 harg2 arg3 harg3 arg4 harg4 arg5 harg5 arg6 harg6 arg7 harg7 hc0 hc1 x w p).2.2.2 = k1_pay12 x w p.2.2.1 p.2.2.1 p.2.2.2 := by
  unfold leftMid; dsimp only
  rw [View.read_writes_eq_canon _ _ _ (cover_mid_den c i arg2 harg2 arg3 harg3 arg4 harg4 arg5 harg5 arg6 harg6 arg7 harg7 hc0 hc1 x w _ _ _)]
  unfold runMid; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz]

/-! ## The LAST case -/

theorem leftLast_acc (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).2.1 = k1_pay1 (k1_pay13 x w p.2.2.1 p.2.2.1 p.2.1) := by
  unfold leftLast; dsimp only
  rw [View.read_writes_eq_canon _ _ _ (cover_last_acc c i arg2 harg2 arg3 harg3 arg4 harg4 arg5 harg5 arg6 harg6 arg7 harg7 hc0 hc1 x w _ _ _)]
  unfold runLast; dsimp only
  sl_unfold_words
  rw [View.canon_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftLast_max (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).2.2.1 = k1_pay2 (k1_pay9 x w p.2.2.1) := by
  unfold leftLast; dsimp only
  rw [View.read_writes_eq_canon _ _ _ (cover_last_max c i arg2 harg2 arg3 harg3 arg4 harg4 arg5 harg5 arg6 harg6 arg7 harg7 hc0 hc1 x w _ _ _)]
  unfold runLast; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftLast_den (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).2.2.2 = k1_pay12 x w p.2.2.1 p.2.2.1 p.2.2.2 := by
  unfold leftLast; dsimp only
  rw [View.read_writes_eq_canon _ _ _ (cover_last_den c i arg2 harg2 arg3 harg3 arg4 harg4 arg5 harg5 arg6 harg6 arg7 harg7 hc0 hc1 x w _ _ _)]
  unfold runLast; dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

theorem leftLast_out (hc0 : ¬isFirst i) (hc1 : isLast i) (x : Vec F S2048x256 .f32) (w : Vec F S1280x256 .f32) (p : St F) :
    (leftLast c i arg2 harg2 arg3 harg3 arg4 harg4 arg5 harg5 arg6 harg6 arg7 harg7 hc0 hc1 x w p).1 = k1_pay3 (k1_pay1 (k1_pay13 x w p.2.2.1 p.2.2.1 p.2.1)) (k1_pay12 x w p.2.2.1 p.2.2.1 p.2.2.2) := by
  unfold leftLast; dsimp only
  rw [View.read_writes_eq_canon _ _ _ (cover_last_out c i arg2 harg2 arg3 harg3 arg4 harg4 arg5 harg5 arg6 harg6 arg7 harg7 hc0 hc1 x w _ _ _)]
  unfold runLast; dsimp only
  sl_unfold_words
  rw [View.canon_unit_zero (S := S2048x256) hz]
  simp only [View.readAt_eq_ld, harg2.read_unread, harg3.read_unread, harg4.read_unread, harg5.read_unread, harg6.read_unread, harg7.read_unread, View.ld_unit_zero (S := S2048x256) hz, View.ld_unit_zero (S := S1280x256) hz, View.ld_unit_zero (S := S2048x1) hz, View.readCov_unit_zero (S := S2048x256) _ hz, View.readCov_unit_zero (S := S2048x1) _ hz]

end Cases

end Cert.KernelIdeal.R1

end
-- ==== Proof.KernelIdeal.Final1.lean ====
/-
  Region 1 on the extended reals, second half: the value of the result array.

  Fix one of the two query tiles (mi = 0, 1). After tile k of the table the three scratch buffers hold, for every row r of
  the query tile: a REAL running shift μ_r(k); the denominator  Σ_{k' ≤ k} Σ_j e^{s_r(k', j) − μ_r(k)}  and, per column d,
  the numerator  Σ_{k' ≤ k} Σ_j e^{s_r(k', j) − μ_r(k)} · W[k'·1280 + j, d],  where s_r(k', j) is the score of row r against
  table row k'·1280 + j — as the tiled recurrence of the specification, whose shift sequence is read off the maximum
  buffer itself. By induction on k: tile 0 restarts from the constants (a finite maximum, zero sums), tile k + 1 rescales
  by e^{μ(k) − μ(k+1)} and adds its own sums. After tile 24 the quotient is the softmax-weighted average over all 32000
  rows, whatever the shifts were; it is written back, and the two written-back blocks cover the result.
-/
import proofs.«418895_j12197707120761_3_alg».proof.Proof.KernelIdeal.Blocks1
import proofs.«418895_j12197707120761_3_alg».proof.Proof.KernelIdeal.Pieces1
import proofs.«418895_j12197707120761_3_alg».proof.Proof.KernelIdeal.Step

set_option maxRecDepth 16384

noncomputable section

open scoped BigOperators

namespace Cert.KernelIdeal.R1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's stored values are the step functions -/

theorem acc_is (x : Vec Ideal S2048x256 .f32) (w : Vec Ideal S1280x256 .f32) (mm : Vec Ideal S2048x1 .f32) (a : Vec Ideal S2048x256 .f32) :
    k1_pay1 (k1_pay13 x w mm mm a) = Step.accNew x w mm a := rfl
theorem max_is (x : Vec Ideal S2048x256 .f32) (w : Vec Ideal S1280x256 .f32) (mm : Vec Ideal S2048x1 .f32) :
    k1_pay2 (k1_pay9 x w mm) = Step.maxNew x w mm := rfl
theorem den_is (x : Vec Ideal S2048x256 .f32) (w : Vec Ideal S1280x256 .f32) (mm l : Vec Ideal S2048x1 .f32) :
    k1_pay12 x w mm mm l = Step.denNew x w mm l := rfl
theorem out_is (a : Vec Ideal S2048x256 .f32) (l : Vec Ideal S2048x1 .f32) : k1_pay3 a l = Step.quot a l := rfl
theorem max0_is : (k1_pay4 (F := Ideal) : Vec Ideal S2048x1 .f32) = Step.max0 (F := Ideal) := rfl
theorem den0_is : (k1_pay5 (F := Ideal) : Vec Ideal S2048x1 .f32) = Step.den0 (F := Ideal) := rfl
theorem acc0_is : (k1_pay6 (F := Ideal) : Vec Ideal S2048x256 .f32) = Step.acc0 (F := Ideal) := rfl

/-! ## The state after a point, component by component -/

section Components
variable (c : Dev nD)

theorem first_acc (t : Fin cfg1.N) (h0 : t.val % 25 = 0) (h1 : ¬t.val % 25 = 24) :
    (stateAt V c t.val t.isLt).2.1 = Step.accNew (xblk V c t) (wblk V c t) Step.max0 Step.acc0 := by
  rw [stateAt_first V c t h0 h1]; unfold atFirst
  exact (leftFirst_acc c _ _ _ _ _ _ _ _ _ _ _ _ _ _ _ _ _).trans (by rw [max0_is, acc0_is]; exact acc_is _ _ _ _)
theorem first_max (t : Fin cfg1.N) (h0 : t.val % 25 = 0) (h1 : ¬t.val % 25 = 24) :
    (stateAt V c t.val t.isLt).2.2.1 = Step.maxNew (xblk V c t) (wblk V c t) Step.max0 := by
  rw [stateAt_first V c t h0 h1]; unfold atFirst
  exact (leftFirst_max c _ _ _ _ _ _ _ _ _ _ _ _ _ _ _ _ _).trans (by rw [max0_is]; exact max_is _ _ _)
theorem first_den (t : Fin cfg1.N) (h0 : t.val % 25 = 0) (h1 : ¬t.val % 25 = 24) :
    (stateAt V c t.val t.isLt).2.2.2 = Step.denNew (xblk V c t) (wblk V c t) Step.max0 Step.den0 := by
  rw [stateAt_first V c t h0 h1]; unfold atFirst
  exact (leftFirst_den c _ _ _ _ _ _ _ _ _ _ _ _ _ _ _ _ _).trans (by rw [max0_is, den0_is]; exact den_is _ _ _ _)

/-- What the point before left. -/
abbrev prev (t : Fin cfg1.N) : St Ideal := stateAt V c (t.val - 1) (Nat.lt_of_le_of_lt (Nat.sub_le _ _) t.isLt)

theorem next_acc (t : Fin cfg1.N) (h0 : ¬t.val % 25 = 0) :
    (stateAt V c t.val t.isLt).2.1 = Step.accNew (xblk V c t) (wblk V c t) (prev V c t).2.2.1 (prev V c t).2.1 := by
  by_cases h1 : t.val % 25 = 24
  · rw [stateAt_last V c t h0 h1]; unfold atLast
    exact (leftLast_acc c _ _ _ _ _ _ _ _ _ _ _ _ _ _ _ _ _ _).trans (acc_is _ _ _ _)
  · rw [stateAt_mid V c t h0 h1]; unfold atMid
    exact (leftMid_acc c _ _ _ _ _ _ _ _ _ _ _ _ _ _ _ _ _ _).trans (acc_is _ _ _ _)
theorem next_max (t : Fin cfg1.N) (h0 : ¬t.val % 25 = 0) :
    (stateAt V c t.val t.isLt).2.2.1 = Step.maxNew (xblk V c t) (wblk V c t) (prev V c t).2.2.1 := by
  by_cases h1 : t.val % 25 = 24
  · rw [stateAt_last V c t h0 h1]; unfold atLast
    exact (leftLast_max c _ _ _ _ _ _ _ _ _ _ _ _ _ _ _ _ _ _).trans (max_is _ _ _)
  · rw [stateAt_mid V c t h0 h1]; unfold atMid
    exact (leftMid_max c _ _ _ _ _ _ _ _ _ _ _ _ _ _ _ _ _ _).trans (max_is _ _ _)
theorem next_den (t : Fin cfg1.N) (h0 : ¬t.val % 25 = 0) :
    (stateAt V c t.val t.isLt).2.2.2 = Step.denNew (xblk V c t) (wblk V c t) (prev V c t).2.2.1 (prev V c t).2.2.2 := by
  by_cases h1 : t.val % 25 = 24
  · rw [stateAt_last V c t h0 h1]; unfold atLast
    exact (leftLast_den c _ _ _ _ _ _ _ _ _ _ _ _ _ _ _ _ _ _).trans (den_is _ _ _ _)
  · rw [stateAt_mid V c t h0 h1]; unfold atMid
    exact (leftMid_den c _ _ _ _ _ _ _ _ _ _ _ _ _ _ _ _ _ _).trans (den_is _ _ _ _)
/-- After a LAST point the output buffer holds the quotient of the numerator and denominator the point leaves. -/
theorem last_out (t : Fin cfg1.N) (h0 : ¬t.val % 25 = 0) (h1 : t.val % 25 = 24) :
    (stateAt V c t.val t.isLt).1 = Step.quot (stateAt V c t.val t.isLt).2.1 (stateAt V c t.val t.isLt).2.2.2 := by
  rw [next_acc V c t h0, next_den V c t h0]
  rw [stateAt_last V c t h0 h1]; unfold atLast
  exact (leftLast_out c _ _ _ _ _ _ _ _ _ _ _ _ _ _ _ _ _ _).trans ((out_is _ _).trans (by rw [acc_is, den_is]))

end Components

/-! ## The real data -/

section Reals
variable (c : Dev nD)

def xr (R : Fin 4096) (d : Fin 256) : ℝ := (xarr V c (ix2 R d)).toReal
def wr (v : Fin 32000) (d : Fin 256) : ℝ := (warr V c (ix2 v d)).toReal
/-- The score of activation row `R` against row `j` of table tile `k`. -/
def sc (R : Fin 4096) (k : ℕ) (j : Fin 1280) : ℝ :=
  if h : k * 1280 + j.val < 32000 then ∑ d : Fin 256, xr V c R d * wr V c ⟨k * 1280 + j.val, h⟩ d else 0
/-- Column `d` of row `j` of table tile `k`. -/
def uc (d : Fin 256) (k : ℕ) (j : Fin 1280) : ℝ :=
  if h : k * 1280 + j.val < 32000 then wr V c ⟨k * 1280 + j.val, h⟩ d else 0
/-- The shift in force after tile `k` of query tile `mi`, row `r`: the maximum buffer's entry, as a real. -/
def shift (mi : ℕ) (r : Fin 2048) (k : ℕ) : ℝ :=
  if h : mi * 25 + k < cfg1.N then ((stateAt V c (mi * 25 + k) h).2.2.1 (ix2 r (0 : Fin 1))).toReal else 0

theorem sc_eq (R : Fin 4096) (t : Fin cfg1.N) (j : Fin 1280) :
    sc V c R (t.val % 25) j = ∑ d : Fin 256, xr V c R d * wr V c (tabOf t j) d := by
  unfold sc; rw [dif_pos (show t.val % 25 * 1280 + j.val < 32000 from (tabOf t j).isLt)]; rfl
theorem uc_eq (d : Fin 256) (t : Fin cfg1.N) (j : Fin 1280) : uc V c d (t.val % 25) j = wr V c (tabOf t j) d := by
  unfold uc; rw [dif_pos (show t.val % 25 * 1280 + j.val < 32000 from (tabOf t j).isLt)]; rfl

variable (hx : Cert.Spec.Finite (xarr V c)) (hw : Cert.Spec.Finite (warr V c))
include hx in
theorem xblk_real (t : Fin cfg1.N) (r : Fin 2048) (d : Fin 256) :
    xblk V c t (ix2 r d) = ((xr V c (rowOf t r) d : ℝ) : EReal) := by
  rw [xblk_apply]; exact (hx.coe_toReal _).symm
include hw in
theorem wblk_real (t : Fin cfg1.N) (j : Fin 1280) (d : Fin 256) :
    wblk V c t (ix2 j d) = ((wr V c (tabOf t j) d : ℝ) : EReal) := by
  rw [wblk_apply]; exact (hw.coe_toReal _).symm

/-- The denominator of the recurrence is positive. -/
theorem den_pos (s : ℕ → Fin 1280 → ℝ) (μ : ℕ → ℝ) (k : ℕ) : 0 < Cert.Spec.den s μ k := by
  rw [Cert.Spec.den_eq]
  refine Finset.sum_pos (fun k' _ => Finset.sum_pos (fun j _ => Real.exp_pos _) ⟨⟨0, by decide⟩, Finset.mem_univ _⟩) ⟨0, by simp⟩

/-! ## The invariant over the tiles of one query tile -/

/-- Point `mi·25 + k`. -/
theorem lt0 : (0 : ℕ) < 25 := by decide
theorem lt24 : (24 : ℕ) < 25 := by decide

abbrev pt (mi k : ℕ) (hmi : mi < 2) (hk : k < 25) : Fin cfg1.N := ⟨mi * 25 + k, by have : cfg1.N = 50 := N_1; omega⟩

theorem pt_mod (mi k : ℕ) (hmi : mi < 2) (hk : k < 25) : (pt mi k hmi hk).val % 25 = k := by show (mi * 25 + k) % 25 = k; omega
theorem pt_row (mi k : ℕ) (hmi : mi < 2) (hk : k < 25) (r : Fin 2048) : rowOf (pt mi k hmi hk) r = rowOf (pt mi 0 hmi lt0) r := by
  apply Fin.ext; show (mi * 25 + k) / 25 * 2048 + r.val = (mi * 25 + 0) / 25 * 2048 + r.val; omega

/-- After tile `k` of query tile `mi`: the maximum is the real shift, the denominator and numerator are the
    specification's recurrence at that shift sequence. -/
def Inv (mi : ℕ) (hmi : mi < 2) (k : ℕ) (hk : k < 25) : Prop :=
  ∀ r : Fin 2048,
    (stateAt V c (pt mi k hmi hk).val (pt mi k hmi hk).isLt).2.2.1 (ix2 r (0 : Fin 1)) = ((shift V c mi r k : ℝ) : EReal)
    ∧ (stateAt V c (pt mi k hmi hk).val (pt mi k hmi hk).isLt).2.2.2 (ix2 r (0 : Fin 1))
        = ((Cert.Spec.den (sc V c (rowOf (pt mi 0 hmi lt0) r)) (shift V c mi r) k : ℝ) : EReal)
    ∧ ∀ d : Fin 256, (stateAt V c (pt mi k hmi hk).val (pt mi k hmi hk).isLt).2.1 (ix2 r d)
        = ((Cert.Spec.num (sc V c (rowOf (pt mi 0 hmi lt0) r)) (uc V c d) (shift V c mi r) k : ℝ) : EReal)

theorem shift_of (mi k : ℕ) (hmi : mi < 2) (hk : k < 25) (r : Fin 2048) (v : ℝ)
    (h : (stateAt V c (pt mi k hmi hk).val (pt mi k hmi hk).isLt).2.2.1 (ix2 r (0 : Fin 1)) = ((v : ℝ) : EReal)) :
    shift V c mi r k = v := by
  unfold shift; rw [dif_pos (pt mi k hmi hk).isLt]
  show ((stateAt V c (pt mi k hmi hk).val (pt mi k hmi hk).isLt).2.2.1 (ix2 r (0 : Fin 1))).toReal = v
  rw [h]; exact EReal.toReal_coe v

include hx hw in
theorem inv_zero (mi : ℕ) (hmi : mi < 2) : Inv V c mi hmi 0 lt0 := by
  intro r
  have h0 : (pt mi 0 hmi lt0).val % 25 = 0 := pt_mod mi 0 hmi lt0
  have h1 : ¬(pt mi 0 hmi lt0).val % 25 = 24 := by rw [h0]; decide
  obtain ⟨N, hN⟩ := Step.max0_real
  obtain ⟨m', hm'⟩ := Step.maxNew_real (xblk V c (pt mi 0 hmi lt0)) (wblk V c (pt mi 0 hmi lt0)) Step.max0
    (fun r d => xr V c (rowOf (pt mi 0 hmi lt0) r) d) (fun j d => wr V c (tabOf (pt mi 0 hmi lt0) j) d) (fun _ => N)
    (xblk_real V c hx _) (wblk_real V c hw _) hN
  have hmax : ∀ r, (stateAt V c (pt mi 0 hmi lt0).val (pt mi 0 hmi lt0).isLt).2.2.1 (ix2 r (0 : Fin 1)) = ((m' r : ℝ) : EReal) := by
    intro r; rw [first_max V c _ h0 h1]; exact hm' r
  have hs : shift V c mi r 0 = m' r := shift_of V c mi 0 hmi lt0 r _ (hmax r)
  refine ⟨by rw [hs]; exact hmax r, ?_, fun d => ?_⟩
  · rw [first_den V c _ h0 h1,
      Step.denNew_apply _ _ _ _ (fun r d => xr V c (rowOf (pt mi 0 hmi lt0) r) d) (fun j d => wr V c (tabOf (pt mi 0 hmi lt0) j) d) (fun _ => N) (fun _ => 0)
        (xblk_real V c hx _) (wblk_real V c hw _) hN Step.den0_apply m' hm' r]
    refine congrArg _ ?_
    show _ = ∑ j, Real.exp (sc V c _ 0 j - shift V c mi r 0)
    rw [mul_zero, zero_add, hs]
    refine Finset.sum_congr rfl fun j _ => ?_
    have := sc_eq V c (rowOf (pt mi 0 hmi lt0) r) (pt mi 0 hmi lt0) j
    rw [h0] at this; rw [this]
  · rw [first_acc V c _ h0 h1,
      Step.accNew_apply _ _ _ _ (fun r d => xr V c (rowOf (pt mi 0 hmi lt0) r) d) (fun j d => wr V c (tabOf (pt mi 0 hmi lt0) j) d) (fun _ => N) (fun _ _ => 0)
        (xblk_real V c hx _) (wblk_real V c hw _) hN Step.acc0_apply m' hm' r d]
    refine congrArg _ ?_
    show _ = ∑ j, Real.exp (sc V c _ 0 j - shift V c mi r 0) * uc V c d 0 j
    rw [mul_zero, zero_add, hs]
    refine Finset.sum_congr rfl fun j _ => ?_
    have e1 := sc_eq V c (rowOf (pt mi 0 hmi lt0) r) (pt mi 0 hmi lt0) j
    have e2 := uc_eq V c d (pt mi 0 hmi lt0) j
    rw [h0] at e1 e2; rw [e1, e2]

include hx hw in
theorem inv_succ (mi : ℕ) (hmi : mi < 2) (k : ℕ) (hk : k + 1 < 25) (ih : Inv V c mi hmi k (by omega)) : Inv V c mi hmi (k + 1) hk := by
  intro r
  have hmod : (pt mi (k + 1) hmi hk).val % 25 = k + 1 := pt_mod mi (k + 1) hmi hk
  have h0 : ¬(pt mi (k + 1) hmi hk).val % 25 = 0 := by rw [hmod]; omega
  -- the point before is tile k
  have hprev : prev V c (pt mi (k + 1) hmi hk) = stateAt V c (pt mi k hmi (by omega)).val (pt mi k hmi (by omega)).isLt := rfl
  have hrow : ∀ r, rowOf (pt mi (k + 1) hmi hk) r = rowOf (pt mi 0 hmi lt0) r := pt_row mi (k + 1) hmi hk
  have hxr : ∀ r d, xblk V c (pt mi (k + 1) hmi hk) (ix2 r d) = ((xr V c (rowOf (pt mi 0 hmi lt0) r) d : ℝ) : EReal) := by
    intro r d; rw [xblk_real V c hx, hrow]
  obtain ⟨m', hm'⟩ := Step.maxNew_real (xblk V c (pt mi (k + 1) hmi hk)) (wblk V c (pt mi (k + 1) hmi hk)) (prev V c (pt mi (k + 1) hmi hk)).2.2.1
    (fun r d => xr V c (rowOf (pt mi 0 hmi lt0) r) d) (fun j d => wr V c (tabOf (pt mi (k + 1) hmi hk) j) d) (fun r => shift V c mi r k)
    hxr (wblk_real V c hw _) (fun r => by rw [hprev]; exact (ih r).1)
  have hmax : ∀ r, (stateAt V c (pt mi (k + 1) hmi hk).val (pt mi (k + 1) hmi hk).isLt).2.2.1 (ix2 r (0 : Fin 1)) = ((m' r : ℝ) : EReal) := by
    intro r; rw [next_max V c _ h0]; exact hm' r
  have hs : shift V c mi r (k + 1) = m' r := shift_of V c mi (k + 1) hmi hk r _ (hmax r)
  refine ⟨by rw [hs]; exact hmax r, ?_, fun d => ?_⟩
  · rw [next_den V c _ h0,
      Step.denNew_apply _ _ _ _ (fun r d => xr V c (rowOf (pt mi 0 hmi lt0) r) d) (fun j d => wr V c (tabOf (pt mi (k + 1) hmi hk) j) d) (fun r => shift V c mi r k)
        (fun r => Cert.Spec.den (sc V c (rowOf (pt mi 0 hmi lt0) r)) (shift V c mi r) k)
        hxr (wblk_real V c hw _) (fun r => by rw [hprev]; exact (ih r).1) (fun r => by rw [hprev]; exact (ih r).2.1) m' hm' r]
    refine congrArg _ ?_
    show _ = Real.exp (shift V c mi r k - shift V c mi r (k + 1)) * Cert.Spec.den _ _ k + ∑ j, Real.exp (sc V c _ (k + 1) j - shift V c mi r (k + 1))
    rw [hs]
    refine congrArg _ (Finset.sum_congr rfl fun j _ => ?_)
    have := sc_eq V c (rowOf (pt mi 0 hmi lt0) r) (pt mi (k + 1) hmi hk) j
    rw [hmod] at this; rw [this]
  · rw [next_acc V c _ h0,
      Step.accNew_apply _ _ _ _ (fun r d => xr V c (rowOf (pt mi 0 hmi lt0) r) d) (fun j d => wr V c (tabOf (pt mi (k + 1) hmi hk) j) d) (fun r => shift V c mi r k)
        (fun r d => Cert.Spec.num (sc V c (rowOf (pt mi 0 hmi lt0) r)) (uc V c d) (shift V c mi r) k)
        hxr (wblk_real V c hw _) (fun r => by rw [hprev]; exact (ih r).1) (fun r d => by rw [hprev]; exact (ih r).2.2 d) m' hm' r d]
    refine congrArg _ ?_
    show _ = Real.exp (shift V c mi r k - shift V c mi r (k + 1)) * Cert.Spec.num _ _ _ k + ∑ j, Real.exp (sc V c _ (k + 1) j - shift V c mi r (k + 1)) * uc V c d (k + 1) j
    rw [hs]
    refine congrArg _ (Finset.sum_congr rfl fun j _ => ?_)
    have e1 := sc_eq V c (rowOf (pt mi 0 hmi lt0) r) (pt mi (k + 1) hmi hk) j
    have e2 := uc_eq V c d (pt mi (k + 1) hmi hk) j
    rw [hmod] at e1 e2; rw [e1, e2]

include hx hw in
theorem inv (mi : ℕ) (hmi : mi < 2) : ∀ (k : ℕ) (hk : k < 25), Inv V c mi hmi k hk := by
  intro k
  induction k with
  | zero => intro _; exact inv_zero V c hx hw mi hmi
  | succ k ih => intro hk; exact inv_succ V c hx hw mi hmi k hk (ih (by omega))

/-! ## The result -/

/-- What region 0 leaves in its result array: per activation row the softmax-weighted average of the table's columns. -/
def out2 : Vec Ideal S4096x256 .f32 := fun i =>
  ((Cert.Spec.attnRow (fun v : Fin 32000 => ∑ d : Fin 256, xr V c (i 0) d * wr V c v d) (fun v => wr V c v (i 1)) : ℝ) : EReal)

include hx hw in
/-- What a LAST point writes back is its block of `out2`. -/
theorem flushed_eq (t : Fin cfg1.N) (hf : (cfg1.win 2).flush t = true) :
    (dat V c).flushed 2 t = ((cfg1.win 2).blk t).view.read (Elt Ideal) (out2 V c) := by
  have h24 : t.val % 25 = 24 := (flush1_2 t).mp hf
  have ht50 := lt50 t
  obtain ⟨mi, hmi, rfl⟩ : ∃ (mi : ℕ) (hmi : mi < 2), t = pt mi 24 hmi lt24 :=
    ⟨t.val / 25, by omega, Fin.ext (by show t.val = t.val / 25 * 25 + 24; omega)⟩
  have h1 : (pt mi 24 hmi lt24).val % 25 = 24 := pt_mod mi 24 hmi lt24
  have h0 : ¬(pt mi 24 hmi lt24).val % 25 = 0 := by rw [h1]; decide
  show (cfg1.win 2).cut (grid1.coords (pt mi 24 hmi lt24)) ((dat V c).after 2 (pt mi 24 hmi lt24)) = _
  rw [after_out]
  funext j
  obtain ⟨r, d, rfl⟩ : ∃ (r : Fin 2048) (d : Fin 256), j = ix2 r d := ⟨j 0, j 1, eq_ix2 j⟩
  rw [oblk_apply]
  show (stateAt V c (pt mi 24 hmi lt24).val (pt mi 24 hmi lt24).isLt).1 (ix2 r d) = out2 V c (ix2 (rowOf (pt mi 24 hmi lt24) r) d)
  rw [last_out V c _ h0 h1]
  rw [Step.quot_apply _ _ (fun r d => Cert.Spec.num (sc V c (rowOf (pt mi 0 hmi lt0) r)) (uc V c d) (shift V c mi r) 24)
      (fun r => Cert.Spec.den (sc V c (rowOf (pt mi 0 hmi lt0) r)) (shift V c mi r) 24)
      (fun r d => (inv V c hx hw mi hmi 24 lt24 r).2.2 d)
      (fun r => (inv V c hx hw mi hmi 24 lt24 r).2.1)
      r d (ne_of_gt (den_pos _ _ _))]
  rw [pt_row mi 24 hmi lt24 r]
  unfold out2
  refine congrArg _ ?_
  exact Cert.Spec.online_attn (T := 1280) (N := 24) (n := 32000) _ _ _ (by norm_num) _ _
    (fun k j h _ => by unfold sc; rw [dif_pos h]) (fun k j h _ => by unfold uc; rw [dif_pos h])

include hx hw in
/-- THE RESULT ARRAY after region 0. -/
theorem final : (dat V c).arrAt 2 cfg1.N = out2 V c :=
  (dat V c).arrAt_eq_of_cover 2 (out2 V c) (fun t hf => flushed_eq V c hx hw t hf) covered

end Reals

end Cert.KernelIdeal.R1

end
-- ==== Proof.KernelIdeal.Result.lean ====
/-
  The idealized kernel's two result arrays are the specification's function of the arguments.

  Result K is the reshape of region K's output array; that array holds, at row R = b·1024 + q and column d, the
  softmax-weighted average of the table's column d under the scores of row R of the reshaped activations, which is row
  (b, q) of the activations themselves.
-/
import proofs.«418895_j12197707120761_3_alg».proof.Proof.KernelIdeal.Whole
import proofs.«418895_j12197707120761_3_alg».proof.Proof.KernelIdeal.Final0
import proofs.«418895_j12197707120761_3_alg».proof.Proof.KernelIdeal.Final1

set_option maxRecDepth 16384

noncomputable section

open scoped BigOperators

namespace Cert.KernelIdeal.Result

open Idealize.ShloMosaic Idealize.ShloMosaic.TcCoe Idealize.ShloMosaic.ValueIdx
open Idealize.SL.Sem
open Cert.KernelIdeal Cert.KernelIdeal.Gen

/-- Row `R` of the reshaped activations is row `(R / 1024, R % 1024)` of the activations. -/
theorem reshape_in_apply (X : Vec Ideal S4x1024x256 .f32) (b : Fin 4) (q : Fin 1024) (d : Fin 256) (R : Fin 4096) (hR : R.val = b.val * 1024 + q.val) :
    shapeCast S4096x256 X shapeCasts_S4x1024x256_S4096x256 (ix2 R d) = X (ix3 b q d) :=
  shapeCast_apply X _ (ix2 R d) (ix3 b q d) (by
    rw [Shape.rowMajor_val_three, Shape.rowMajor_val_two]
    show (b.val * 1024 + q.val) * 256 + d.val = R.val * 256 + d.val
    rw [hR])

/-- Entry `(b, q, d)` of a reshaped-back result is entry `(b·1024 + q, d)` of the 4096-row array. -/
theorem reshape_out_apply (Y : Vec Ideal S4096x256 .f32) (b : Fin 4) (q : Fin 1024) (d : Fin 256) :
    shapeCast S4x1024x256 Y shapeCasts_S4096x256_S4x1024x256 (ix3 b q d)
      = Y (ix2 ⟨b.val * 1024 + q.val, by have := b.isLt; have := q.isLt; omega⟩ d) :=
  shapeCast_apply Y _ (ix3 b q d) (ix2 ⟨b.val * 1024 + q.val, by have := b.isLt; have := q.isLt; omega⟩ d) (by
    rw [Shape.rowMajor_val_three, Shape.rowMajor_val_two]
    show (b.val * 1024 + q.val) * 256 + d.val = (b.val * 1024 + q.val) * 256 + d.val
    rfl)

theorem finite_reshape (X : Vec Ideal S4x1024x256 .f32) (hX : Cert.Spec.Finite X) :
    Cert.Spec.Finite (fun i : S4096x256.Idx => shapeCast S4096x256 X shapeCasts_S4x1024x256_S4096x256 i) :=
  fun i => by unfold shapeCast; exact hX _

/-- The one computation behind both results: reshape the activations, take the per-row softmax-weighted averages `out`
    (given as a function of its reshaped input `x2` and table `W` by `hout`), reshape back — this is `G X W`. -/
theorem result_eq_G (X : Vec Ideal S4x1024x256 .f32) (W : Vec Ideal S32000x256 .f32)
    (x2 : Vec Ideal S4096x256 .f32) (hx2 : x2 = fun i => shapeCast S4096x256 X shapeCasts_S4x1024x256_S4096x256 i)
    (out : Vec Ideal S4096x256 .f32)
    (hout : ∀ i : S4096x256.Idx, out i = ((Cert.Spec.attnRow (fun v : Fin 32000 => ∑ d : Fin 256, (x2 (ix2 (i 0) d)).toReal * (W (ix2 v d)).toReal)
      (fun v => (W (ix2 v (i 1))).toReal) : ℝ) : EReal)) :
    (fun i => shapeCast S4x1024x256 out shapeCasts_S4096x256_S4x1024x256 i) = Cert.Spec.G X W := by
  funext i
  obtain ⟨b, q, d, rfl⟩ : ∃ (b : Fin 4) (q : Fin 1024) (d : Fin 256), i = ix3 b q d := ⟨i 0, i 1, i 2, eq_ix3 i⟩
  rw [reshape_out_apply, hout]
  unfold Cert.Spec.G Cert.Spec.score
  refine congrArg _ (congrArg₂ _ (funext fun v => Finset.sum_congr rfl fun d' _ => ?_) rfl)
  show (x2 (ix2 ⟨b.val * 1024 + q.val, _⟩ d')).toReal * _ = (X (ix3 b q d')).toReal * _
  rw [hx2]
  show (shapeCast S4096x256 X shapeCasts_S4x1024x256_S4096x256 (ix2 ⟨b.val * 1024 + q.val, _⟩ d')).toReal * _ = _
  rw [reshape_in_apply X b q d' _ rfl]

variable (m : (ℓ : Loc nD τ sig) → Buf (Elt Ideal) ℓ) (ρ : Dev nD → PrngReg)

/-- Result 0 (the G path). -/
theorem result0 (c : Dev nD) (hX : Cert.Spec.Finite (m ((c : Thread nD τ).loc main_arg0))) (hW : Cert.Spec.Finite (m ((c : Thread nD τ).loc main_arg3))) :
    Whole.W4 m ρ c (Proc.devRef .tc main_v4) = Cert.Spec.G (m ((c : Thread nD τ).loc main_arg0)) (m ((c : Thread nD τ).loc main_arg3)) := by
  have hx : Cert.Spec.Finite (R0.xarr (Whole.V1 m ρ) c) := by
    show Cert.Spec.Finite (Whole.V1 m ρ c main_v0); rw [Whole.V1_main_v0]; exact finite_reshape _ hX
  have hw : Cert.Spec.Finite (R0.warr (Whole.V1 m ρ) c) := by
    show Cert.Spec.Finite (Whole.V1 m ρ c main_arg3); rw [Whole.V1_main_arg3]; exact hW
  rw [Whole.W4_main_v4, R0.final (Whole.V1 m ρ) c hx hw]
  refine result_eq_G _ _ (Whole.V1 m ρ c main_v0) (Whole.V1_main_v0 m ρ c) _ (fun i => ?_)
  show R0.out2 (Whole.V1 m ρ) c i = _
  unfold R0.out2 R0.xr R0.wr
  rw [show R0.warr (Whole.V1 m ρ) c = m ((c : Thread nD τ).loc main_arg3) from Whole.V1_main_arg3 m ρ c]

/-- Result 1 (the T path). -/
theorem result1 (c : Dev nD) (hX : Cert.Spec.Finite (m ((c : Thread nD τ).loc main_arg1))) (hW : Cert.Spec.Finite (m ((c : Thread nD τ).loc main_arg4))) :
    Whole.W4 m ρ c (Proc.devRef .tc main_v5) = Cert.Spec.G (m ((c : Thread nD τ).loc main_arg1)) (m ((c : Thread nD τ).loc main_arg4)) := by
  have hx : Cert.Spec.Finite (R1.xarr (Whole.V2 m ρ) c) := by
    show Cert.Spec.Finite (Whole.V2 m ρ c main_v1); rw [Whole.V2_main_v1]; exact finite_reshape _ hX
  have hw : Cert.Spec.Finite (R1.warr (Whole.V2 m ρ) c) := by
    show Cert.Spec.Finite (Whole.V2 m ρ c main_arg4); rw [Whole.V2_main_arg4]; exact hW
  rw [Whole.W4_main_v5, R1.final (Whole.V2 m ρ) c hx hw]
  refine result_eq_G _ _ (Whole.V2 m ρ c main_v1) (Whole.V2_main_v1 m ρ c) _ (fun i => ?_)
  show R1.out2 (Whole.V2 m ρ) c i = _
  unfold R1.out2 R1.xr R1.wr
  rw [show R1.warr (Whole.V2 m ρ) c = m ((c : Thread nD τ).loc main_arg4) from Whole.V2_main_arg4 m ρ c]

end Cert.KernelIdeal.Result

end
-- ==== Proof.RefValue.lean ====
/-
  The reference's result arrays, index by index, are the specification's function of the arguments.
-/
import proofs.«418895_j12197707120761_3_alg».proof.Proof.Gen.ReferenceIdeal.Read
import proofs.«418895_j12197707120761_3_alg».proof.Proof.Spec
import Idealize.ShloMosaic.PureOps.Ideal.Laws
import Idealize.ShloMosaic.PureOps.Reduce
import Idealize.ShloMosaic.Lib.ValueIdx
import Mathlib.Data.EReal.Basic
import Mathlib.Algebra.BigOperators.Group.Finset.Basic

noncomputable section

open scoped BigOperators

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- the reference's composed term for one path -/
def refTerm (X : Vec Ideal Cert.ReferenceIdeal.S4x1024x256 .f32) (W : Vec Ideal Cert.ReferenceIdeal.S32000x256 .f32) :
    Vec Ideal Cert.ReferenceIdeal.S4x1024x256 .f32 :=
  Host.dotGeneral (F := Ideal) (φ₁ := .f32) (φ₂ := .f32) dot_S4x1024x32000_S32000x256_S4x1024x256_2_0_01_1_n_n none (Host.divf (F := Ideal) (φ := .f32) (Host.exp (F := Ideal) (φ := .f32) (subf (F := Ideal) (φ := .f32) (Host.dotGeneral (F := Ideal) (φ₁ := .f32) (φ₂ := .f32) dot_S4x1024x256_S32000x256_S4x1024x32000_2_1_01_0_n_n none X W) (broadcastInDim S4x1024x32000 ![0, 1, 2] bcast_S4x1024x1_S4x1024x32000_0_1_2 (broadcastInDim S4x1024x1 ![0, 1] bcast_S4x1024_S4x1024x1_0_1 (maximumf (F := Ideal) (φ := .f32) (broadcastInDim S4x1024 ![] bcast_S_S4x1024 (constant (F := Ideal) S_ .f32 0xFF800000#32)) (Host.reduce (FloatOps.maximumf (F := Ideal) (φ := .f32)) (Host.dotGeneral (F := Ideal) (φ₁ := .f32) (φ₂ := .f32) dot_S4x1024x256_S32000x256_S4x1024x32000_2_1_01_0_n_n none X W) (constant (F := Ideal) S_ .f32 0xFF800000#32) reducesTo_S4x1024x32000_S4x1024_d2 h_S_)))))) (broadcastInDim S4x1024x32000 ![0, 1, 2] bcast_S4x1024x1_S4x1024x32000_0_1_2 (broadcastInDim S4x1024x1 ![0, 1] bcast_S4x1024_S4x1024x1_0_1 (Host.reduceAdd (F := Ideal) (φ := .f32) (Host.exp (F := Ideal) (φ := .f32) (subf (F := Ideal) (φ := .f32) (Host.dotGeneral (F := Ideal) (φ₁ := .f32) (φ₂ := .f32) dot_S4x1024x256_S32000x256_S4x1024x32000_2_1_01_0_n_n none X W) (broadcastInDim S4x1024x32000 ![0, 1, 2] bcast_S4x1024x1_S4x1024x32000_0_1_2 (broadcastInDim S4x1024x1 ![0, 1] bcast_S4x1024_S4x1024x1_0_1 (maximumf (F := Ideal) (φ := .f32) (broadcastInDim S4x1024 ![] bcast_S_S4x1024 (constant (F := Ideal) S_ .f32 0xFF800000#32)) (Host.reduce (FloatOps.maximumf (F := Ideal) (φ := .f32)) (Host.dotGeneral (F := Ideal) (φ₁ := .f32) (φ₂ := .f32) dot_S4x1024x256_S32000x256_S4x1024x32000_2_1_01_0_n_n none X W) (constant (F := Ideal) S_ .f32 0xFF800000#32) reducesTo_S4x1024x32000_S4x1024_d2 h_S_)))))) (constant (F := Ideal) S_ .f32 0x00000000#32) reducesTo_S4x1024x32000_S4x1024_d2 h_S_)))) W

/-- The composed term is the last stage of the reference read operation by operation. -/
theorem refTerm_eq_val (X : Vec Ideal S4x1024x256 .f32) (W : Vec Ideal S32000x256 .f32) :
    refTerm X W = val_main_v24 (F := Ideal) X W := rfl

/-! ## Finite sums and maxima of reals, on the extended reals -/

/-- The coercion of a finite sum of reals is the sum of the coercions. -/
theorem coe_sum {ι : Type} (t : Finset ι) (f : ι → ℝ) : ((∑ i ∈ t, f i : ℝ) : EReal) = ∑ i ∈ t, (f i : EReal) := by
  classical
  refine Finset.induction_on t (by simp) fun a s ha ih => ?_
  rw [Finset.sum_insert ha, Finset.sum_insert ha, EReal.coe_add, ih]

/-- From −∞, the maximum of finitely many, at least one, reals is a real. -/
theorem fold_max_coe {ι : Type} (t : Finset ι) (ht : t.Nonempty) (f : ι → ℝ) :
    ∃ M : ℝ, t.fold max (⊥ : EReal) (fun k => (f k : EReal)) = (M : EReal) := by
  induction ht using Finset.Nonempty.cons_induction with
  | singleton a => exact ⟨f a, by rw [Finset.fold_singleton]; exact max_bot_right _⟩
  | cons a s ha hs ih =>
    obtain ⟨M, hM⟩ := ih
    exact ⟨max (f a) M, by rw [Finset.fold_cons, hM]; exact (EReal.coe_strictMono.monotone.map_max).symm⟩

/-! ## The composed index functions at coordinates -/

theorem lidx24_ix (b : Fin 4) (q : Fin 1024) (d : Fin 256) (k : Fin 32000) :
    lidx_main_v24 (ix3 b q d) k = ix3 b q k :=
  funext fun a => Fin.ext (by match a with | ⟨0, _⟩ => rfl | ⟨1, _⟩ => rfl | ⟨2, _⟩ => rfl)

theorem ridx24_ix (b : Fin 4) (q : Fin 1024) (d : Fin 256) (k : Fin 32000) :
    ridx_main_v24 (ix3 b q d) k = ix2 k d :=
  funext fun a => Fin.ext (by match a with | ⟨0, _⟩ => rfl | ⟨1, _⟩ => rfl)

theorem idx9_10_ix (b : Fin 4) (q : Fin 1024) (k : Fin 32000) :
    idx_main_v9 (idx_main_v10 (ix3 b q k)) = ix2 b q :=
  funext fun a => Fin.ext (by match a with | ⟨0, _⟩ => rfl | ⟨1, _⟩ => rfl)

theorem idx8_ix (b : Fin 4) (q : Fin 1024) (k : Fin 32000) :
    idx_main_v8 (ix2 b q) k = ix3 b q k :=
  funext fun a => Fin.ext (by match a with | ⟨0, _⟩ => rfl | ⟨1, _⟩ => rfl | ⟨2, _⟩ => rfl)

theorem idx4_5_ix (b : Fin 4) (q : Fin 1024) (k : Fin 32000) :
    idx_main_v4 (idx_main_v5 (ix3 b q k)) = ix2 b q :=
  funext fun a => Fin.ext (by match a with | ⟨0, _⟩ => rfl | ⟨1, _⟩ => rfl)

theorem lidx0_ix (b : Fin 4) (q : Fin 1024) (k : Fin 32000) (d : Fin 256) :
    lidx_main_v0 (ix3 b q k) d = ix3 b q d :=
  funext fun a => Fin.ext (by match a with | ⟨0, _⟩ => rfl | ⟨1, _⟩ => rfl | ⟨2, _⟩ => rfl)

theorem ridx0_ix (b : Fin 4) (q : Fin 1024) (k : Fin 32000) (d : Fin 256) :
    ridx_main_v0 (ix3 b q k) d = ix2 k d :=
  funext fun a => Fin.ext (by match a with | ⟨0, _⟩ => rfl | ⟨1, _⟩ => rfl)

/-! ## The maximum over the table rows -/

/-- The pattern of −∞. -/
theorem ofBits_neg_inf : Ideal.ofBits .f32 0xFF800000#32 = (⊥ : EReal) := by simp [Ideal.ofBits, Ideal.ieee]

/-- Row `(b, q)` with table row `k` put back on the reduced axis is `(b, q, k)`. -/
theorem lift_ix (h : S4x1024x32000.Reduces [2] S4x1024) (b : Fin 4) (q : Fin 1024) (k : Fin 32000) :
    h.lift (ix2 b q) k = ix3 b q k :=
  funext fun a => Fin.ext (by match a with | ⟨0, _⟩ => rfl | ⟨1, _⟩ => rfl | ⟨2, _⟩ => rfl)

/-- From −∞, the reduce with a maximum body over the table rows, at row `(b, q)`, is the maximum of that row's entries. -/
theorem max_read (x : Vec Ideal S4x1024x32000 .f32) (b : Fin 4) (q : Fin 1024) :
    Host.reduce (FloatOps.maximumf (F := Ideal) (φ := .f32)) x (constant (F := Ideal) S_ .f32 0xFF800000#32)
        reducesTo_S4x1024x32000_S4x1024_d2 h_S_ (ix2 b q)
      = (Finset.univ : Finset (Fin 32000)).fold max (⊥ : EReal) (fun k => x (ix3 b q k)) := by
  have h : S4x1024x32000.Reduces [2] S4x1024 := by decide
  rw [Host.reduce_eq_fold_single (FloatOps.maximumf (F := Ideal) (φ := .f32)) x _ reducesTo_S4x1024x32000_S4x1024_d2 h h_S_]
  have hf : (x ∘ h.lift (ix2 b q)) = fun k : Fin 32000 => x (ix3 b q k) := funext fun k => congrArg x (lift_ix h b q k)
  have hi : constant (F := Ideal) S_ .f32 0xFF800000#32 (Shape.Idx.first h_S_) = (⊥ : EReal) := ofBits_neg_inf
  rw [hi]
  exact congrArg (fun f => Finset.fold max (⊥ : EReal) f (Finset.univ : Finset (Fin 32000))) hf

/-! ## The stages at coordinates, as coerced reals -/

section Stages

variable (X : Vec Ideal S4x1024x256 .f32) (W : Vec Ideal S32000x256 .f32)
  (hX : Cert.Spec.Finite X) (hW : Cert.Spec.Finite W) (b : Fin 4) (q : Fin 1024)

include hX hW

/-- The scores: finite inputs give real products and real sums. -/
theorem v0_coe (k : Fin 32000) :
    val_main_v0 (F := Ideal) X W (ix3 b q k) = ((Cert.Spec.score X W b q k : ℝ) : EReal) := by
  rw [val_main_v0_apply]
  unfold Cert.Spec.score
  rw [coe_sum]
  refine Finset.sum_congr rfl fun d _ => ?_
  rw [lidx0_ix, ridx0_ix, EReal.coe_mul, hX.coe_toReal, hW.coe_toReal]

/-- The shift: the row's maximum is a real number. -/
theorem v3_real : ∃ M : ℝ, val_main_v3 (F := Ideal) X W (ix2 b q) = (M : EReal) := by
  obtain ⟨M, hM⟩ := fold_max_coe (Finset.univ : Finset (Fin 32000)) ⟨0, Finset.mem_univ _⟩ (Cert.Spec.score X W b q)
  refine ⟨M, ?_⟩
  have h1 : val_main_v1 (F := Ideal) X W (ix2 b q) = (M : EReal) := by
    unfold val_main_v1 val_main_cst
    rw [max_read]
    simp only [v0_coe X W hX hW b q]
    exact hM
  rw [val_main_v3_apply, val_main_v2_apply, val_main_cst_0_apply, h1]
  show max (Ideal.ofBits .f32 0xFF800000#32) (M : EReal) = (M : EReal)
  rw [ofBits_neg_inf]
  exact max_bot_left _

/-- The shifted exponentials. -/
theorem v7_coe (M : ℝ) (hM : val_main_v3 (F := Ideal) X W (ix2 b q) = (M : EReal)) (k : Fin 32000) :
    val_main_v7 (F := Ideal) X W (ix3 b q k) = ((Real.exp (Cert.Spec.score X W b q k - M) : ℝ) : EReal) := by
  rw [val_main_v7_apply, val_main_v6_apply, val_main_v5_apply, val_main_v4_apply, idx4_5_ix, hM, v0_coe X W hX hW b q k]
  show Ideal.exp ((Cert.Spec.score X W b q k : EReal) - (M : EReal)) = _
  rw [← EReal.coe_sub, Ideal.exp_coe]

/-- Their sum. -/
theorem v8_coe (M : ℝ) (hM : val_main_v3 (F := Ideal) X W (ix2 b q) = (M : EReal)) :
    val_main_v8 (F := Ideal) X W (ix2 b q)
      = ((∑ k : Fin 32000, Real.exp (Cert.Spec.score X W b q k - M) : ℝ) : EReal) := by
  rw [val_main_v8_apply, val_main_cst_1_apply, Ideal.ofBits_def, Ideal.ofBits_zero_f32, zero_add, coe_sum]
  refine Finset.sum_congr rfl fun k _ => ?_
  rw [idx8_ix, v7_coe X W hX hW b q M hM k]

/-- The normalised exponentials. -/
theorem v11_coe (M : ℝ) (hM : val_main_v3 (F := Ideal) X W (ix2 b q) = (M : EReal)) (k : Fin 32000) :
    val_main_v11 (F := Ideal) X W (ix3 b q k)
      = ((Real.exp (Cert.Spec.score X W b q k - M) / ∑ k' : Fin 32000, Real.exp (Cert.Spec.score X W b q k' - M) : ℝ) : EReal) := by
  have hL : (∑ k' : Fin 32000, Real.exp (Cert.Spec.score X W b q k' - M)) ≠ 0 :=
    (Finset.sum_pos (fun k' _ => Real.exp_pos _) ⟨0, Finset.mem_univ _⟩).ne'
  rw [val_main_v11_apply, val_main_v10_apply, val_main_v9_apply, idx9_10_ix, v8_coe X W hX hW b q M hM,
    v7_coe X W hX hW b q M hM k]
  show Ideal.div _ _ = _
  rw [Ideal.div_coe hL, ← EReal.coe_mul, mul_one_div]

end Stages

/-! ## The reference is the specification -/

theorem refTerm_eq_G (X : Vec Ideal Cert.ReferenceIdeal.S4x1024x256 .f32) (W : Vec Ideal Cert.ReferenceIdeal.S32000x256 .f32)
    (hX : Cert.Spec.Finite X) (hW : Cert.Spec.Finite W) : refTerm X W = Cert.Spec.G X W := by
  funext i
  obtain ⟨b, q, d, rfl⟩ : ∃ (b : Fin 4) (q : Fin 1024) (d : Fin 256), i = ix3 b q d := ⟨i 0, i 1, i 2, eq_ix3 i⟩
  obtain ⟨M, hM⟩ := v3_real X W hX hW b q
  show refTerm X W (ix3 b q d)
    = ((Cert.Spec.attnRow (Cert.Spec.score X W b q) (fun v => (W (ix2 v d)).toReal) : ℝ) : EReal)
  rw [refTerm_eq_val, val_main_v24_apply, ← Cert.Spec.softmax_dot _ _ M, coe_sum]
  refine Finset.sum_congr rfl fun k _ => ?_
  rw [lidx24_ix, ridx24_ix, v11_coe X W hX hW b q M hM k, EReal.coe_mul, hW.coe_toReal]

/-! ## The reference's run, over the composed term -/

/-- On every device, from any memory with zero counters: every weakly fair execution of the reference terminates with
    each result at the composed term of its two arguments' launch contents, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v24)
          = refTerm (m ((c.tc : Thread nD τ).loc main_arg0)) (m ((c.tc : Thread nD τ).loc main_arg3))
      ∧ r.2.mem ((c.tc : Thread nD τ).loc main_v25)
          = refTerm (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.RefValue

end
-- ==== Proof.FiniteInputs.lean ====
/-
  The precondition "every float input is finite", read back: each of the four float arrays is tested
  elementwise by |x| < +∞, the tests reduced by `and` over all axes and the four results and-ed. When the result
  is the word 1, every entry of the four arrays is a real number.
-/
import proofs.«418895_j12197707120761_3_alg».proof.Pre_finite_inputs
import proofs.«418895_j12197707120761_3_alg».proof.Proof.Spec
import Idealize.ShloMosaic.Lib.ReduceAll
import Idealize.ShloMosaic.PureOps.Ideal
import Idealize.ShloMosaic.Lib.ValueIdx

noncomputable section

namespace Cert.FiniteInputs

open Idealize.ShloMosaic Idealize.ShloMosaic.ValueIdx

/-- The word 0x7F800000 denotes +∞. -/
theorem inf_word : Ideal.ofBits .f32 0x7F800000#32 = (⊤ : EReal) := by
  simp [Ideal.ofBits, Ideal.ieee]

/-- |x| = max x (-x) below +∞ says x is neither infinity. -/
theorem real_of_abs_lt_top (x : EReal) (h : Ideal.cmp .olt (max x (-x)) ⊤ = 1#1) : x ≠ ⊤ ∧ x ≠ ⊥ := by
  induction x using EReal.rec with
  | bot => simp [Ideal.cmp] at h
  | coe r => exact ⟨EReal.coe_ne_top r, EReal.coe_ne_bot r⟩
  | top => simp [Ideal.cmp] at h

/-- The rank-0 shape has one index. -/
instance : Subsingleton Cert.Pre_finite_inputs.S_.Idx := ⟨fun a b => funext fun d => d.elim0⟩

/-- One array's test: if the `and` over all axes of the elementwise |x| < +∞ is 1, every entry of x is real. -/
theorem finite_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim S ![] hb (constant (F := Ideal) Cert.Pre_finite_inputs.S_ .f32 0x7F800000#32)))
        init hr hu ix0 = 1#1) :
    Cert.Spec.Finite x := by
  intro i
  have hi := Host.reduce_andi_all _ init hr hu ix0 e i
  apply real_of_abs_lt_top
  rw [← inf_word]
  exact hi

theorem finite_of_pre [Cert.Pre_finite_inputs.Facts]
    (x0 x1 : FVec Ideal Cert.Pre_finite_inputs.S4x1024x256 .f32) (x2 : IVec Cert.Pre_finite_inputs.S4x1024 1)
    (x3 x4 : FVec Ideal Cert.Pre_finite_inputs.S32000x256 .f32)
    (h : Cert.Pre_finite_inputs.fn (F := Ideal) x0 x1 x2 x3 x4 = (fun _ => 1#1)) :
    Cert.Spec.Finite x0 ∧ Cert.Spec.Finite x1 ∧ Cert.Spec.Finite x3 ∧ Cert.Spec.Finite x4 := by
  have h0 := congrFun h ix0
  dsimp only [Cert.Pre_finite_inputs.fn, Cert.Pre_finite_inputs.fn_part1, andi] at h0
  obtain ⟨h012, h4⟩ := IntOp.andi_eq_one.1 h0
  obtain ⟨h01, h3⟩ := IntOp.andi_eq_one.1 h012
  obtain ⟨h0', h1⟩ := IntOp.andi_eq_one.1 h01
  exact ⟨finite_of_all x0 _ _ _ _ h0', finite_of_all x1 _ _ _ _ h1, finite_of_all x3 _ _ _ _ h3,
    finite_of_all x4 _ _ _ _ h4⟩

end Cert.FiniteInputs

end
-- ==== Proof.lean ====
/-
  The five claims.

  Kernel and reference compute, for every row x of the activations and every column d of the table,
      ( Σ_v e^{s_v} W[v, d] ) / ( Σ_v e^{s_v} ),   s_v = x · W[v, ·],   v < 32000,
  twice (two activation arrays, two tables). The reference subtracts the row's maximum score before exponentiating; the
  kernel walks the table in 25 tiles keeping a running maximum (started from a large finite constant), a running
  denominator and a running numerator in scratch memory, rescaling by the exponential of the maximum's change, and
  divides at the last tile. Over the reals any finite shift cancels between numerator and denominator, and the rescaled
  partial sums telescope, so both are the same function of finite inputs: `Cert.Spec.G`.

  The frames: each program runs to the end, faulting nowhere, and leaves its arguments unchanged — for the kernel's two
  programs from the run of @main's four segments (reshapes, the two pallas_calls, reshapes), whose last valuation holds
  every argument as launched; for the reference from its run. The idealization rewrote nothing, so `preserves` is trivial.
-/
import proofs.«418895_j12197707120761_3_alg».proof.Defs
import proofs.«418895_j12197707120761_3_alg».proof.Proof.Gen.Kernel
import proofs.«418895_j12197707120761_3_alg».proof.Proof.Gen.KernelIdeal
import proofs.«418895_j12197707120761_3_alg».proof.Proof.Gen.ReferenceIdeal
import proofs.«418895_j12197707120761_3_alg».proof.Proof.Gen.Pre_finite_inputs
import proofs.«418895_j12197707120761_3_alg».proof.Proof.Kernel.Whole
import proofs.«418895_j12197707120761_3_alg».proof.Proof.KernelIdeal.Result
import proofs.«418895_j12197707120761_3_alg».proof.Proof.RefValue
import proofs.«418895_j12197707120761_3_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel's frame: the run's last valuation at each argument is the launch memory. -/
theorem frame_k : Cert.frame_Kernel := fun m ρ _ =>
  (θ_run Cert.Kernel.defs _ _).mono (fun r h c =>
    ⟨(h c _ (Cert.Kernel.Whole.mem_uc Cert.Kernel.main_arg0 (by decide))).trans (Cert.Kernel.Whole.W4_main_arg0 m ρ c),
     (h c _ (Cert.Kernel.Whole.mem_uc Cert.Kernel.main_arg1 (by decide))).trans (Cert.Kernel.Whole.W4_main_arg1 m ρ c),
     (h c _ (Cert.Kernel.Whole.mem_uc Cert.Kernel.main_arg2 (by decide))).trans (Cert.Kernel.Whole.W4_main_arg2 m ρ c),
     (h c _ (Cert.Kernel.Whole.mem_uc Cert.Kernel.main_arg3 (by decide))).trans (Cert.Kernel.Whole.W4_main_arg3 m ρ c),
     (h c _ (Cert.Kernel.Whole.mem_uc Cert.Kernel.main_arg4 (by decide))).trans (Cert.Kernel.Whole.W4_main_arg4 m ρ c)⟩)
    (Cert.Kernel.Whole.run_all (F := Bits) m ρ)

/-- The idealized kernel's frame, likewise. -/
theorem frame_ki : Cert.frame_KernelIdeal := fun m ρ _ =>
  (θ_run Cert.KernelIdeal.defs _ _).mono (fun r h c =>
    ⟨(h c _ (Cert.KernelIdeal.Whole.mem_uc Cert.KernelIdeal.main_arg0 (by decide))).trans (Cert.KernelIdeal.Whole.W4_main_arg0 m ρ c),
     (h c _ (Cert.KernelIdeal.Whole.mem_uc Cert.KernelIdeal.main_arg1 (by decide))).trans (Cert.KernelIdeal.Whole.W4_main_arg1 m ρ c),
     (h c _ (Cert.KernelIdeal.Whole.mem_uc Cert.KernelIdeal.main_arg2 (by decide))).trans (Cert.KernelIdeal.Whole.W4_main_arg2 m ρ c),
     (h c _ (Cert.KernelIdeal.Whole.mem_uc Cert.KernelIdeal.main_arg3 (by decide))).trans (Cert.KernelIdeal.Whole.W4_main_arg3 m ρ c),
     (h c _ (Cert.KernelIdeal.Whole.mem_uc Cert.KernelIdeal.main_arg4 (by decide))).trans (Cert.KernelIdeal.Whole.W4_main_arg4 m ρ c)⟩)
    (Cert.KernelIdeal.Whole.run_all (F := Ideal) m ρ)

/-- The reference's frame: its run with the results dropped. -/
theorem frame_ri : Cert.frame_ReferenceIdeal := fun m ρ _ =>
  (θ_run Cert.ReferenceIdeal.defs _ _).mono (fun _ h c => (h c).2.2) (Cert.RefValue.run m ρ)

/-- From memories agreeing on finite arguments both idealized programs end with both results at `G` of the arguments. -/
theorem algebraic : Cert.algebraic_KernelIdeal_ReferenceIdeal := by
  intro m ρ m' ρ' hpre hagree
  have hfin := fun c => Cert.FiniteInputs.finite_of_pre _ _ _ _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.Spec.G (m ((c.tc : Thread Cert.KernelIdeal.nD Cert.KernelIdeal.τ).loc Cert.KernelIdeal.main_arg1)) (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Whole.mem_uc Cert.KernelIdeal.main_v4 (by decide))).trans (Cert.KernelIdeal.Result.result0 m ρ c (hfin c).1 (hfin c).2.2.1),
       (h c _ (Cert.KernelIdeal.Whole.mem_uc Cert.KernelIdeal.main_v5 (by decide))).trans (Cert.KernelIdeal.Result.result1 m ρ c (hfin c).2.1 (hfin c).2.2.2),
       (h c _ (Cert.KernelIdeal.Whole.mem_uc Cert.KernelIdeal.main_arg0 (by decide))).trans (Cert.KernelIdeal.Whole.W4_main_arg0 m ρ c),
       (h c _ (Cert.KernelIdeal.Whole.mem_uc Cert.KernelIdeal.main_arg1 (by decide))).trans (Cert.KernelIdeal.Whole.W4_main_arg1 m ρ c),
       (h c _ (Cert.KernelIdeal.Whole.mem_uc Cert.KernelIdeal.main_arg2 (by decide))).trans (Cert.KernelIdeal.Whole.W4_main_arg2 m ρ c),
       (h c _ (Cert.KernelIdeal.Whole.mem_uc Cert.KernelIdeal.main_arg3 (by decide))).trans (Cert.KernelIdeal.Whole.W4_main_arg3 m ρ c),
       (h c _ (Cert.KernelIdeal.Whole.mem_uc Cert.KernelIdeal.main_arg4 (by decide))).trans (Cert.KernelIdeal.Whole.W4_main_arg4 m ρ c)⟩)
      (Cert.KernelIdeal.Whole.run_all (F := Ideal) m ρ)
  · refine (θ_run Cert.ReferenceIdeal.defs _ _).mono (fun r h c => ⟨(h c).1.trans ?_, (h c).2.1.trans ?_, (h c).2.2⟩) (Cert.RefValue.run m' ρ')
    · rw [(hagree c).1, (hagree c).2.2.2.1]
      exact Cert.RefValue.refTerm_eq_G _ _ (hfin c).1 (hfin c).2.2.1
    · rw [(hagree c).2.1, (hagree c).2.2.2.2]
      exact Cert.RefValue.refTerm_eq_G _ _ (hfin c).2.1 (hfin c).2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
